-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v118)) (v1 : (c : Dev Cert.KernelIdeal.nD) → Buf (Elt Ideal) ((c.tc : Thread Cert.KernelIdeal.nD Cert.KernelIdeal.τ).loc Cert.KernelIdeal.main_v119)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v118) = v0 c
          ∧ r.2.mem ((c.tc : Thread Cert.KernelIdeal.nD Cert.KernelIdeal.τ).loc Cert.KernelIdeal.main_v119) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v183) = v0 c
          ∧ r.2.mem ((c.tc : Thread Cert.ReferenceIdeal.nD Cert.ReferenceIdeal.τ).loc Cert.ReferenceIdeal.main_v184) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S1600000 : Shape := ⟨1, ![1600000]⟩
abbrev S50000 : Shape := ⟨1, ![50000]⟩
abbrev S3x128x128 : Shape := ⟨3, ![3, 128, 128]⟩
abbrev S3x128 : Shape := ⟨2, ![3, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_arg7 : FVec F S3x128 .f32) (main_arg8 : FVec F S3x128 .f32) (main_arg9 : FVec F S3x128 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg7
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg8
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128 .f32 := Host.absf main_arg9
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  main_v33

def fn {F : FTy → Type} [FloatOps F] (main_arg0 : FVec F S50000x128 .f32) (main_arg1 : IVec S1600000 32) (main_arg2 : IVec S1600000 32) (main_arg3 : IVec S50000 32) (main_arg4 : FVec F S3x128x128 .f32) (main_arg5 : FVec F S3x128 .f32) (main_arg6 : FVec F S3x128x128 .f32) (main_arg7 : FVec F S3x128 .f32) (main_arg8 : FVec F S3x128 .f32) (main_arg9 : FVec F S3x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg4
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg5
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg6
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg7 main_arg8 main_arg9 main_v13 main_v16
-- ==== Kernel.lean ====
abbrev S50000x128 : Shape := ⟨2, ![50000, 128]⟩
abbrev S1600000 : Shape := ⟨1, ![1600000]⟩
abbrev S50000 : Shape := ⟨1, ![50000]⟩
abbrev S3x128x128 : Shape := ⟨3, ![3, 128, 128]⟩
abbrev S3x128 : Shape := ⟨2, ![3, 128]⟩
abbrev S50000x1 : Shape := ⟨2, ![50000, 1]⟩
abbrev S1x512 : Shape := ⟨2, ![1, 512]⟩
abbrev S50000x512 : Shape := ⟨2, ![50000, 512]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000x128 : Shape := ⟨2, ![5000, 128]⟩
abbrev S512x128 : Shape := ⟨2, ![512, 128]⟩
abbrev S5000x512 : Shape := ⟨2, ![5000, 512]⟩
abbrev S500x128 : Shape := ⟨2, ![500, 128]⟩
abbrev S500x384 : Shape := ⟨2, ![500, 384]⟩
abbrev S50000x384 : Shape := ⟨2, ![50000, 384]⟩

abbrev nBuf : Space → Nat
  | .hbm => 162
  | .vmem => 60
  | .smem => 0
  | _ => 0

abbrev hbmTy0_0 (i : Nat) : BufTy := match i % 128 with
  | 0 => ⟨S50000x128, .f32⟩
  | 1 => ⟨S1600000, .i32⟩
  | 2 => ⟨S1600000, .i32⟩
  | 3 => ⟨S50000, .i32⟩
  | 4 => ⟨S3x128x128, .f32⟩
  | 5 => ⟨S3x128, .f32⟩
  | 6 => ⟨S3x128x128, .f32⟩
  | 7 => ⟨S3x128, .f32⟩
  | 8 => ⟨S3x128, .f32⟩
  | 9 => ⟨S3x128, .f32⟩
  | 10 => ⟨S50000x1, .i32⟩
  | 11 => ⟨S1x512, .i32⟩
  | 12 => ⟨S50000x512, .i32⟩
  | 13 => ⟨S50000x512, .i32⟩
  | 14 => ⟨S50000x512, .i1⟩
  | 15 => ⟨S50000x512, .bf16⟩
  | 16 => ⟨S_, .i32⟩
  | 17 => ⟨S1600000, .i32⟩
  | 18 => ⟨S1600000, .i1⟩
  | 19 => ⟨S_, .i32⟩
  | 20 => ⟨S1600000, .i32⟩
  | 21 => ⟨S1600000, .i32⟩
  | 22 => ⟨S1600000, .i32⟩
  | 23 => ⟨S1600000x1, .i32⟩
  | 24 => ⟨S1600000x128, .f32⟩
  | 25 => ⟨S_, .f32⟩
  | 26 => ⟨S50000x128, .f32⟩
  | 27 => ⟨S1600000x1, .i32⟩
  | 28 => ⟨S50000x128, .f32⟩
  | 29 => ⟨S50000x128, .f32⟩
  | 30 => ⟨S1x128x128, .f32⟩
  | 31 => ⟨S128x128, .f32⟩
  | 32 => ⟨S1x128, .f32⟩
  | 33 => ⟨S128, .f32⟩
  | 34 => ⟨S1x128x128, .f32⟩
  | 35 => ⟨S128x128, .f32⟩
  | 36 => ⟨S1x128, .f32⟩
  | 37 => ⟨S128, .f32⟩
  | 38 => ⟨S50000x128, .f32⟩
  | 39 => ⟨S_, .f32⟩
  | 40 => ⟨S128, .f32⟩
  | 41 => ⟨S_, .f32⟩
  | 42 => ⟨S128, .f32⟩
  | 43 => ⟨S128, .f32⟩
  | 44 => ⟨S1x128, .f32⟩
  | 45 => ⟨S50000x128, .f32⟩
  | 46 => ⟨S50000x128, .f32⟩
  | 47 => ⟨S50000x128, .f32⟩
  | 48 => ⟨S_, .f32⟩
  | 49 => ⟨S128, .f32⟩
  | 50 => ⟨S_, .f32⟩
  | 51 => ⟨S128, .f32⟩
  | 52 => ⟨S128, .f32⟩
  | 53 => ⟨S_, .f32⟩
  | 54 => ⟨S128, .f32⟩
  | 55 => ⟨S128, .f32⟩
  | 56 => ⟨S128, .f32⟩
  | 57 => ⟨S1x128, .f32⟩
  | 58 => ⟨S128, .f32⟩
  | 59 => ⟨S1x128, .f32⟩
  | 60 => ⟨S128, .f32⟩
  | 61 => ⟨S50000x128, .f32⟩
  | 62 => ⟨S512x128, .f32⟩
  | 63 => ⟨S500x128, .f32⟩
  | 64 => ⟨S_, .i32⟩
  | 65 => ⟨S1600000, .i32⟩
  | 66 => ⟨S1600000, .i1⟩
  | 67 => ⟨S_, .i32⟩
  | 68 => ⟨S1600000, .i32⟩
  | 69 => ⟨S1600000, .i32⟩
  | 70 => ⟨S1600000, .i32⟩
  | 71 => ⟨S1600000x1, .i32⟩
  | 72 => ⟨S1600000x128, .f32⟩
  | 73 => ⟨S_, .f32⟩
  | 74 => ⟨S50000x128, .f32⟩
  | 75 => ⟨S1600000x1, .i32⟩
  | 76 => ⟨S50000x128, .f32⟩
  | 77 => ⟨S50000x128, .f32⟩
  | 78 => ⟨S1x128x128, .f32⟩
  | 79 => ⟨S128x128, .f32⟩
  | 80 => ⟨S1x128, .f32⟩
  | 81 => ⟨S128, .f32⟩
  | 82 => ⟨S1x128x128, .f32⟩
  | 83 => ⟨S128x128, .f32⟩
  | 84 => ⟨S1x128, .f32⟩
  | 85 => ⟨S128, .f32⟩
  | 86 => ⟨S50000x128, .f32⟩
  | 87 => ⟨S_, .f32⟩
  | 88 => ⟨S128, .f32⟩
  | 89 => ⟨S_, .f32⟩
  | 90 => ⟨S128, .f32⟩
  | 91 => ⟨S128, .f32⟩
  | 92 => ⟨S1x128, .f32⟩
  | 93 => ⟨S50000x128, .f32⟩
  | 94 => ⟨S50000x128, .f32⟩
  | 95 => ⟨S50000x128, .f32⟩
  | 96 => ⟨S_, .f32⟩
  | 97 => ⟨S128, .f32⟩
  | 98 => ⟨S_, .f32⟩
  | 99 => ⟨S128, .f32⟩
  | 100 => ⟨S128, .f32⟩
  | 101 => ⟨S_, .f32⟩
  | 102 => ⟨S128, .f32⟩
  | 103 => ⟨S128, .f32⟩
  | 104 => ⟨S128, .f32⟩
  | 105 => ⟨S1x128, .f32⟩
  | 106 => ⟨S128, .f32⟩
  | 107 => ⟨S1x128, .f32⟩
  | 108 => ⟨S128, .f32⟩
  | 109 => ⟨S50000x128, .f32⟩
  | 110 => ⟨S512x128, .f32⟩
  | 111 => ⟨S500x128, .f32⟩
  | 112 => ⟨S_, .i32⟩
  | 113 => ⟨S1600000, .i32⟩
  | 114 => ⟨S1600000, .i1⟩
  | 115 => ⟨S_, .i32⟩
  | 116 => ⟨S1600000, .i32⟩
  | 117 => ⟨S1600000, .i32⟩
  | 118 => ⟨S1600000, .i32⟩
  | 119 => ⟨S1600000x1, .i32⟩
  | 120 => ⟨S1600000x128, .f32⟩
  | 121 => ⟨S_, .f32⟩
  | 122 => ⟨S50000x128, .f32⟩
  | 123 => ⟨S1600000x1, .i32⟩
  | 124 => ⟨S50000x128, .f32⟩
  | 125 => ⟨S50000x128, .f32⟩
  | 126 => ⟨S1x128x128, .f32⟩
  | 127 => ⟨S128x128, .f32⟩
  | _ => ⟨S50000x128, .f32⟩

abbrev hbmTy0_1 (i : Nat) : BufTy := match i % 128 with
  | 0 => ⟨S1x128, .f32⟩
  | 1 => ⟨S128, .f32⟩
  | 2 => ⟨S1x128x128, .f32⟩
  | 3 => ⟨S128x128, .f32⟩
  | 4 => ⟨S1x128, .f32⟩
  | 5 => ⟨S128, .f32⟩
  | 6 => ⟨S50000x128, .f32⟩
  | 7 => ⟨S_, .f32⟩
  | 8 => ⟨S128, .f32⟩
  | 9 => ⟨S_, .f32⟩
  | 10 => ⟨S128, .f32⟩
  | 11 => ⟨S128, .f32⟩
  | 12 => ⟨S1x128, .f32⟩
  | 13 => ⟨S50000x128, .f32⟩
  | 14 => ⟨S50000x128, .f32⟩
  | 15 => ⟨S50000x128, .f32⟩
  | 16 => ⟨S_, .f32⟩
  | 17 => ⟨S128, .f32⟩
  | 18 => ⟨S_, .f32⟩
  | 19 => ⟨S128, .f32⟩
  | 20 => ⟨S128, .f32⟩
  | 21 => ⟨S_, .f32⟩
  | 22 => ⟨S128, .f32⟩
  | 23 => ⟨S128, .f32⟩
  | 24 => ⟨S128, .f32⟩
  | 25 => ⟨S1x128, .f32⟩
  | 26 => ⟨S128, .f32⟩
  | 27 => ⟨S1x128, .f32⟩
  | 28 => ⟨S128, .f32⟩
  | 29 => ⟨S50000x128, .f32⟩
  | 30 => ⟨S512x128, .f32⟩
  | 31 => ⟨S500x128, .f32⟩
  | 32 => ⟨S500x384, .f32⟩
  | 33 => ⟨S50000x384, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S128, .f32⟩
  | .local _ .vmem, ⟨4, _⟩ => ⟨S128x128, .f32⟩
  | .local _ .vmem, ⟨5, _⟩ => ⟨S128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128, .f32⟩
  | .local _ .vmem, ⟨11, _⟩ => ⟨S128, .f32⟩
  | .local _ .vmem, ⟨12, _⟩ => ⟨S128, .f32⟩
  | .local _ .vmem, ⟨13, _⟩ => ⟨S128, .f32⟩
  | .local _ .vmem, ⟨14, _⟩ => ⟨S5000x512, .bf16⟩
  | .local _ .vmem, ⟨15, _⟩ => ⟨S5000x512, .bf16⟩
  | .local _ .vmem, ⟨16, _⟩ => ⟨S5000x128, .f32⟩
  | .local _ .vmem, ⟨17, _⟩ => ⟨S5000x128, .f32⟩
  | .local _ .vmem, ⟨18, _⟩ => ⟨S512x128, .f32⟩
  | .local _ .vmem, ⟨19, _⟩ => ⟨S512x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128, .f32⟩
  | .local _ .vmem, ⟨24, _⟩ => ⟨S128x128, .f32⟩
  | .local _ .vmem, ⟨25, _⟩ => ⟨S128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128, .f32⟩
  | .local _ .vmem, ⟨31, _⟩ => ⟨S128, .f32⟩
  | .local _ .vmem, ⟨32, _⟩ => ⟨S128, .f32⟩
  | .local _ .vmem, ⟨33, _⟩ => ⟨S128, .f32⟩
  | .local _ .vmem, ⟨34, _⟩ => ⟨S5000x512, .bf16⟩
  | .local _ .vmem, ⟨35, _⟩ => ⟨S5000x512, .bf16⟩
  | .local _ .vmem, ⟨36, _⟩ => ⟨S5000x128, .f32⟩
  | .local _ .vmem, ⟨37, _⟩ => ⟨S5000x128, .f32⟩
  | .local _ .vmem, ⟨38, _⟩ => ⟨S512x128, .f32⟩
  | .local _ .vmem, ⟨39, _⟩ => ⟨S512x128, .f32⟩
  | .local _ .vmem, ⟨40, _⟩ => ⟨S5000x128, .f32⟩
  | .local _ .vmem, ⟨41, _⟩ => ⟨S5000x128, .f32⟩
  | .local _ .vmem, ⟨42, _⟩ => ⟨S128x128, .f32⟩
  | .local _ .vmem, ⟨43, _⟩ => ⟨S128, .f32⟩
  | .local _ .vmem, ⟨44, _⟩ => ⟨S128x128, .f32⟩
  | .local _ .vmem, ⟨45, _⟩ => ⟨S128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S128, .f32⟩
  | .local _ .vmem, ⟨51, _⟩ => ⟨S128, .f32⟩
  | .local _ .vmem, ⟨52, _⟩ => ⟨S128, .f32⟩
  | .local _ .vmem, ⟨53, _⟩ => ⟨S128, .f32⟩
  | .local _ .vmem, ⟨54, _⟩ => ⟨S5000x512, .bf16⟩
  | .local _ .vmem, ⟨55, _⟩ => ⟨S5000x512, .bf16⟩
  | .local _ .vmem, ⟨56, _⟩ => ⟨S5000x128, .f32⟩
  | .local _ .vmem, ⟨57, _⟩ => ⟨S5000x128, .f32⟩
  | .local _ .vmem, ⟨58, _⟩ => ⟨S512x128, .f32⟩
  | .local _ .vmem, ⟨59, _⟩ => ⟨S512x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v0 : Ref sig .tc := ⟨.hbm, 15, rfl⟩
abbrev main_c : Ref sig .tc := ⟨.hbm, 16, rfl⟩
abbrev main_v1 : Ref sig .tc := ⟨.hbm, 17, rfl⟩
abbrev main_v2 : Ref sig .tc := ⟨.hbm, 18, rfl⟩
abbrev main_c_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_1 : Ref sig .tc := ⟨.hbm, 39, rfl⟩
abbrev main_v21 : Ref sig .tc := ⟨.hbm, 40, rfl⟩
abbrev main_cst_2 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_3 : Ref sig .tc := ⟨.hbm, 48, rfl⟩
abbrev main_v28 : Ref sig .tc := ⟨.hbm, 49, rfl⟩
abbrev main_cst_4 : Ref sig .tc := ⟨.hbm, 50, rfl⟩
abbrev main_v29 : Ref sig .tc := ⟨.hbm, 51, rfl⟩
abbrev main_v30 : Ref sig .tc := ⟨.hbm, 52, rfl⟩
abbrev main_cst_5 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38_0 : Ref sig .tc := ⟨.hbm, 61, rfl⟩
abbrev main_v38_1 : Ref sig .tc := ⟨.hbm, 62, rfl⟩
abbrev main_v39 : Ref sig .tc := ⟨.hbm, 63, rfl⟩
abbrev main_c_6 : Ref sig .tc := ⟨.hbm, 64, rfl⟩
abbrev main_v40 : Ref sig .tc := ⟨.hbm, 65, rfl⟩
abbrev main_v41 : Ref sig .tc := ⟨.hbm, 66, rfl⟩
abbrev main_c_7 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_8 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_cst_9 : Ref sig .tc := ⟨.hbm, 87, rfl⟩
abbrev main_v60 : Ref sig .tc := ⟨.hbm, 88, rfl⟩
abbrev main_cst_10 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_11 : Ref sig .tc := ⟨.hbm, 96, rfl⟩
abbrev main_v67 : Ref sig .tc := ⟨.hbm, 97, rfl⟩
abbrev main_cst_12 : Ref sig .tc := ⟨.hbm, 98, rfl⟩
abbrev main_v68 : Ref sig .tc := ⟨.hbm, 99, rfl⟩
abbrev main_v69 : Ref sig .tc := ⟨.hbm, 100, rfl⟩
abbrev main_cst_13 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77_0 : Ref sig .tc := ⟨.hbm, 109, rfl⟩
abbrev main_v77_1 : Ref sig .tc := ⟨.hbm, 110, rfl⟩
abbrev main_v78 : Ref sig .tc := ⟨.hbm, 111, rfl⟩
abbrev main_c_14 : Ref sig .tc := ⟨.hbm, 112, rfl⟩
abbrev main_v79 : Ref sig .tc := ⟨.hbm, 113, rfl⟩
abbrev main_v80 : Ref sig .tc := ⟨.hbm, 114, rfl⟩
abbrev main_c_15 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_16 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_cst_17 : Ref sig .tc := ⟨.hbm, 135, rfl⟩
abbrev main_v99 : Ref sig .tc := ⟨.hbm, 136, rfl⟩
abbrev main_cst_18 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_cst_19 : Ref sig .tc := ⟨.hbm, 144, rfl⟩
abbrev main_v106 : Ref sig .tc := ⟨.hbm, 145, rfl⟩
abbrev main_cst_20 : Ref sig .tc := ⟨.hbm, 146, rfl⟩
abbrev main_v107 : Ref sig .tc := ⟨.hbm, 147, rfl⟩
abbrev main_v108 : Ref sig .tc := ⟨.hbm, 148, rfl⟩
abbrev main_cst_21 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116_0 : Ref sig .tc := ⟨.hbm, 157, rfl⟩
abbrev main_v116_1 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_scratch0 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc3_stg6_0 : Ref sig .tc := ⟨.vmem, 36, rfl⟩
abbrev cc3_stg6_1 : Ref sig .tc := ⟨.vmem, 37, rfl⟩
abbrev cc3_stg7_0 : Ref sig .tc := ⟨.vmem, 38, rfl⟩
abbrev cc3_scratch0 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg2_0 : Ref sig .tc := ⟨.vmem, 43, rfl⟩
abbrev cc4_stg3_0 : Ref sig .tc := ⟨.vmem, 44, rfl⟩
abbrev cc4_stg4_0 : Ref sig .tc := ⟨.vmem, 45, rfl⟩
abbrev cc4_stg5_0 : Ref sig .tc := ⟨.vmem, 46, rfl⟩
abbrev cc4_stg5_1 : Ref sig .tc := ⟨.vmem, 47, rfl⟩
abbrev cc5_stg0_0 : Ref sig .tc := ⟨.vmem, 48, rfl⟩
abbrev cc5_stg0_1 : Ref sig .tc := ⟨.vmem, 49, rfl⟩
abbrev cc5_stg1_0 : Ref sig .tc := ⟨.vmem, 50, rfl⟩
abbrev cc5_stg2_0 : Ref sig .tc := ⟨.vmem, 51, rfl⟩
abbrev cc5_stg3_0 : Ref sig .tc := ⟨.vmem, 52, rfl⟩
abbrev cc5_stg4_0 : Ref sig .tc := ⟨.vmem, 53, rfl⟩
abbrev cc5_stg5_0 : Ref sig .tc := ⟨.vmem, 54, rfl⟩
abbrev cc5_stg5_1 : Ref sig .tc := ⟨.vmem, 55, rfl⟩
abbrev cc5_stg6_0 : Ref sig .tc := ⟨.vmem, 56, rfl⟩
abbrev cc5_stg6_1 : Ref sig .tc := ⟨.vmem, 57, rfl⟩
abbrev cc5_stg7_0 : Ref sig .tc := ⟨.vmem, 58, rfl⟩
abbrev cc5_scratch0 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc1_sem6_0 : DmaSem sig := 16
abbrev cc1_sem6_1 : DmaSem sig := 17
abbrev cc1_sem7_0 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem5_1 : DmaSem sig := 34
abbrev cc3_sem6_0 : DmaSem sig := 35
abbrev cc3_sem6_1 : DmaSem sig := 36
abbrev cc3_sem7_0 : DmaSem sig := 37
abbrev cc4_sem0_0 : DmaSem sig := 38
abbrev cc4_sem0_1 : DmaSem sig := 39
abbrev cc4_sem1_0 : DmaSem sig := 40
abbrev cc4_sem2_0 : DmaSem sig := 41
abbrev cc4_sem3_0 : DmaSem sig := 42
abbrev cc4_sem4_0 : DmaSem sig := 43
abbrev cc4_sem5_0 : DmaSem sig := 44
abbrev cc4_sem5_1 : DmaSem sig := 45
abbrev cc5_sem0_0 : DmaSem sig := 46
abbrev cc5_sem0_1 : DmaSem sig := 47
abbrev cc5_sem1_0 : DmaSem sig := 48
abbrev cc5_sem2_0 : DmaSem sig := 49
abbrev cc5_sem3_0 : DmaSem sig := 50
abbrev cc5_sem4_0 : DmaSem sig := 51
abbrev cc5_sem5_0 : DmaSem sig := 52
abbrev cc5_sem5_1 : DmaSem sig := 53
abbrev cc5_sem6_0 : DmaSem sig := 54
abbrev cc5_sem6_1 : DmaSem sig := 55
abbrev cc5_sem7_0 : DmaSem sig := 56

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def k1_cond2 (i : grid1.Coords) : BitVec 1 :=
  let arg0 : BitVec 32 := BitVec.ofNat 32 (i 0).val
  let c9_i32 : BitVec 32 := 9#32
  let v35 : BitVec 1 := Scalar.cmpi .eq arg0 c9_i32
  let v36 : BitVec 32 := Scalar.extui v35
  let c0_i32_14 : BitVec 32 := 0#32
  let v37 : BitVec 1 := Scalar.cmpi .ne v36 c0_i32_14
  v37

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S512x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def k3_cond2 (i : grid3.Coords) : BitVec 1 :=
  let arg0 : BitVec 32 := BitVec.ofNat 32 (i 0).val
  let c9_i32 : BitVec 32 := 9#32
  let v35 : BitVec 1 := Scalar.cmpi .eq arg0 c9_i32
  let v36 : BitVec 32 := Scalar.extui v35
  let c0_i32_14 : BitVec 32 := 0#32
  let v37 : BitVec 1 := Scalar.cmpi .ne v36 c0_i32_14
  v37

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x512 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 1 → Memref sig .tc .vmem S512x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![10], ![false]⟩

def k5_cond2 (i : grid5.Coords) : BitVec 1 :=
  let arg0 : BitVec 32 := BitVec.ofNat 32 (i 0).val
  let c9_i32 : BitVec 32 := 9#32
  let v35 : BitVec 1 := Scalar.cmpi .eq arg0 c9_i32
  let v36 : BitVec 32 := Scalar.extui v35
  let c0_i32_14 : BitVec 32 := 0#32
  let v37 : BitVec 1 := Scalar.cmpi .ne v36 c0_i32_14
  v37

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x512 .bf16 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S5000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 1 → Memref sig .tc .vmem S512x128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

class Facts₀ : Prop where
  bcast_S50000_S50000x1_0 : S50000.BroadcastsInDim S50000x1 (![0] : Fin 1 → Fin S50000x1.rank)
  bcast_S50000x1_S50000x512_0_1 : S50000x1.BroadcastsInDim S50000x512 (![0, 1] : Fin 2 → Fin S50000x512.rank)
  bcast_S1x512_S50000x512_0_1 : S1x512.BroadcastsInDim S50000x512 (![0, 1] : Fin 2 → Fin S50000x512.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S5000x128 : S1x128.Broadcasts S5000x128
  reducesTo_S50000x128_S128_d0 : S50000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S5000x512_S5000x512_0_0 : ∀ a, (![0, 0] : Fin 2 → Nat) a + S5000x512.size a ≤ S5000x512.size a
  h_S5000x512 : 0 < S5000x512.numel
  shapeCasts_S5000x512_S5000x512 : S5000x512.ShapeCasts S5000x512
  slices_S512x128_S500x128_0_0 : S512x128.Slices ![0, 0] S500x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  concatenates_S500x128_S500x128_S500x128_S500x384_d1 : Shape.Concatenates [S500x128, S500x128, S500x128] S500x384 1
  concatenates_S50000x128_S50000x128_S50000x128_S50000x384_d1 : Shape.Concatenates [S50000x128, S50000x128, S50000x128] S50000x384 1
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S5000x128_S128x128_S5000x128_1_0_0_1_n_n_wf : DotDims.WF S5000x128 S128x128 S5000x128 [1] [0] [0] [1] [] []
  dot_S5000x512_S5000x128_S512x128_0_0_1_1_n_n_wf : DotDims.WF S5000x512 S5000x128 S512x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x512.size a ≤ S50000x512.size a
  hwx1_5 : ∀ i : grid1.Coords, EltTy.bits .bf16 = 32 ∨ (Rect.block (s := S50000x512) S5000x512.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S512x128.size a ≤ S512x128.size a
  hwx1_7 : ∀ i : grid1.Coords, EltTy.bits .f32 = 32 ∨ (Rect.block (s := S512x128) S512x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128.size a ≤ S128.size a
  hwx3_1 : ∀ i : grid3.Coords, EltTy.bits .f32 = 32 ∨ (Rect.block (s := S128) S128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128.size a ≤ S128.size a
  hwx3_3 : ∀ i : grid3.Coords, EltTy.bits .f32 = 32 ∨ (Rect.block (s := S128) S128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x512.size a ≤ S50000x512.size a
  hwx3_5 : ∀ i : grid3.Coords, EltTy.bits .bf16 = 32 ∨ (Rect.block (s := S50000x512) S5000x512.size (cc3_transform_5 i) (hinb3_5 i)).WholeWords (EltTy.packing .bf16)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S50000x128.size a
  hwx3_6 : ∀ i : grid3.Coords, EltTy.bits .f32 = 32 ∨ (Rect.block (s := S50000x128) S5000x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S512x128.size a ≤ S512x128.size a
  hwx3_7 : ∀ i : grid3.Coords, EltTy.bits .f32 = 32 ∨ (Rect.block (s := S512x128) S512x128.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128.size a ≤ S128.size a
  hwx4_2 : ∀ i : grid4.Coords, EltTy.bits .f32 = 32 ∨ (Rect.block (s := S128) S128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128.size a ≤ S128.size a
  hwx4_4 : ∀ i : grid4.Coords, EltTy.bits .f32 = 32 ∨ (Rect.block (s := S128) S128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S50000x128.size a
  hwx4_5 : ∀ i : grid4.Coords, EltTy.bits .f32 = 32 ∨ (Rect.block (s := S50000x128) S5000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128.size a ≤ S128.size a
  hwx5_1 : ∀ i : grid5.Coords, EltTy.bits .f32 = 32 ∨ (Rect.block (s := S128) S128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128.size a ≤ S128.size a
  hwx5_2 : ∀ i : grid5.Coords, EltTy.bits .f32 = 32 ∨ (Rect.block (s := S128) S128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128.size a ≤ S128.size a
  hwx5_3 : ∀ i : grid5.Coords, EltTy.bits .f32 = 32 ∨ (Rect.block (s := S128) S128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128.size a ≤ S128.size a
  hwx5_4 : ∀ i : grid5.Coords, EltTy.bits .f32 = 32 ∨ (Rect.block (s := S128) S128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x512.size a ≤ S50000x512.size a
  hwx5_5 : ∀ i : grid5.Coords, EltTy.bits .bf16 = 32 ∨ (Rect.block (s := S50000x512) S5000x512.size (cc5_transform_5 i) (hinb5_5 i)).WholeWords (EltTy.packing .bf16)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x128.size a ≤ S50000x128.size a
  hwx5_6 : ∀ i : grid5.Coords, EltTy.bits .f32 = 32 ∨ (Rect.block (s := S50000x128) S5000x128.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S512x128.size a ≤ S512x128.size a
  hwx5_7 : ∀ i : grid5.Coords, EltTy.bits .f32 = 32 ∨ (Rect.block (s := S512x128) S512x128.size (cc5_transform_7 i) (hinb5_7 i)).WholeWords (EltTy.packing .f32)

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x512_S5000x128_S512x128_0_0_1_1_n_n : DotDims S5000x512 S5000x128 S512x128 where
  lhsContracting := [0]
  rhsContracting := [0]
  lhsNonContracting := [1]
  rhsNonContracting := [1]
  lhsBatch := []
  rhsBatch := []
  wf := dot_S5000x512_S5000x128_S512x128_0_0_1_1_n_n_wf

abbrev win0_0 : Pipeline.Window sig grid0 :=
  Pipeline.Window.ofSpec (Memref.whole main_v11) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v20) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v33) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v0) S5000x512.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v38_0) S5000x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v38_1) S512x128.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond2 i == 1#1) | ⟨_ + 8, h⟩ => absurd h (Nat.not_lt.2 (Nat.le_add_left _ _))

abbrev win2_0 : Pipeline.Window sig grid2 :=
  Pipeline.Window.ofSpec (Memref.whole main_v50) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v54) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v56) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v58) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v59) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v59) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v72) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v74) S128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v76) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v0) S5000x512.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v77_0) S5000x128.size cc3_transform_6 reads3_6 true false 2 stage3_6 sem3_6
    hrank3 hreads3_6 hinb3_6 nbuf3_6 (Memref.isWhole_whole _) hwx3_6 hstage3_6

abbrev win3_7 : Pipeline.Window sig grid3 :=
  Pipeline.Window.ofSpec (Memref.whole main_v77_1) S512x128.size cc3_transform_7 reads3_7 true true 1 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev idle3 : Fin 8 → grid3.Coords → Bool := fun | 0 => fun _ => false | 1 => fun _ => false | 2 => fun _ => false | 3 => fun _ => false | 4 => fun _ => false | 5 => fun _ => false | 6 => fun _ => false | 7 => fun i => !(k3_cond2 i == 1#1) | ⟨_ + 8, h⟩ => absurd h (Nat.not_lt.2 (Nat.le_add_left _ _))

abbrev win4_0 : Pipeline.Window sig grid4 :=
  Pipeline.Window.ofSpec (Memref.whole main_v89) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v91) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v93) S128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v95) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v97) S128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v98) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v98) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v101) S128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v111) S128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v113) S128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v115) S128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v0) S5000x512.size cc5_transform_5 reads5_5 false false 2 stage5_5 sem5_5
    hrank5 hreads5_5 hinb5_5 nbuf5_5 (Memref.isWhole_whole _) hwx5_5 hstage5_5

abbrev win5_6 : Pipeline.Window sig grid5 :=
  Pipeline.Window.ofSpec (Memref.whole main_v116_0) S5000x128.size cc5_transform_6 reads5_6 true false 2 stage5_6 sem5_6
    hrank5 hreads5_6 hinb5_6 nbuf5_6 (Memref.isWhole_whole _) hwx5_6 hstage5_6

abbrev win5_7 : Pipeline.Window sig grid5 :=
  Pipeline.Window.ofSpec (Memref.whole main_v116_1) S512x128.size cc5_transform_7 reads5_7 true true 1 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev idle5 : Fin 8 → grid5.Coords → Bool := fun | 0 => fun _ => false | 1 => fun _ => false | 2 => fun _ => false | 3 => fun _ => false | 4 => fun _ => false | 5 => fun _ => false | 6 => fun _ => false | 7 => fun i => !(k5_cond2 i == 1#1) | ⟨_ + 8, h⟩ => absurd h (Nat.not_lt.2 (Nat.le_add_left _ _))

class Facts : Prop extends Facts₀ where

variable [Facts]
-- ==== ReferenceIdeal.lean ====
abbrev S50000x128 : Shape := ⟨2, ![50000, 128]⟩
abbrev S1600000 : Shape := ⟨1, ![1600000]⟩
abbrev S50000 : Shape := ⟨1, ![50000]⟩
abbrev S3x128x128 : Shape := ⟨3, ![3, 128, 128]⟩
abbrev S3x128 : Shape := ⟨2, ![3, 128]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S500x128 : Shape := ⟨2, ![500, 128]⟩
abbrev S50000x1 : Shape := ⟨2, ![50000, 1]⟩
abbrev S500x384 : Shape := ⟨2, ![500, 384]⟩
abbrev S50000x384 : Shape := ⟨2, ![50000, 384]⟩

abbrev nBuf : Space → Nat
  | .hbm => 234
  | .vmem => 0
  | .smem => 0
  | _ => 0

abbrev hbmTy0_0 (i : Nat) : BufTy := match i % 128 with
  | 0 => ⟨S50000x128, .f32⟩
  | 1 => ⟨S1600000, .i32⟩
  | 2 => ⟨S1600000, .i32⟩
  | 3 => ⟨S50000, .i32⟩
  | 4 => ⟨S3x128x128, .f32⟩
  | 5 => ⟨S3x128, .f32⟩
  | 6 => ⟨S3x128x128, .f32⟩
  | 7 => ⟨S3x128, .f32⟩
  | 8 => ⟨S3x128, .f32⟩
  | 9 => ⟨S3x128, .f32⟩
  | 10 => ⟨S_, .i32⟩
  | 11 => ⟨S1600000, .i32⟩
  | 12 => ⟨S1600000, .i1⟩
  | 13 => ⟨S_, .i32⟩
  | 14 => ⟨S1600000, .i32⟩
  | 15 => ⟨S1600000, .i32⟩
  | 16 => ⟨S1600000, .i32⟩
  | 17 => ⟨S1600000x1, .i32⟩
  | 18 => ⟨S1600000x128, .f32⟩
  | 19 => ⟨S_, .f32⟩
  | 20 => ⟨S50000x128, .f32⟩
  | 21 => ⟨S1600000x1, .i32⟩
  | 22 => ⟨S50000x128, .f32⟩
  | 23 => ⟨S50000x128, .f32⟩
  | 24 => ⟨S1x128x128, .f32⟩
  | 25 => ⟨S128x128, .f32⟩
  | 26 => ⟨S50000x128, .f32⟩
  | 27 => ⟨S1x128, .f32⟩
  | 28 => ⟨S128, .f32⟩
  | 29 => ⟨S1x128, .f32⟩
  | 30 => ⟨S50000x128, .f32⟩
  | 31 => ⟨S50000x128, .f32⟩
  | 32 => ⟨S_, .f32⟩
  | 33 => ⟨S50000x128, .f32⟩
  | 34 => ⟨S50000x128, .f32⟩
  | 35 => ⟨S1x128x128, .f32⟩
  | 36 => ⟨S128x128, .f32⟩
  | 37 => ⟨S50000x128, .f32⟩
  | 38 => ⟨S1x128, .f32⟩
  | 39 => ⟨S128, .f32⟩
  | 40 => ⟨S1x128, .f32⟩
  | 41 => ⟨S50000x128, .f32⟩
  | 42 => ⟨S50000x128, .f32⟩
  | 43 => ⟨S_, .f32⟩
  | 44 => ⟨S50000x128, .f32⟩
  | 45 => ⟨S50000x128, .f32⟩
  | 46 => ⟨S_, .f32⟩
  | 47 => ⟨S128, .f32⟩
  | 48 => ⟨S_, .f32⟩
  | 49 => ⟨S128, .f32⟩
  | 50 => ⟨S128, .f32⟩
  | 51 => ⟨S1x128, .f32⟩
  | 52 => ⟨S50000x128, .f32⟩
  | 53 => ⟨S50000x128, .f32⟩
  | 54 => ⟨S50000x128, .f32⟩
  | 55 => ⟨S_, .f32⟩
  | 56 => ⟨S128, .f32⟩
  | 57 => ⟨S_, .f32⟩
  | 58 => ⟨S128, .f32⟩
  | 59 => ⟨S128, .f32⟩
  | 60 => ⟨S1x128, .f32⟩
  | 61 => ⟨S128, .f32⟩
  | 62 => ⟨S1x128, .f32⟩
  | 63 => ⟨S50000x128, .f32⟩
  | 64 => ⟨S50000x128, .f32⟩
  | 65 => ⟨S1x128, .f32⟩
  | 66 => ⟨S50000x128, .f32⟩
  | 67 => ⟨S50000x128, .f32⟩
  | 68 => ⟨S_, .f32⟩
  | 69 => ⟨S128, .f32⟩
  | 70 => ⟨S128, .f32⟩
  | 71 => ⟨S128, .f32⟩
  | 72 => ⟨S1x128, .f32⟩
  | 73 => ⟨S50000x128, .f32⟩
  | 74 => ⟨S50000x128, .f32⟩
  | 75 => ⟨S1x128, .f32⟩
  | 76 => ⟨S128, .f32⟩
  | 77 => ⟨S1x128, .f32⟩
  | 78 => ⟨S50000x128, .f32⟩
  | 79 => ⟨S50000x128, .f32⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1600000x128, .f32⟩
  | 89 => ⟨S_, .f32⟩
  | 90 => ⟨S50000x128, .f32⟩
  | 91 => ⟨S1600000x1, .i32⟩
  | 92 => ⟨S50000x128, .f32⟩
  | 93 => ⟨S50000x128, .f32⟩
  | 94 => ⟨S1x128x128, .f32⟩
  | 95 => ⟨S128x128, .f32⟩
  | 96 => ⟨S50000x128, .f32⟩
  | 97 => ⟨S1x128, .f32⟩
  | 98 => ⟨S128, .f32⟩
  | 99 => ⟨S1x128, .f32⟩
  | 100 => ⟨S50000x128, .f32⟩
  | 101 => ⟨S50000x128, .f32⟩
  | 102 => ⟨S_, .f32⟩
  | 103 => ⟨S50000x128, .f32⟩
  | 104 => ⟨S50000x128, .f32⟩
  | 105 => ⟨S1x128x128, .f32⟩
  | 106 => ⟨S128x128, .f32⟩
  | 107 => ⟨S50000x128, .f32⟩
  | 108 => ⟨S1x128, .f32⟩
  | 109 => ⟨S128, .f32⟩
  | 110 => ⟨S1x128, .f32⟩
  | 111 => ⟨S50000x128, .f32⟩
  | 112 => ⟨S50000x128, .f32⟩
  | 113 => ⟨S_, .f32⟩
  | 114 => ⟨S50000x128, .f32⟩
  | 115 => ⟨S50000x128, .f32⟩
  | 116 => ⟨S_, .f32⟩
  | 117 => ⟨S128, .f32⟩
  | 118 => ⟨S_, .f32⟩
  | 119 => ⟨S128, .f32⟩
  | 120 => ⟨S128, .f32⟩
  | 121 => ⟨S1x128, .f32⟩
  | 122 => ⟨S50000x128, .f32⟩
  | 123 => ⟨S50000x128, .f32⟩
  | 124 => ⟨S50000x128, .f32⟩
  | 125 => ⟨S_, .f32⟩
  | 126 => ⟨S128, .f32⟩
  | 127 => ⟨S_, .f32⟩
  | _ => ⟨S50000x128, .f32⟩

abbrev hbmTy0_1 (i : Nat) : BufTy := match i % 128 with
  | 0 => ⟨S128, .f32⟩
  | 1 => ⟨S128, .f32⟩
  | 2 => ⟨S1x128, .f32⟩
  | 3 => ⟨S128, .f32⟩
  | 4 => ⟨S1x128, .f32⟩
  | 5 => ⟨S50000x128, .f32⟩
  | 6 => ⟨S50000x128, .f32⟩
  | 7 => ⟨S1x128, .f32⟩
  | 8 => ⟨S50000x128, .f32⟩
  | 9 => ⟨S50000x128, .f32⟩
  | 10 => ⟨S_, .f32⟩
  | 11 => ⟨S128, .f32⟩
  | 12 => ⟨S128, .f32⟩
  | 13 => ⟨S128, .f32⟩
  | 14 => ⟨S1x128, .f32⟩
  | 15 => ⟨S50000x128, .f32⟩
  | 16 => ⟨S50000x128, .f32⟩
  | 17 => ⟨S1x128, .f32⟩
  | 18 => ⟨S128, .f32⟩
  | 19 => ⟨S1x128, .f32⟩
  | 20 => ⟨S50000x128, .f32⟩
  | 21 => ⟨S50000x128, .f32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1600000x128, .f32⟩
  | 31 => ⟨S_, .f32⟩
  | 32 => ⟨S50000x128, .f32⟩
  | 33 => ⟨S1600000x1, .i32⟩
  | 34 => ⟨S50000x128, .f32⟩
  | 35 => ⟨S50000x128, .f32⟩
  | 36 => ⟨S1x128x128, .f32⟩
  | 37 => ⟨S128x128, .f32⟩
  | 38 => ⟨S50000x128, .f32⟩
  | 39 => ⟨S1x128, .f32⟩
  | 40 => ⟨S128, .f32⟩
  | 41 => ⟨S1x128, .f32⟩
  | 42 => ⟨S50000x128, .f32⟩
  | 43 => ⟨S50000x128, .f32⟩
  | 44 => ⟨S_, .f32⟩
  | 45 => ⟨S50000x128, .f32⟩
  | 46 => ⟨S50000x128, .f32⟩
  | 47 => ⟨S1x128x128, .f32⟩
  | 48 => ⟨S128x128, .f32⟩
  | 49 => ⟨S50000x128, .f32⟩
  | 50 => ⟨S1x128, .f32⟩
  | 51 => ⟨S128, .f32⟩
  | 52 => ⟨S1x128, .f32⟩
  | 53 => ⟨S50000x128, .f32⟩
  | 54 => ⟨S50000x128, .f32⟩
  | 55 => ⟨S_, .f32⟩
  | 56 => ⟨S50000x128, .f32⟩
  | 57 => ⟨S50000x128, .f32⟩
  | 58 => ⟨S_, .f32⟩
  | 59 => ⟨S128, .f32⟩
  | 60 => ⟨S_, .f32⟩
  | 61 => ⟨S128, .f32⟩
  | 62 => ⟨S128, .f32⟩
  | 63 => ⟨S1x128, .f32⟩
  | 64 => ⟨S50000x128, .f32⟩
  | 65 => ⟨S50000x128, .f32⟩
  | 66 => ⟨S50000x128, .f32⟩
  | 67 => ⟨S_, .f32⟩
  | 68 => ⟨S128, .f32⟩
  | 69 => ⟨S_, .f32⟩
  | 70 => ⟨S128, .f32⟩
  | 71 => ⟨S128, .f32⟩
  | 72 => ⟨S1x128, .f32⟩
  | 73 => ⟨S128, .f32⟩
  | 74 => ⟨S1x128, .f32⟩
  | 75 => ⟨S50000x128, .f32⟩
  | 76 => ⟨S50000x128, .f32⟩
  | 77 => ⟨S1x128, .f32⟩
  | 78 => ⟨S50000x128, .f32⟩
  | 79 => ⟨S50000x128, .f32⟩
  | 80 => ⟨S_, .f32⟩
  | 81 => ⟨S128, .f32⟩
  | 82 => ⟨S128, .f32⟩
  | 83 => ⟨S128, .f32⟩
  | 84 => ⟨S1x128, .f32⟩
  | 85 => ⟨S50000x128, .f32⟩
  | 86 => ⟨S50000x128, .f32⟩
  | 87 => ⟨S1x128, .f32⟩
  | 88 => ⟨S128, .f32⟩
  | 89 => ⟨S1x128, .f32⟩
  | 90 => ⟨S50000x128, .f32⟩
  | 91 => ⟨S50000x128, .f32⟩
  | 92 => ⟨S_, .f32⟩
  | 93 => ⟨S500x128, .f32⟩
  | 94 => ⟨S50000x1, .i32⟩
  | 95 => ⟨S500x128, .f32⟩
  | 96 => ⟨S_, .f32⟩
  | 97 => ⟨S500x128, .f32⟩
  | 98 => ⟨S50000x1, .i32⟩
  | 99 => ⟨S500x128, .f32⟩
  | 100 => ⟨S_, .f32⟩
  | 101 => ⟨S500x128, .f32⟩
  | 102 => ⟨S50000x1, .i32⟩
  | 103 => ⟨S500x128, .f32⟩
  | 104 => ⟨S500x384, .f32⟩
  | 105 => ⟨S50000x384, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call0_cst : Ref sig .tc := ⟨.hbm, 32, rfl⟩
abbrev main_call0_v0 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_call1_cst : Ref sig .tc := ⟨.hbm, 43, rfl⟩
abbrev main_call1_v0 : Ref sig .tc := ⟨.hbm, 44, rfl⟩
abbrev main_v28 : Ref sig .tc := ⟨.hbm, 45, rfl⟩
abbrev main_cst_1 : Ref sig .tc := ⟨.hbm, 46, rfl⟩
abbrev main_v29 : Ref sig .tc := ⟨.hbm, 47, rfl⟩
abbrev main_cst_2 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_3 : Ref sig .tc := ⟨.hbm, 55, rfl⟩
abbrev main_v36 : Ref sig .tc := ⟨.hbm, 56, rfl⟩
abbrev main_cst_4 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_5 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_c_6 : Ref sig .tc := ⟨.hbm, 80, rfl⟩
abbrev main_v58 : Ref sig .tc := ⟨.hbm, 81, rfl⟩
abbrev main_v59 : Ref sig .tc := ⟨.hbm, 82, rfl⟩
abbrev main_c_7 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_8 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_call2_cst : Ref sig .tc := ⟨.hbm, 102, rfl⟩
abbrev main_call2_v0 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_call3_cst : Ref sig .tc := ⟨.hbm, 113, rfl⟩
abbrev main_call3_v0 : Ref sig .tc := ⟨.hbm, 114, rfl⟩
abbrev main_v86 : Ref sig .tc := ⟨.hbm, 115, rfl⟩
abbrev main_cst_9 : Ref sig .tc := ⟨.hbm, 116, rfl⟩
abbrev main_v87 : Ref sig .tc := ⟨.hbm, 117, rfl⟩
abbrev main_cst_10 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_cst_11 : Ref sig .tc := ⟨.hbm, 125, rfl⟩
abbrev main_v94 : Ref sig .tc := ⟨.hbm, 126, rfl⟩
abbrev main_cst_12 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_cst_13 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_c_14 : Ref sig .tc := ⟨.hbm, 150, rfl⟩
abbrev main_v116 : Ref sig .tc := ⟨.hbm, 151, rfl⟩
abbrev main_v117 : Ref sig .tc := ⟨.hbm, 152, rfl⟩
abbrev main_c_15 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_cst_16 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_call4_cst : Ref sig .tc := ⟨.hbm, 172, rfl⟩
abbrev main_call4_v0 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_call5_cst : Ref sig .tc := ⟨.hbm, 183, rfl⟩
abbrev main_call5_v0 : Ref sig .tc := ⟨.hbm, 184, rfl⟩
abbrev main_v144 : Ref sig .tc := ⟨.hbm, 185, rfl⟩
abbrev main_cst_17 : Ref sig .tc := ⟨.hbm, 186, rfl⟩
abbrev main_v145 : Ref sig .tc := ⟨.hbm, 187, rfl⟩
abbrev main_cst_18 : Ref sig .tc := ⟨.hbm, 188, rfl⟩
abbrev main_v146 : Ref sig .tc := ⟨.hbm, 189, rfl⟩
abbrev main_v147 : Ref sig .tc := ⟨.hbm, 190, rfl⟩
abbrev main_v148 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_cst_19 : Ref sig .tc := ⟨.hbm, 195, rfl⟩
abbrev main_v152 : Ref sig .tc := ⟨.hbm, 196, rfl⟩
abbrev main_cst_20 : Ref sig .tc := ⟨.hbm, 197, rfl⟩
abbrev main_v153 : Ref sig .tc := ⟨.hbm, 198, rfl⟩
abbrev main_v154 : Ref sig .tc := ⟨.hbm, 199, rfl⟩
abbrev main_v155 : Ref sig .tc := ⟨.hbm, 200, rfl⟩
abbrev main_v156 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_v160 : Ref sig .tc := ⟨.hbm, 205, rfl⟩
abbrev main_v161 : Ref sig .tc := ⟨.hbm, 206, rfl⟩
abbrev main_v162 : Ref sig .tc := ⟨.hbm, 207, rfl⟩
abbrev main_cst_21 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_cst_22 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_cst_23 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_cst_24 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_v183 : Ref sig .tc := ⟨.hbm, 232, rfl⟩
abbrev main_v184 : Ref sig .tc := ⟨.hbm, 233, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S500x128 : S_.BroadcastsInDim S500x128 (![] : Fin 0 → Fin S500x128.rank)
  bcast_S50000_S50000x1_0 : S50000.BroadcastsInDim S50000x1 (![0] : Fin 1 → Fin S50000x1.rank)
  concatenates_S500x128_S500x128_S500x128_S500x384_d1 : Shape.Concatenates [S500x128, S500x128, S500x128] S500x384 1
  concatenates_S50000x128_S50000x128_S50000x128_S50000x384_d1 : Shape.Concatenates [S50000x128, S50000x128, S50000x128] S50000x384 1
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x128_S50000x128_1_0_0_1_n_n_wf : DotDims.WF S50000x128 S128x128 S50000x128 [1] [0] [0] [1] [] []
  scatter_S500x128_S50000x1_S50000x128_1_0_0_1_wf : ScatterDims.WF S500x128 S50000x1 S50000x128 [1] [0] [0] 1

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S500x128_S50000x1_S50000x128_1_0_0_1 : ScatterDims S500x128 S50000x1 S50000x128 where
  updateWindowDims := [1]
  insertedWindowDims := [0]
  scatterDimsToOperandDims := [0]
  indexVectorDim := 1
  wf := scatter_S500x128_S50000x1_S50000x128_1_0_0_1_wf

class Facts : Prop extends Facts₀ where

variable [Facts]
-- ==== Proof.KI.Mlp0.lean ====
/-
  Region 0 of the program: the per-node perceptron, one grid point per block of 5000 rows.
  At a point the body reads the block of node features and the two weight matrices and two bias rows (whole, the
  same at every point) and stores ONE value over the whole output block: relu(relu(x·W1 + b1)·W2 + b2), the
  skeleton's payload. Stated here for any float instance and for any contents `V` of the buffers at the region's
  entry: what each window's staging buffer holds at a point, the body's triple, the pipeline's proof data and the
  body obligation at every point.
-/
import proofs.«409766_j3350074491205_1_alg».proof.Proof.Gen.KernelIdeal.Launch
import proofs.«409766_j3350074491205_1_alg».proof.Proof.Gen.KernelIdeal.Skeleton
import proofs.«409766_j3350074491205_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not (a window whose block
    index does not move is fetched once and found again). One lemma per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev rA0 : Rect S5000x128 := Rect.unit (s := S5000x128) ![0, 0] S5000x128.size inb_S5000x128_S5000x128_0_0
abbrev rW0 : Rect S128x128 := Rect.unit (s := S128x128) ![0, 0] S128x128.size inb_S128x128_S128x128_0_0
abbrev rB0 : Rect S128 := Rect.unit (s := S128) ![0] S128.size inb_S128_S128_0

/-- What the body leaves in the output block: its one store, the payload of the five loads. -/
def out0_5 (x0 : Vec F S5000x128 .f32) (x1 : Vec F S128x128 .f32) (x2 : Vec F S128 .f32) (x3 : Vec F S128x128 .f32) (x4 : Vec F S128 .f32) : Vec F S5000x128 .f32 :=
  View.canon [⟨rA0, k0_pay1 (View.ld x0 rA0) (View.ld x1 rW0) (View.ld x2 rB0) (View.ld x3 rW0) (View.ld x4 rB0)⟩]

/-- The one store covers the block. -/
theorem cover0_5 (p0 : Vec F S5000x128 .f32) (y : S5000x128.Idx) :
    ∃ pc ∈ ([⟨rA0, p0⟩] : List (View.Piece (Elt F) S5000x128 .f32)), y ∈ pc.1.set :=
  View.cover_of_tiled [⟨rA0, p0⟩] S5000x128.size (by rfl) y

set_option maxHeartbeats 4000000 in
/-- The body on whole staging memrefs, the inputs' at contents `x0 … x4` and the output's at anything, runs to the
    continuation holding the inputs' as they were and the output's at `out0_5` of them. -/
theorem sound_kernel0 (c : Dev nD) (E : Set ℕ) (i : grid0.Coords)
    (arg1 : Memref sig .tc .vmem S5000x128 .f32) (harg1 : arg1.IsWhole) (arg2 : Memref sig .tc .vmem S128x128 .f32) (harg2 : arg2.IsWhole)
    (arg3 : Memref sig .tc .vmem S128 .f32) (harg3 : arg3.IsWhole) (arg4 : Memref sig .tc .vmem S128x128 .f32) (harg4 : arg4.IsWhole)
    (arg5 : Memref sig .tc .vmem S128 .f32) (harg5 : arg5.IsWhole) (arg6 : Memref sig .tc .vmem S5000x128 .f32) (harg6 : arg6.IsWhole)
    (x0 : Vec F S5000x128 .f32) (x1 : Vec F S128x128 .f32) (x2 : Vec F S128 .f32) (x3 : Vec F S128x128 .f32) (x4 : Vec F S128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__mlp_kernel i arg1 harg1 arg2 harg2 arg3 harg3 arg4 harg4 arg5 harg5 arg6 harg6) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The arrays as the region finds them; after the body at point `t` each input's buffer at its block and the output's
    at `out0_5` of the input blocks; the invariant the scoped rest and the generator register, untouched; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t
    = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_body0 V c t

end Cert.KernelIdeal.Rg

end
-- ==== Proof.KI.Bn1.lean ====
/-
  Region 1 of the program: batch normalisation of a block of 5000 rows and the per-graph sum pooling,
  accumulated over the ten grid points in a scratch buffer the kernel keeps between points.
  At a point the body reads the block h, the rows mean, rstd, gamma, beta (the same at every point) and the
  block of the one-hot membership matrix; it stores gamma·(h − mean)·rstd + beta over the whole output block, and
  adds (one-hot block)ᵀ · (that value) to the scratch, which the first point zeroes beforehand; the last point
  copies the scratch into the pooled output's buffer, which is written back only there.
-/
import proofs.«409766_j3350074491205_1_alg».proof.Proof.Gen.KernelIdeal.Launch
import proofs.«409766_j3350074491205_1_alg».proof.Proof.Gen.KernelIdeal.Skeleton
import proofs.«409766_j3350074491205_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch accumulator, whole. -/
abbrev scM1 : Memref sig .tc .vmem S512x128 .f32 := Memref.whole cc1_scratch0

/-! ## The body's two conditions, decided over the grid -/

/-- The reset's condition: the grid coordinate is zero. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val = 0 :=
  (by decide +kernel : ∀ t : Fin grid1.N, cond1_0 (grid1.coords t) ↔ t.val = 0)
/-- The copy-out's condition: the grid coordinate is nine. -/
abbrev cond1_1 (i : grid1.Coords) : Prop := k1_cond2 i = 1#1
/-- It holds at the last point only. -/
theorem hcond1_1 : ∀ t : Fin cfg1.N, cond1_1 (grid1.coords t) ↔ t.val = 9 :=
  (by decide +kernel : ∀ t : Fin grid1.N, cond1_1 (grid1.coords t) ↔ t.val = 9)

theorem hz2_bn1 : (![0, 0] : Fin 2 → Nat) = fun _ => 0 := funext fun a => by fin_cases a <;> rfl
theorem hz1_bn1 : (![0] : Fin 1 → Nat) = fun _ => 0 := funext fun a => by fin_cases a <;> rfl

/-! ## The body on whole memrefs, case by case -/

set_option maxHeartbeats 4000000 in
/-- The body at the first point: the scratch, found at anything, is zeroed and then holds the point's product added
    to zeros; the output block holds the normalised block; the pooled output's buffer is not touched. -/
theorem run1_A (c : Dev nD) (E : Set ℕ) (i : grid1.Coords)
    (arg1 : Memref sig .tc .vmem S5000x128 .f32) (harg1 : arg1.IsWhole) (arg2 : Memref sig .tc .vmem S128 .f32) (harg2 : arg2.IsWhole)
    (arg3 : Memref sig .tc .vmem S128 .f32) (harg3 : arg3.IsWhole) (arg4 : Memref sig .tc .vmem S128 .f32) (harg4 : arg4.IsWhole)
    (arg5 : Memref sig .tc .vmem S128 .f32) (harg5 : arg5.IsWhole) (arg6 : Memref sig .tc .vmem S5000x512 .bf16) (harg6 : arg6.IsWhole)
    (arg7 : Memref sig .tc .vmem S5000x128 .f32) (harg7 : arg7.IsWhole) (arg8 : Memref sig .tc .vmem S512x128 .f32) (harg8 : arg8.IsWhole)
    (arg9 : Memref sig .tc .vmem S512x128 .f32) (harg9 : arg9.IsWhole)
    (hc0 : cond1_0 i) (hc1 : ¬cond1_1 i)
    (x0 : Vec F S5000x128 .f32) (x1 : Vec F S128 .f32) (x2 : Vec F S128 .f32) (x3 : Vec F S128 .f32) (x4 : Vec F S128 .f32) (x5 : Vec F S5000x512 .bf16) (xi7 : Vec F S512x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ owns (c : Thread nD τ) arg8 fullShare xi7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (k1_pay2 x0 x3 x1 x2 x4) ∗ owns (c : Thread nD τ) arg8 fullShare xi7
            ∗ owns (c : Thread nD τ) arg9 fullShare (k1_pay3 x0 x3 x1 x2 x4 x5 (k1_pay1 (F := F)))) -∗ K ⟨⟩))
      ⊢ wp frame (wpE (defs₀ (F := F)) Variants.none c none) E (cc1__bn_pool_kernel i arg1 harg1 arg2 harg2 arg3 harg3 arg4 harg4 arg5 harg5 arg6 harg6 arg7 harg7 arg8 harg8 arg9 harg9) K := by
  simp only [cc1__bn_pool_kernel_eq_skeleton]; unfold cc1__bn_pool_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%ds, %fs, -, HS⟩, Hk⟩
  subst hf0 hf1 hf2 hf3 hf4 hf5 hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    (try sl_unfold_words)
    rw [View.read_writes_eq_canon _ _ _ (fun y => ⟨_, List.mem_cons_self .., View.mem_set_unit_zero hz2_bn1 inb_S5000x128_S5000x128_0_0 y⟩)]
    rw [View.canon_cons_unit_zero (S := S5000x128) hz2_bn1]
    simp only [View.readAt_eq_ld, View.ld_unit_zero (S := S5000x128) hz2_bn1, View.ld_unit_zero (S := S128) hz1_bn1, View.ld_unit_zero (S := S5000x512) hz2_bn1, View.ld_unit_zero (S := S512x128) hz2_bn1, View.readCov_unit_zero (S := S512x128) _ hz2_bn1]
  isplitl [H7]
  · iexists f7; isplitr; · ipureintro; rfl
    iexact H7
  iexists _; isplitr
  swap; · iexact HS
  ipureintro
  (try sl_unfold_words)
  rw [View.read_writes_eq_canon _ _ _ (fun y => ⟨_, List.mem_cons_self .., View.mem_set_unit_zero hz2_bn1 inb_S512x128_S512x128_0_0 y⟩)]
  rw [View.canon_cons_unit_zero (S := S512x128) hz2_bn1]
  simp only [View.readAt_eq_ld, View.ld_unit_zero (S := S5000x128) hz2_bn1, View.ld_unit_zero (S := S128) hz1_bn1, View.ld_unit_zero (S := S5000x512) hz2_bn1, View.ld_unit_zero (S := S512x128) hz2_bn1, View.readCov_unit_zero (S := S512x128) _ hz2_bn1]

set_option maxHeartbeats 4000000 in
/-- The body at a point that is neither the first nor the last: the scratch, found at `xs`, then holds the point's
    product added to `xs`; the output block holds the normalised block; the pooled output's buffer is not touched. -/
theorem run1_B (c : Dev nD) (E : Set ℕ) (i : grid1.Coords)
    (arg1 : Memref sig .tc .vmem S5000x128 .f32) (harg1 : arg1.IsWhole) (arg2 : Memref sig .tc .vmem S128 .f32) (harg2 : arg2.IsWhole)
    (arg3 : Memref sig .tc .vmem S128 .f32) (harg3 : arg3.IsWhole) (arg4 : Memref sig .tc .vmem S128 .f32) (harg4 : arg4.IsWhole)
    (arg5 : Memref sig .tc .vmem S128 .f32) (harg5 : arg5.IsWhole) (arg6 : Memref sig .tc .vmem S5000x512 .bf16) (harg6 : arg6.IsWhole)
    (arg7 : Memref sig .tc .vmem S5000x128 .f32) (harg7 : arg7.IsWhole) (arg8 : Memref sig .tc .vmem S512x128 .f32) (harg8 : arg8.IsWhole)
    (arg9 : Memref sig .tc .vmem S512x128 .f32) (harg9 : arg9.IsWhole)
    (hc0 : ¬cond1_0 i) (hc1 : ¬cond1_1 i)
    (x0 : Vec F S5000x128 .f32) (x1 : Vec F S128 .f32) (x2 : Vec F S128 .f32) (x3 : Vec F S128 .f32) (x4 : Vec F S128 .f32) (x5 : Vec F S5000x512 .bf16) (xi7 : Vec F S512x128 .f32) (xs : Vec F S512x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ owns (c : Thread nD τ) arg8 fullShare xi7 ∗ owns (c : Thread nD τ) arg9 fullShare xs
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (k1_pay2 x0 x3 x1 x2 x4) ∗ owns (c : Thread nD τ) arg8 fullShare xi7
            ∗ owns (c : Thread nD τ) arg9 fullShare (k1_pay3 x0 x3 x1 x2 x4 x5 xs)) -∗ K ⟨⟩))
      ⊢ wp frame (wpE (defs₀ (F := F)) Variants.none c none) E (cc1__bn_pool_kernel i arg1 harg1 arg2 harg2 arg3 harg3 arg4 harg4 arg5 harg5 arg6 harg6 arg7 harg7 arg8 harg8 arg9 harg9) K := by
  simp only [cc1__bn_pool_kernel_eq_skeleton]; unfold cc1__bn_pool_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs, %hfs, HS⟩, Hk⟩
  subst hf0 hf1 hf2 hf3 hf4 hf5 hf7 hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    (try sl_unfold_words)
    rw [View.read_writes_eq_canon _ _ _ (fun y => ⟨_, List.mem_cons_self .., View.mem_set_unit_zero hz2_bn1 inb_S5000x128_S5000x128_0_0 y⟩)]
    rw [View.canon_cons_unit_zero (S := S5000x128) hz2_bn1]
    simp only [View.readAt_eq_ld, View.ld_unit_zero (S := S5000x128) hz2_bn1, View.ld_unit_zero (S := S128) hz1_bn1, View.ld_unit_zero (S := S5000x512) hz2_bn1, View.ld_unit_zero (S := S512x128) hz2_bn1, View.readCov_unit_zero (S := S512x128) _ hz2_bn1]
  isplitl [H7]
  · iexists f7; isplitr; · ipureintro; rfl
    iexact H7
  iexists _; isplitr
  swap; · iexact HS
  ipureintro
  (try sl_unfold_words)
  rw [View.read_writes_eq_canon _ _ _ (fun y => ⟨_, List.mem_cons_self .., View.mem_set_unit_zero hz2_bn1 inb_S512x128_S512x128_0_0 y⟩)]
  rw [View.canon_cons_unit_zero (S := S512x128) hz2_bn1]
  simp only [View.readAt_eq_ld, View.ld_unit_zero (S := S5000x128) hz2_bn1, View.ld_unit_zero (S := S128) hz1_bn1, View.ld_unit_zero (S := S5000x512) hz2_bn1, View.ld_unit_zero (S := S512x128) hz2_bn1, View.readCov_unit_zero (S := S512x128) _ hz2_bn1]

set_option maxHeartbeats 4000000 in
/-- The body at the last point: the scratch, found at `xs`, then holds the point's product added to `xs`, and
    the pooled output's buffer, found at anything, holds the same; the output block holds the normalised block. -/
theorem run1_C (c : Dev nD) (E : Set ℕ) (i : grid1.Coords)
    (arg1 : Memref sig .tc .vmem S5000x128 .f32) (harg1 : arg1.IsWhole) (arg2 : Memref sig .tc .vmem S128 .f32) (harg2 : arg2.IsWhole)
    (arg3 : Memref sig .tc .vmem S128 .f32) (harg3 : arg3.IsWhole) (arg4 : Memref sig .tc .vmem S128 .f32) (harg4 : arg4.IsWhole)
    (arg5 : Memref sig .tc .vmem S128 .f32) (harg5 : arg5.IsWhole) (arg6 : Memref sig .tc .vmem S5000x512 .bf16) (harg6 : arg6.IsWhole)
    (arg7 : Memref sig .tc .vmem S5000x128 .f32) (harg7 : arg7.IsWhole) (arg8 : Memref sig .tc .vmem S512x128 .f32) (harg8 : arg8.IsWhole)
    (arg9 : Memref sig .tc .vmem S512x128 .f32) (harg9 : arg9.IsWhole)
    (hc0 : ¬cond1_0 i) (hc1 : cond1_1 i)
    (x0 : Vec F S5000x128 .f32) (x1 : Vec F S128 .f32) (x2 : Vec F S128 .f32) (x3 : Vec F S128 .f32) (x4 : Vec F S128 .f32) (x5 : Vec F S5000x512 .bf16) (xs : Vec F S512x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ owns (c : Thread nD τ) arg9 fullShare xs
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (k1_pay2 x0 x3 x1 x2 x4) ∗ owns (c : Thread nD τ) arg8 fullShare (k1_pay3 x0 x3 x1 x2 x4 x5 xs)
            ∗ owns (c : Thread nD τ) arg9 fullShare (k1_pay3 x0 x3 x1 x2 x4 x5 xs)) -∗ K ⟨⟩))
      ⊢ wp frame (wpE (defs₀ (F := F)) Variants.none c none) E (cc1__bn_pool_kernel i arg1 harg1 arg2 harg2 arg3 harg3 arg4 harg4 arg5 harg5 arg6 harg6 arg7 harg7 arg8 harg8 arg9 harg9) K := by
  simp only [cc1__bn_pool_kernel_eq_skeleton]; unfold cc1__bn_pool_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs, %hfs, HS⟩, Hk⟩
  subst hf0 hf1 hf2 hf3 hf4 hf5 hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    (try sl_unfold_words)
    rw [View.read_writes_eq_canon _ _ _ (fun y => ⟨_, List.mem_cons_self .., View.mem_set_unit_zero hz2_bn1 inb_S5000x128_S5000x128_0_0 y⟩)]
    rw [View.canon_cons_unit_zero (S := S5000x128) hz2_bn1]
    simp only [View.readAt_eq_ld, View.ld_unit_zero (S := S5000x128) hz2_bn1, View.ld_unit_zero (S := S128) hz1_bn1, View.ld_unit_zero (S := S5000x512) hz2_bn1, View.ld_unit_zero (S := S512x128) hz2_bn1, View.readCov_unit_zero (S := S512x128) _ hz2_bn1]
  isplitl [H7]
  · iexists _; isplitr
    swap; · iexact H7
    ipureintro
    (try sl_unfold_words)
    rw [View.read_writes_eq_canon _ _ _ (fun y => ⟨_, List.mem_cons_self .., View.mem_set_unit_zero hz2_bn1 inb_S512x128_S512x128_0_0 y⟩)]
    rw [View.canon_cons_unit_zero (S := S512x128) hz2_bn1]
    simp only [View.readAt_eq_ld, View.ld_unit_zero (S := S5000x128) hz2_bn1, View.ld_unit_zero (S := S128) hz1_bn1, View.ld_unit_zero (S := S5000x512) hz2_bn1, View.ld_unit_zero (S := S512x128) hz2_bn1, View.readCov_unit_zero (S := S512x128) _ hz2_bn1]
  iexists _; isplitr
  swap; · iexact HS
  ipureintro
  (try sl_unfold_words)
  rw [View.read_writes_eq_canon _ _ _ (fun y => ⟨_, List.mem_cons_self .., View.mem_set_unit_zero hz2_bn1 inb_S512x128_S512x128_0_0 y⟩)]
  rw [View.canon_cons_unit_zero (S := S512x128) hz2_bn1]
  simp only [View.readAt_eq_ld, View.ld_unit_zero (S := S5000x128) hz2_bn1, View.ld_unit_zero (S := S128) hz1_bn1, View.ld_unit_zero (S := S5000x512) hz2_bn1, View.ld_unit_zero (S := S512x128) hz2_bn1, View.readCov_unit_zero (S := S512x128) _ hz2_bn1]

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
theorem liveAt1_5 : ∀ t : Fin cfg1.N, cfg1.idle 5 (grid1.coords t) = false := by decide +kernel
theorem liveAt1_6 : ∀ t : Fin cfg1.N, cfg1.idle 6 (grid1.coords t) = false := by decide +kernel
/-- Off the last point the pooled output's window is idle -/
theorem idleAt1_7 : ∀ t : Fin cfg1.N, ¬cond1_1 (grid1.coords t) → cfg1.idle 7 (grid1.coords t) = true := by decide +kernel
/-- and not written back; -/
theorem noFlush1_7 : ∀ t : Fin cfg1.N, ¬cond1_1 (grid1.coords t) → (cfg1.win 7).flush t = false := by decide +kernel
/-- at the last point it is live. -/
theorem liveAt1_7 : ∀ t : Fin cfg1.N, cond1_1 (grid1.coords t) → cfg1.idle 7 (grid1.coords t) = false := by decide +kernel

/-- The launch's invariant with the scratch as a memref owned at some contents. -/
theorem PhiA1_eq (c : Dev nD) :
    (Pipeline.ΦA spec1 c : sProp 𝕄)
      = iprop(iprop((∃ d, owns (c : Thread nD τ) scM1 fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1, owns_whole]; try rfl

/-! ## The proof data -/

/-- The normalised block the body stores at point `t`: gamma·(h − mean)·rstd + beta of the point's blocks. -/
def bnblk1 (c : Dev nD) (t : Fin cfg1.N) : Vec F S5000x128 .f32 :=
  k1_pay2 (iblk1 V c 0 t) (iblk1 V c 3 t) (iblk1 V c 1 t) (iblk1 V c 2 t) (iblk1 V c 4 t)

/-- What the scratch holds after the body at position `n`: the first point adds its product to zeros, every later
    point to what the point before left. -/
def acc1 (c : Dev nD) : (n : ℕ) → n < cfg1.N → Vec F S512x128 .f32
  | 0, h => k1_pay3 (iblk1 V c 0 ⟨0, h⟩) (iblk1 V c 3 ⟨0, h⟩) (iblk1 V c 1 ⟨0, h⟩) (iblk1 V c 2 ⟨0, h⟩) (iblk1 V c 4 ⟨0, h⟩) (iblk1 V c 5 ⟨0, h⟩) (k1_pay1 (F := F))
  | n + 1, h => k1_pay3 (iblk1 V c 0 ⟨n + 1, h⟩) (iblk1 V c 3 ⟨n + 1, h⟩) (iblk1 V c 1 ⟨n + 1, h⟩) (iblk1 V c 2 ⟨n + 1, h⟩) (iblk1 V c 4 ⟨n + 1, h⟩) (iblk1 V c 5 ⟨n + 1, h⟩)
      (acc1 c n (Nat.lt_of_succ_lt h))

theorem acc1_zero (c : Dev nD) (h : 0 < cfg1.N) : acc1 V c 0 h
    = k1_pay3 (iblk1 V c 0 ⟨0, h⟩) (iblk1 V c 3 ⟨0, h⟩) (iblk1 V c 1 ⟨0, h⟩) (iblk1 V c 2 ⟨0, h⟩) (iblk1 V c 4 ⟨0, h⟩) (iblk1 V c 5 ⟨0, h⟩) (k1_pay1 (F := F)) := rfl
theorem acc1_succ (c : Dev nD) (n : ℕ) (h : n + 1 < cfg1.N) : acc1 V c (n + 1) h
    = k1_pay3 (iblk1 V c 0 ⟨n + 1, h⟩) (iblk1 V c 3 ⟨n + 1, h⟩) (iblk1 V c 1 ⟨n + 1, h⟩) (iblk1 V c 2 ⟨n + 1, h⟩) (iblk1 V c 4 ⟨n + 1, h⟩) (iblk1 V c 5 ⟨n + 1, h⟩)
      (acc1 V c n (Nat.lt_of_succ_lt h)) := rfl

/-- The region invariant before position `n`: before the first point the scoped buffers at anything and the generator
    register; afterwards the scratch at what the point before left, the other scoped buffers at anything, the register. -/
def PhiS1 (c : Dev nD) : (n : ℕ) → n ≤ cfg1.N → sProp 𝕄
  | 0, _ => Pipeline.ΦA spec1 c
  | n + 1, hn => iprop(owns (c : Thread nD τ) scM1 fullShare (acc1 V c n hn)
      ∗ Pipeline.scopedRestBut (Ix := Unit) (Name := ℕ) (U := UR sig nD τ) (Lvl := ℕ) (Val := Elt F) spec1 c [cc1_scratch0] ∗ (∃ r, prngReg c r))

/-- The pipeline's proof data: the arrays as the region finds them; after the body each input's buffer at its block,
    the normalised output's at `bnblk1`, the pooled output's at the scratch's contents (consulted at the last point
    only: elsewhere the window is idle and not written back); the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => bnblk1 V c t
    | ⟨7, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = bnblk1 V c t := by dsimp only [dat1]
theorem after1_7 (c : Dev nD) (t : Fin cfg1.N) : (dat1 V c).after 7 t = acc1 V c t.val t.isLt := by dsimp only [dat1]

/-! ## The invariant and the accumulation, point by point -/

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1 fullShare (acc1 V c n hn)
      ∗ Pipeline.scopedRestBut (Ix := Unit) (Name := ℕ) (U := UR sig nD τ) (Lvl := ℕ) (Val := Elt F) spec1 c [cc1_scratch0] ∗ (∃ r, prngReg c r)) := rfl

theorem PhiS1_pos (c : Dev nD) (n : ℕ) (h : n ≤ cfg1.N) (hz : n ≠ 0) :
    PhiS1 V c n h = iprop(owns (c : Thread nD τ) scM1 fullShare (acc1 V c (n - 1) (by omega))
      ∗ Pipeline.scopedRestBut (Ix := Unit) (Name := ℕ) (U := UR sig nD τ) (Lvl := ℕ) (Val := Elt F) spec1 c [cc1_scratch0] ∗ (∃ r, prngReg c r)) := by
  cases n with
  | zero => exact absurd rfl hz
  | succ n => rfl

theorem PhiS1_castSucc (c : Dev nD) (t : Fin cfg1.N) :
    (dat1 V c).Φ t.castSucc = PhiS1 V c t.val (Nat.le_of_lt t.isLt) := by
  dsimp only [dat1]; simp only [Fin.coe_castSucc]

/-- At the first point the scratch ends at the point's product added to zeros; -/
theorem acc1_first (c : Dev nD) (t : Fin cfg1.N) (h0 : t.val = 0) : acc1 V c t.val t.isLt
    = k1_pay3 (iblk1 V c 0 t) (iblk1 V c 3 t) (iblk1 V c 1 t) (iblk1 V c 2 t) (iblk1 V c 4 t) (iblk1 V c 5 t) (k1_pay1 (F := F)) := by
  obtain ⟨n, hn⟩ := t
  cases n with
  | zero => rfl
  | succ n => exact absurd h0 (Nat.succ_ne_zero n)

/-- at a later point, added to what the point before left. -/
theorem acc1_later (c : Dev nD) (t : Fin cfg1.N) (h0 : t.val ≠ 0) : acc1 V c t.val t.isLt
    = k1_pay3 (iblk1 V c 0 t) (iblk1 V c 3 t) (iblk1 V c 1 t) (iblk1 V c 2 t) (iblk1 V c 4 t) (iblk1 V c 5 t)
        (acc1 V c (t.val - 1) (Nat.lt_of_le_of_lt (Nat.sub_le _ _) t.isLt)) := by
  obtain ⟨n, hn⟩ := t
  cases n with
  | zero => exact absurd rfl h0
  | succ n => rfl

/-! ## The inputs' staging buffers hold their blocks at every point -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

set_option maxHeartbeats 4000000 in
/-- The body at any point: the inputs' buffers hold their blocks; the point is the first (the scratch is handed over at
    anything, the invariant's other parts kept), the last (the pooled output's window is live and ends at the scratch's
    contents) or neither (that window is idle and its buffer handed back as found); the scratch is taken back at the
    point's accumulation. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  rw [show (dat1 V c).leavesExact 4 t = owns (c : Thread nD τ) (st1_4 t) fullShare ((dat1 V c).after 4 t) from by
    unfold Dat.leavesExact; rw [liveAt1_4 t], after1_4]
  rw [show (dat1 V c).leavesExact 5 t = owns (c : Thread nD τ) (st1_5 t) fullShare ((dat1 V c).after 5 t) from by
    unfold Dat.leavesExact; rw [liveAt1_5 t], after1_5]
  rw [show (dat1 V c).leavesExact 6 t = owns (c : Thread nD τ) (st1_6 t) fullShare ((dat1 V c).after 6 t) from by
    unfold Dat.leavesExact; rw [liveAt1_6 t], after1_6]
  unfold bnblk1
  have hN : t.val < 10 := lt_of_lt_of_eq t.isLt (show cfg1.N = 10 from N_1)
  by_cases h0 : t.val = 0
  · have hc0 : cond1_0 (grid1.coords t) := (hcond1_0 t).mpr h0
    have hc1 : ¬cond1_1 (grid1.coords t) := fun h => by have := (hcond1_1 t).mp h; omega
    rw [Dat.leavesExact_idle (dat1 V c) 7 t (idleAt1_7 t hc1) (noFlush1_7 t hc1)]
    rw [acc1_first V c t h0]
    rw [PhiS1_castSucc V c t, PhiS1_zero V c _ _ h0, PhiA1_eq]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run1_A c Set.univ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) _ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [HS]; · iexact HS
    iintro ⟨H0, H1, H2, H3, H4, H5, H6, H7, HS⟩
    isplitl [HS HR Hg]
    · isplitl [HS]; · iexact HS
      isplitl [HR]; · iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · have hc0 : ¬cond1_0 (grid1.coords t) := fun h => h0 ((hcond1_0 t).mp h)
    by_cases h1 : t.val = 9
    · have hc1 : cond1_1 (grid1.coords t) := (hcond1_1 t).mpr h1
      rw [show (dat1 V c).leavesExact 7 t = owns (c : Thread nD τ) (st1_7 t) fullShare ((dat1 V c).after 7 t) from by
        unfold Dat.leavesExact; rw [liveAt1_7 t hc1], after1_7]
      rw [acc1_later V c t h0]
      rw [PhiS1_castSucc V c t, PhiS1_pos V c _ _ h0]
      iintro ⟨⟨HS, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run1_C c Set.univ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS]; · iexact HS
      iintro ⟨H0, H1, H2, H3, H4, H5, H6, H7, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hc1 : ¬cond1_1 (grid1.coords t) := fun h => h1 ((hcond1_1 t).mp h)
      rw [Dat.leavesExact_idle (dat1 V c) 7 t (idleAt1_7 t hc1) (noFlush1_7 t hc1)]
      rw [acc1_later V c t h0]
      rw [PhiS1_castSucc V c t, PhiS1_pos V c _ _ h0]
      iintro ⟨⟨HS, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run1_B c Set.univ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS]; · iexact HS
      iintro ⟨H0, H1, H2, H3, H4, H5, H6, H7, HS⟩
      isplitl [HS HR Hg]
      · isplitl [HS]; · iexact HS
        isplitl [HR]; · iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The body obligation at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: the scratch's contents are forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨HS, HR, Hg⟩
  isplitl [HS HR]
  · isplitl [HS]
    · iexists _; iexact HS
    iexact HR
  iexact Hg

/-- After the last point the invariant gives the scoped buffers and the register back, the scratch's contents forgotten. -/
theorem hout1 (c : Dev nD) : (dat1 V c).Φ (Fin.last cfg1.N) ⊢ (Pipeline.ΦA spec1 c : sProp 𝕄) :=
  Phi_out1 V c _ (by rw [Fin.val_last]; have : cfg1.N = 10 := N_1; omega)

end Cert.KernelIdeal.Rg

end
-- ==== Proof.KI.Launch.lean ====
/-
  The run of the whole program: eight stretches of host operations with six kernel regions between them.
  Between two items a core holds every unscoped buffer whole at a named valuation, beside its generator register
  at some state and the fact that it owes nothing. A host stretch takes the valuation to what its operations
  compute of it; a kernel region takes it to the same valuation with the region's output arrays replaced by what the
  pipeline's write-backs leave in them. Those final arrays are named by the regions' proof data, each stated at the
  contents its region is entered from, so they are fixed in order: the first region's from the launch contents, the
  second's from what the first leaves and the host stretch after it computes, and so on to the sixth.
  With every region's data and body obligation in hand, every weakly fair execution of the program terminates and
  its final memory holds each unscoped buffer at the last valuation; the argument arrays, which nothing writes,
  end as launched.
-/
import proofs.«409766_j3350074491205_1_alg».proof.Proof.Gen.KernelIdeal.Regions
import proofs.«409766_j3350074491205_1_alg».proof.Proof.KI.Mlp0
import proofs.«409766_j3350074491205_1_alg».proof.Proof.KI.Bn1
import proofs.«409766_j3350074491205_1_alg».proof.Proof.KI.Mlp2
import proofs.«409766_j3350074491205_1_alg».proof.Proof.KI.Bn3
import proofs.«409766_j3350074491205_1_alg».proof.Proof.KI.Mlp4
import proofs.«409766_j3350074491205_1_alg».proof.Proof.KI.Bn5
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Rg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions leave, fixed in order

Each region's final arrays are read off its proof data at the contents the region is entered from; those contents
are the valuation before it, which mentions only what EARLIER regions leave. So the chain is built from the launch
memory forwards, one region at a time. -/

/-- A buffer's launch contents: what a region is said to leave in a buffer it does not write (never consulted). -/
abbrev dflt (c : Dev nD) (r : Ref sig .tc) : Buf (Elt F) ((c : Thread nD τ).loc r) := m ((c : Thread nD τ).loc r)

/-- Region 0 is entered from the launch contents after the first two host stretches. -/
abbrev ent0 (c : Dev nD) (b : Ref sig .tc) : Buf (Elt F) ((c : Thread nD τ).loc b) := Gen.V2 m c b
/-- What region 0 leaves in its output array. -/
def o3 (c : Dev nD) : Buf (Elt F) ((c : Thread nD τ).loc main_v20) := (dat0 (ent0 m) c).arrAt 5 cfg0.N
/-- The valuation after region 0. -/
def w3 (c : Dev nD) : Valuation τ sig (Elt F) := Function.update (Gen.V2 m c) main_v20 (o3 m c)
/-- Region 1 is entered from it after the next host stretch. -/
def st1 (c : Dev nD) (b : Ref sig .tc) : Buf (Elt F) ((c : Thread nD τ).loc b) := StableHlo.after hostOps1 (w3 m c) b
/-- What region 1 leaves in its two output arrays. -/
def o5_0 (c : Dev nD) : Buf (Elt F) ((c : Thread nD τ).loc main_v38_0) := (dat1 (st1 m) c).arrAt 6 cfg1.N
def o5_1 (c : Dev nD) : Buf (Elt F) ((c : Thread nD τ).loc main_v38_1) := (dat1 (st1 m) c).arrAt 7 cfg1.N
/-- The valuation after region 1. -/
def w5 (c : Dev nD) : Valuation τ sig (Elt F) :=
  Function.update (Function.update (StableHlo.after hostOps1 (w3 m c)) main_v38_0 (o5_0 m c)) main_v38_1 (o5_1 m c)
/-- Region 2's entry contents. -/
def st2 (c : Dev nD) (b : Ref sig .tc) : Buf (Elt F) ((c : Thread nD τ).loc b) := StableHlo.after hostOps2 (w5 m c) b
/-- What region 2 leaves in its output array. -/
def o7 (c : Dev nD) : Buf (Elt F) ((c : Thread nD τ).loc main_v59) := (dat2 (st2 m) c).arrAt 5 cfg2.N
/-- The valuation after region 2. -/
def w7 (c : Dev nD) : Valuation τ sig (Elt F) := Function.update (StableHlo.after hostOps2 (w5 m c)) main_v59 (o7 m c)
/-- Region 3's entry contents. -/
def st3 (c : Dev nD) (b : Ref sig .tc) : Buf (Elt F) ((c : Thread nD τ).loc b) := StableHlo.after hostOps3 (w7 m c) b
/-- What region 3 leaves in its two output arrays. -/
def o9_0 (c : Dev nD) : Buf (Elt F) ((c : Thread nD τ).loc main_v77_0) := (dat3 (st3 m) c).arrAt 6 cfg3.N
def o9_1 (c : Dev nD) : Buf (Elt F) ((c : Thread nD τ).loc main_v77_1) := (dat3 (st3 m) c).arrAt 7 cfg3.N
/-- The valuation after region 3. -/
def w9 (c : Dev nD) : Valuation τ sig (Elt F) :=
  Function.update (Function.update (StableHlo.after hostOps3 (w7 m c)) main_v77_0 (o9_0 m c)) main_v77_1 (o9_1 m c)
/-- Region 4's entry contents. -/
def st4 (c : Dev nD) (b : Ref sig .tc) : Buf (Elt F) ((c : Thread nD τ).loc b) := StableHlo.after hostOps4 (w9 m c) b
/-- What region 4 leaves in its output array. -/
def o11 (c : Dev nD) : Buf (Elt F) ((c : Thread nD τ).loc main_v98) := (dat4 (st4 m) c).arrAt 5 cfg4.N
/-- The valuation after region 4. -/
def w11 (c : Dev nD) : Valuation τ sig (Elt F) := Function.update (StableHlo.after hostOps4 (w9 m c)) main_v98 (o11 m c)
/-- Region 5's entry contents. -/
def st5 (c : Dev nD) (b : Ref sig .tc) : Buf (Elt F) ((c : Thread nD τ).loc b) := StableHlo.after hostOps5 (w11 m c) b
/-- What region 5 leaves in its two output arrays. -/
def o13_0 (c : Dev nD) : Buf (Elt F) ((c : Thread nD τ).loc main_v116_0) := (dat5 (st5 m) c).arrAt 6 cfg5.N
def o13_1 (c : Dev nD) : Buf (Elt F) ((c : Thread nD τ).loc main_v116_1) := (dat5 (st5 m) c).arrAt 7 cfg5.N

/-- What the regions leave, as the valuations between items read it: after item J−1 the buffer `r` on core `c`.
    Only the nine (item, output array) pairs of the six regions are ever read; elsewhere the launch contents stand in. -/
def outsK : Gen.Outs (F := F) := fun J r c =>
  match J with
  | 3 => Function.update (dflt m c) main_v20 (o3 m c) r
  | 5 => Function.update (Function.update (dflt m c) main_v38_0 (o5_0 m c)) main_v38_1 (o5_1 m c) r
  | 7 => Function.update (dflt m c) main_v59 (o7 m c) r
  | 9 => Function.update (Function.update (dflt m c) main_v77_0 (o9_0 m c)) main_v77_1 (o9_1 m c) r
  | 11 => Function.update (dflt m c) main_v98 (o11 m c) r
  | 13 => Function.update (Function.update (dflt m c) main_v116_0 (o13_0 m c)) main_v116_1 (o13_1 m c) r
  | _ => dflt m c r

/-- The contents each later region is entered from: the valuations between the items at these choices. -/
abbrev ent1 (c : Dev nD) (b : Ref sig .tc) : Buf (Elt F) ((c : Thread nD τ).loc b) := Gen.V4 m (outsK m) c b
abbrev ent2 (c : Dev nD) (b : Ref sig .tc) : Buf (Elt F) ((c : Thread nD τ).loc b) := Gen.V6 m (outsK m) c b
abbrev ent3 (c : Dev nD) (b : Ref sig .tc) : Buf (Elt F) ((c : Thread nD τ).loc b) := Gen.V8 m (outsK m) c b
abbrev ent4 (c : Dev nD) (b : Ref sig .tc) : Buf (Elt F) ((c : Thread nD τ).loc b) := Gen.V10 m (outsK m) c b
abbrev ent5 (c : Dev nD) (b : Ref sig .tc) : Buf (Elt F) ((c : Thread nD τ).loc b) := Gen.V12 m (outsK m) c b
/-- The contents each region leaves. -/
abbrev ex0 (c : Dev nD) (b : Ref sig .tc) : Buf (Elt F) ((c : Thread nD τ).loc b) := Gen.V3 m (outsK m) c b
abbrev ex1 (c : Dev nD) (b : Ref sig .tc) : Buf (Elt F) ((c : Thread nD τ).loc b) := Gen.V5 m (outsK m) c b
abbrev ex2 (c : Dev nD) (b : Ref sig .tc) : Buf (Elt F) ((c : Thread nD τ).loc b) := Gen.V7 m (outsK m) c b
abbrev ex3 (c : Dev nD) (b : Ref sig .tc) : Buf (Elt F) ((c : Thread nD τ).loc b) := Gen.V9 m (outsK m) c b
abbrev ex4 (c : Dev nD) (b : Ref sig .tc) : Buf (Elt F) ((c : Thread nD τ).loc b) := Gen.V11 m (outsK m) c b
abbrev ex5 (c : Dev nD) (b : Ref sig .tc) : Buf (Elt F) ((c : Thread nD τ).loc b) := Gen.V13 m (outsK m) c b

/-! ### The choices read back

Each output array holds what its region's data leave, the data being at the valuation before the region; each
valuation between items is the staged one. Proved in the order of the program, each step from the one before. -/

theorem outsK_3 (c : Dev nD) : outsK m 3 main_v20 c = (dat0 (ent0 m) c).arrAt 5 cfg0.N := by
  show Function.update (dflt m c) main_v20 (o3 m c) main_v20 = _
  rw [Function.update_self]; rfl
theorem w3_eq (c : Dev nD) : Gen.V3 m (outsK m) c = w3 m c := by
  unfold w3 o3; rw [← outsK_3]
theorem ent1_eq : ent1 m = st1 m := by
  funext c b; unfold st1; rw [← w3_eq]
theorem outsK_5_0 (c : Dev nD) : outsK m 5 main_v38_0 c = (dat1 (ent1 m) c).arrAt 6 cfg1.N := by
  rw [ent1_eq]
  show Function.update (Function.update (dflt m c) main_v38_0 (o5_0 m c)) main_v38_1 (o5_1 m c) main_v38_0 = _
  rw [Function.update_of_ne (by decide), Function.update_self]; rfl
theorem outsK_5_1 (c : Dev nD) : outsK m 5 main_v38_1 c = (dat1 (ent1 m) c).arrAt 7 cfg1.N := by
  rw [ent1_eq]
  show Function.update (Function.update (dflt m c) main_v38_0 (o5_0 m c)) main_v38_1 (o5_1 m c) main_v38_1 = _
  rw [Function.update_self]; rfl
theorem w5_eq (c : Dev nD) : Gen.V5 m (outsK m) c = w5 m c := by
  unfold w5 o5_0 o5_1; rw [← w3_eq, ← ent1_eq, ← outsK_5_0, ← outsK_5_1]
theorem ent2_eq : ent2 m = st2 m := by
  funext c b; unfold st2; rw [← w5_eq]
theorem outsK_7 (c : Dev nD) : outsK m 7 main_v59 c = (dat2 (ent2 m) c).arrAt 5 cfg2.N := by
  rw [ent2_eq]
  show Function.update (dflt m c) main_v59 (o7 m c) main_v59 = _
  rw [Function.update_self]; rfl
theorem w7_eq (c : Dev nD) : Gen.V7 m (outsK m) c = w7 m c := by
  unfold w7 o7; rw [← w5_eq, ← ent2_eq, ← outsK_7]
theorem ent3_eq : ent3 m = st3 m := by
  funext c b; unfold st3; rw [← w7_eq]
theorem outsK_9_0 (c : Dev nD) : outsK m 9 main_v77_0 c = (dat3 (ent3 m) c).arrAt 6 cfg3.N := by
  rw [ent3_eq]
  show Function.update (Function.update (dflt m c) main_v77_0 (o9_0 m c)) main_v77_1 (o9_1 m c) main_v77_0 = _
  rw [Function.update_of_ne (by decide), Function.update_self]; rfl
theorem outsK_9_1 (c : Dev nD) : outsK m 9 main_v77_1 c = (dat3 (ent3 m) c).arrAt 7 cfg3.N := by
  rw [ent3_eq]
  show Function.update (Function.update (dflt m c) main_v77_0 (o9_0 m c)) main_v77_1 (o9_1 m c) main_v77_1 = _
  rw [Function.update_self]; rfl
theorem w9_eq (c : Dev nD) : Gen.V9 m (outsK m) c = w9 m c := by
  unfold w9 o9_0 o9_1; rw [← w7_eq, ← ent3_eq, ← outsK_9_0, ← outsK_9_1]
theorem ent4_eq : ent4 m = st4 m := by
  funext c b; unfold st4; rw [← w9_eq]
theorem outsK_11 (c : Dev nD) : outsK m 11 main_v98 c = (dat4 (ent4 m) c).arrAt 5 cfg4.N := by
  rw [ent4_eq]
  show Function.update (dflt m c) main_v98 (o11 m c) main_v98 = _
  rw [Function.update_self]; rfl
theorem w11_eq (c : Dev nD) : Gen.V11 m (outsK m) c = w11 m c := by
  unfold w11 o11; rw [← w9_eq, ← ent4_eq, ← outsK_11]
theorem ent5_eq : ent5 m = st5 m := by
  funext c b; unfold st5; rw [← w11_eq]
theorem outsK_13_0 (c : Dev nD) : outsK m 13 main_v116_0 c = (dat5 (ent5 m) c).arrAt 6 cfg5.N := by
  rw [ent5_eq]
  show Function.update (Function.update (dflt m c) main_v116_0 (o13_0 m c)) main_v116_1 (o13_1 m c) main_v116_0 = _
  rw [Function.update_of_ne (by decide), Function.update_self]; rfl
theorem outsK_13_1 (c : Dev nD) : outsK m 13 main_v116_1 c = (dat5 (ent5 m) c).arrAt 7 cfg5.N := by
  rw [ent5_eq]
  show Function.update (Function.update (dflt m c) main_v116_0 (o13_0 m c)) main_v116_1 (o13_1 m c) main_v116_1 = _
  rw [Function.update_self]; rfl

/-! ## The proof data family and the thread state -/

/-- Every pipeline's proof data, each at its region's entry contents: a literal match, so that the family at a
    numeral reduces to that region's data. -/
def pdats : (p : Fin 6) → (c : Dev nD) → Dat τ (Elt F) Unit ℕ (UR sig nD τ) ℕ (cfgs p) c
  | ⟨0, _⟩ => fun c => dat0 (ent0 m) c
  | ⟨1, _⟩ => fun c => dat1 (ent1 m) c
  | ⟨2, _⟩ => fun c => dat2 (ent2 m) c
  | ⟨3, _⟩ => fun c => dat3 (ent3 m) c
  | ⟨4, _⟩ => fun c => dat4 (ent4 m) c
  | ⟨5, _⟩ => fun c => dat5 (ent5 m) c

/-- No core owes another anything: no level is assigned. -/
abbrev L : GSem nD τ sig → Finset Unit := fun _ => ∅
abbrev lv : GSem nD τ sig → Unit → ℕ := fun _ _ => 0
/-- What rides beside the buffers through every item: the core's generator register at some state (a region
    invariant takes it in and gives it back) and the fact that the core owes nothing. -/
abbrev R (c : Dev nD) : sProp 𝕄 := iprop((∃ r, prngReg c r) ∗ ∃ W, owes (c : Thread nD τ) (0 : CellTallies nD τ sig Unit) W)
/-- The same beside every boundary. -/
abbrev E : Fin 7 → Dev nD → sProp 𝕄 := fun _ c => R c

/-! ## What a region's exit valuation holds

At a region's exit each of its arrays holds what the pipeline leaves there — an input array what it held at entry,
since nothing is written back to it and it is none of the output arrays; an output array the chosen contents, which
are the proof data's final array — and every buffer that is no array of the region holds what it held at entry. -/

/-- Region 0: no input window's array is the output array; the one output window is the last. -/
theorem arr_in0 : ∀ w : Fin 6, (cfg0.win w).isOut = false → Pipeline.arrRef spec0 w ∉ ([main_v20] : List (Ref sig .tc)) := by decide
theorem arr_out0 : ∀ w : Fin 6, ¬ (cfg0.win w).isOut = false → w = 5 := by decide
theorem hF0 (c : Dev nD) (w : Fin cfg0.W) : (pdats m 0 c).arrAt w cfg0.N = ex0 m c (Pipeline.arrRef spec0 w) := by
  by_cases hw : (cfg0.win w).isOut = false
  · exact ((dat0 (ent0 m) c).arrAt_in w hw _).trans
      ((A_eq0 (ent0 m) c w).trans (Gen.V3_of m (outsK m) c (Pipeline.arrRef spec0 w) (arr_in0 w hw)).symm)
  · obtain rfl := arr_out0 w hw
    show (dat0 (ent0 m) c).arrAt 5 cfg0.N = Function.update (Gen.V2 m c) main_v20 (outsK m 3 main_v20 c) main_v20
    rw [Function.update_self, outsK_3]
theorem hrest0 (c : Dev nD) : ∀ b, b ∉ Finset.univ.image (Pipeline.arrRef spec0) → ex0 m c b = ent0 m c b :=
  fun b hb => Gen.V3_of m (outsK m) c b fun hmem =>
    hb (Finset.mem_image.mpr ⟨5, Finset.mem_univ _, (List.mem_singleton.mp hmem).symm⟩)

/-- Region 1: no input window's array is an output array; the two output windows are the last two. -/
theorem arr_in1 : ∀ w : Fin 8, (cfg1.win w).isOut = false → Pipeline.arrRef spec1 w ∉ ([main_v38_0, main_v38_1] : List (Ref sig .tc)) := by decide
theorem arr_out1 : ∀ w : Fin 8, ¬ (cfg1.win w).isOut = false → w = 6 ∨ w = 7 := by decide
theorem hF1 (c : Dev nD) (w : Fin cfg1.W) : (pdats m 1 c).arrAt w cfg1.N = ex1 m c (Pipeline.arrRef spec1 w) := by
  by_cases hw : (cfg1.win w).isOut = false
  · exact ((dat1 (ent1 m) c).arrAt_in w hw _).trans
      ((A_eq1 (ent1 m) c w).trans (Gen.V5_of m (outsK m) c (Pipeline.arrRef spec1 w) (arr_in1 w hw)).symm)
  · rcases arr_out1 w hw with rfl | rfl
    · show (dat1 (ent1 m) c).arrAt 6 cfg1.N = Function.update (Function.update (Gen.V4 m (outsK m) c) main_v38_0 (outsK m 5 main_v38_0 c)) main_v38_1 (outsK m 5 main_v38_1 c) main_v38_0
      rw [Function.update_of_ne (StableHlo.devRef_ne_of_ne (by decide)), Function.update_self, outsK_5_0]
    · show (dat1 (ent1 m) c).arrAt 7 cfg1.N = Function.update (Function.update (Gen.V4 m (outsK m) c) main_v38_0 (outsK m 5 main_v38_0 c)) main_v38_1 (outsK m 5 main_v38_1 c) main_v38_1
      rw [Function.update_self, outsK_5_1]
theorem hrest1 (c : Dev nD) : ∀ b, b ∉ Finset.univ.image (Pipeline.arrRef spec1) → ex1 m c b = ent1 m c b :=
  fun b hb => Gen.V5_of m (outsK m) c b fun hmem => hb (by
    rcases List.mem_cons.mp hmem with h | h
    · exact Finset.mem_image.mpr ⟨6, Finset.mem_univ _, h.symm⟩
    · exact Finset.mem_image.mpr ⟨7, Finset.mem_univ _, (List.mem_singleton.mp h).symm⟩)

/-- Region 2. -/
theorem arr_in2 : ∀ w : Fin 6, (cfg2.win w).isOut = false → Pipeline.arrRef spec2 w ∉ ([main_v59] : List (Ref sig .tc)) := by decide
theorem arr_out2 : ∀ w : Fin 6, ¬ (cfg2.win w).isOut = false → w = 5 := by decide
theorem hF2 (c : Dev nD) (w : Fin cfg2.W) : (pdats m 2 c).arrAt w cfg2.N = ex2 m c (Pipeline.arrRef spec2 w) := by
  by_cases hw : (cfg2.win w).isOut = false
  · exact ((dat2 (ent2 m) c).arrAt_in w hw _).trans
      ((A_eq2 (ent2 m) c w).trans (Gen.V7_of m (outsK m) c (Pipeline.arrRef spec2 w) (arr_in2 w hw)).symm)
  · obtain rfl := arr_out2 w hw
    show (dat2 (ent2 m) c).arrAt 5 cfg2.N = Function.update (Gen.V6 m (outsK m) c) main_v59 (outsK m 7 main_v59 c) main_v59
    rw [Function.update_self, outsK_7]
theorem hrest2 (c : Dev nD) : ∀ b, b ∉ Finset.univ.image (Pipeline.arrRef spec2) → ex2 m c b = ent2 m c b :=
  fun b hb => Gen.V7_of m (outsK m) c b fun hmem =>
    hb (Finset.mem_image.mpr ⟨5, Finset.mem_univ _, (List.mem_singleton.mp hmem).symm⟩)

/-- Region 3. -/
theorem arr_in3 : ∀ w : Fin 8, (cfg3.win w).isOut = false → Pipeline.arrRef spec3 w ∉ ([main_v77_0, main_v77_1] : List (Ref sig .tc)) := by decide
theorem arr_out3 : ∀ w : Fin 8, ¬ (cfg3.win w).isOut = false → w = 6 ∨ w = 7 := by decide
theorem hF3 (c : Dev nD) (w : Fin cfg3.W) : (pdats m 3 c).arrAt w cfg3.N = ex3 m c (Pipeline.arrRef spec3 w) := by
  by_cases hw : (cfg3.win w).isOut = false
  · exact ((dat3 (ent3 m) c).arrAt_in w hw _).trans
      ((A_eq3 (ent3 m) c w).trans (Gen.V9_of m (outsK m) c (Pipeline.arrRef spec3 w) (arr_in3 w hw)).symm)
  · rcases arr_out3 w hw with rfl | rfl
    · show (dat3 (ent3 m) c).arrAt 6 cfg3.N = Function.update (Function.update (Gen.V8 m (outsK m) c) main_v77_0 (outsK m 9 main_v77_0 c)) main_v77_1 (outsK m 9 main_v77_1 c) main_v77_0
      rw [Function.update_of_ne (StableHlo.devRef_ne_of_ne (by decide)), Function.update_self, outsK_9_0]
    · show (dat3 (ent3 m) c).arrAt 7 cfg3.N = Function.update (Function.update (Gen.V8 m (outsK m) c) main_v77_0 (outsK m 9 main_v77_0 c)) main_v77_1 (outsK m 9 main_v77_1 c) main_v77_1
      rw [Function.update_self, outsK_9_1]
theorem hrest3 (c : Dev nD) : ∀ b, b ∉ Finset.univ.image (Pipeline.arrRef spec3) → ex3 m c b = ent3 m c b :=
  fun b hb => Gen.V9_of m (outsK m) c b fun hmem => hb (by
    rcases List.mem_cons.mp hmem with h | h
    · exact Finset.mem_image.mpr ⟨6, Finset.mem_univ _, h.symm⟩
    · exact Finset.mem_image.mpr ⟨7, Finset.mem_univ _, (List.mem_singleton.mp h).symm⟩)

/-- Region 4. -/
theorem arr_in4 : ∀ w : Fin 6, (cfg4.win w).isOut = false → Pipeline.arrRef spec4 w ∉ ([main_v98] : List (Ref sig .tc)) := by decide
theorem arr_out4 : ∀ w : Fin 6, ¬ (cfg4.win w).isOut = false → w = 5 := by decide
theorem hF4 (c : Dev nD) (w : Fin cfg4.W) : (pdats m 4 c).arrAt w cfg4.N = ex4 m c (Pipeline.arrRef spec4 w) := by
  by_cases hw : (cfg4.win w).isOut = false
  · exact ((dat4 (ent4 m) c).arrAt_in w hw _).trans
      ((A_eq4 (ent4 m) c w).trans (Gen.V11_of m (outsK m) c (Pipeline.arrRef spec4 w) (arr_in4 w hw)).symm)
  · obtain rfl := arr_out4 w hw
    show (dat4 (ent4 m) c).arrAt 5 cfg4.N = Function.update (Gen.V10 m (outsK m) c) main_v98 (outsK m 11 main_v98 c) main_v98
    rw [Function.update_self, outsK_11]
theorem hrest4 (c : Dev nD) : ∀ b, b ∉ Finset.univ.image (Pipeline.arrRef spec4) → ex4 m c b = ent4 m c b :=
  fun b hb => Gen.V11_of m (outsK m) c b fun hmem =>
    hb (Finset.mem_image.mpr ⟨5, Finset.mem_univ _, (List.mem_singleton.mp hmem).symm⟩)

/-- Region 5. -/
theorem arr_in5 : ∀ w : Fin 8, (cfg5.win w).isOut = false → Pipeline.arrRef spec5 w ∉ ([main_v116_0, main_v116_1] : List (Ref sig .tc)) := by decide
theorem arr_out5 : ∀ w : Fin 8, ¬ (cfg5.win w).isOut = false → w = 6 ∨ w = 7 := by decide
theorem hF5 (c : Dev nD) (w : Fin cfg5.W) : (pdats m 5 c).arrAt w cfg5.N = ex5 m c (Pipeline.arrRef spec5 w) := by
  by_cases hw : (cfg5.win w).isOut = false
  · exact ((dat5 (ent5 m) c).arrAt_in w hw _).trans
      ((A_eq5 (ent5 m) c w).trans (Gen.V13_of m (outsK m) c (Pipeline.arrRef spec5 w) (arr_in5 w hw)).symm)
  · rcases arr_out5 w hw with rfl | rfl
    · show (dat5 (ent5 m) c).arrAt 6 cfg5.N = Function.update (Function.update (Gen.V12 m (outsK m) c) main_v116_0 (outsK m 13 main_v116_0 c)) main_v116_1 (outsK m 13 main_v116_1 c) main_v116_0
      rw [Function.update_of_ne (StableHlo.devRef_ne_of_ne (by decide)), Function.update_self, outsK_13_0]
    · show (dat5 (ent5 m) c).arrAt 7 cfg5.N = Function.update (Function.update (Gen.V12 m (outsK m) c) main_v116_0 (outsK m 13 main_v116_0 c)) main_v116_1 (outsK m 13 main_v116_1 c) main_v116_1
      rw [Function.update_self, outsK_13_1]
theorem hrest5 (c : Dev nD) : ∀ b, b ∉ Finset.univ.image (Pipeline.arrRef spec5) → ex5 m c b = ent5 m c b :=
  fun b hb => Gen.V13_of m (outsK m) c b fun hmem => hb (by
    rcases List.mem_cons.mp hmem with h | h
    · exact Finset.mem_image.mpr ⟨6, Finset.mem_univ _, h.symm⟩
    · exact Finset.mem_image.mpr ⟨7, Finset.mem_univ _, (List.mem_singleton.mp h).symm⟩)

/-! ## The regions as segments -/

-- a library lemma stated over the pinned configuration unifies with the printed one only when unification may unfold
-- plain definitions in a metavariable's type
set_option backward.isDefEq.respectTransparency.types false in
/-- REGION 0 over the thread state: entered from every unscoped buffer at the valuation before it, left at the one
    after it. Its arrays are split out of the unscoped buffers and put back at the exit contents; the generator register
    goes into the region invariant and comes back; nothing is owed; the kernel has no semaphore of its own. -/
def reg0 : RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (ent0 m) c).loose
  hwaits := Pipeline.hwaits_of_owed_zero _ _ _ _ L lv 0 fun _ _ => rfl
  pre c := iprop(StableHlo.held (c : Thread nD τ) (Pipeline.ucRefs τ sig) (Gen.V2 m c) ∗ R c)
  post c := iprop(StableHlo.held (c : Thread nD τ) (Pipeline.ucRefs τ sig) (Gen.V3 m (outsK m) c) ∗ R c)
  X c := iprop(∃ r, prngReg c r)
  Y c := iprop(∃ r, prngReg c r)
  Z c := Pipeline.unscopedRest (Ix := Unit) (Name := ℕ) (U := UR sig nD τ) (Lvl := ℕ) spec0 c (ent0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (ent0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (ent0 m c) (ex0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 1 over the thread state: entered from every unscoped buffer at the valuation before it, left at the one
    after it. Its arrays are split out of the unscoped buffers and put back at the exit contents. The region keeps a
    scratch between grid points, so its invariant is not the same at every point: what the launch hands over makes the
    invariant before the first point, and the invariant after the last gives the scoped buffers and the generator
    register back. Nothing is owed; the kernel has no semaphore of its own. -/
def reg1 : RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (ent1 m) c).loose
  hwaits := Pipeline.hwaits_of_owed_zero _ _ _ _ L lv 1 fun _ _ => rfl
  pre c := iprop(StableHlo.held (c : Thread nD τ) (Pipeline.ucRefs τ sig) (Gen.V4 m (outsK m) c) ∗ R c)
  post c := iprop(StableHlo.held (c : Thread nD τ) (Pipeline.ucRefs τ sig) (Gen.V5 m (outsK m) c) ∗ R c)
  X c := iprop(∃ r, prngReg c r)
  Y c := iprop(∃ r, prngReg c r)
  Z c := Pipeline.unscopedRest (Ix := Unit) (Name := ℕ) (U := UR sig nD τ) (Lvl := ℕ) spec1 c (ent1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (ent1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show (Pipeline.ΦA spec1 c : sProp 𝕄) ⊢ (pdats m 1 c).Φ 0 from hin1 (ent1 m) c)
    unfold Pipeline.ΦA
    iintro ⟨Hp, -, Hr⟩
    isplitl [Hr]; · iexact Hr
    iexact Hp
  hout c := by
    rw [Pipeline.ownSems0_none]
    refine BIBase.Entails.trans (show (pdats m 1 c).Φ (Fin.last _) ⊢ (Pipeline.ΦA spec1 c : sProp 𝕄) from hout1 (ent1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (ent1 m c) (ex1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 2 over the thread state: as region 0, between the valuations before and after it. -/
def reg2 : RegionSeg (pcfgs (F := F)) adm (pdats m) () defs₀ Variants.none L lv 2 where
  win := launch2.win.to₀
  block_pos := launch2.block_pos
  stage_whole := launch2.stage_whole
  K := PEmpty
  osem k := k.elim
  ho := Pipeline.OwnSemFacts.none _
  hbody c := (body_obligation2 (ent2 m) c).loose
  hwaits := Pipeline.hwaits_of_owed_zero _ _ _ _ L lv 2 fun _ _ => rfl
  pre c := iprop(StableHlo.held (c : Thread nD τ) (Pipeline.ucRefs τ sig) (Gen.V6 m (outsK m) c) ∗ R c)
  post c := iprop(StableHlo.held (c : Thread nD τ) (Pipeline.ucRefs τ sig) (Gen.V7 m (outsK m) c) ∗ R c)
  X c := iprop(∃ r, prngReg c r)
  Y c := iprop(∃ r, prngReg c r)
  Z c := Pipeline.unscopedRest (Ix := Unit) (Name := ℕ) (U := UR sig nD τ) (Lvl := ℕ) spec2 c (ent2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (ent2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (ent2 m c) (ex2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 3 over the thread state: as region 1 (a scratch carried between grid points), between the valuations
    before and after it. -/
def reg3 : RegionSeg (pcfgs (F := F)) adm (pdats m) () defs₀ Variants.none L lv 3 where
  win := launch3.win.to₀
  block_pos := launch3.block_pos
  stage_whole := launch3.stage_whole
  K := PEmpty
  osem k := k.elim
  ho := Pipeline.OwnSemFacts.none _
  hbody c := (body_obligation3 (ent3 m) c).loose
  hwaits := Pipeline.hwaits_of_owed_zero _ _ _ _ L lv 3 fun _ _ => rfl
  pre c := iprop(StableHlo.held (c : Thread nD τ) (Pipeline.ucRefs τ sig) (Gen.V8 m (outsK m) c) ∗ R c)
  post c := iprop(StableHlo.held (c : Thread nD τ) (Pipeline.ucRefs τ sig) (Gen.V9 m (outsK m) c) ∗ R c)
  X c := iprop(∃ r, prngReg c r)
  Y c := iprop(∃ r, prngReg c r)
  Z c := Pipeline.unscopedRest (Ix := Unit) (Name := ℕ) (U := UR sig nD τ) (Lvl := ℕ) spec3 c (ent3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (ent3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show (Pipeline.ΦA spec3 c : sProp 𝕄) ⊢ (pdats m 3 c).Φ 0 from hin3 (ent3 m) c)
    unfold Pipeline.ΦA
    iintro ⟨Hp, -, Hr⟩
    isplitl [Hr]; · iexact Hr
    iexact Hp
  hout c := by
    rw [Pipeline.ownSems0_none]
    refine BIBase.Entails.trans (show (pdats m 3 c).Φ (Fin.last _) ⊢ (Pipeline.ΦA spec3 c : sProp 𝕄) from hout3 (ent3 m) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (ent3 m c) (ex3 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 4 over the thread state: as region 0, between the valuations before and after it. -/
def reg4 : RegionSeg (pcfgs (F := F)) adm (pdats m) () defs₀ Variants.none L lv 4 where
  win := launch4.win.to₀
  block_pos := launch4.block_pos
  stage_whole := launch4.stage_whole
  K := PEmpty
  osem k := k.elim
  ho := Pipeline.OwnSemFacts.none _
  hbody c := (body_obligation4 (ent4 m) c).loose
  hwaits := Pipeline.hwaits_of_owed_zero _ _ _ _ L lv 4 fun _ _ => rfl
  pre c := iprop(StableHlo.held (c : Thread nD τ) (Pipeline.ucRefs τ sig) (Gen.V10 m (outsK m) c) ∗ R c)
  post c := iprop(StableHlo.held (c : Thread nD τ) (Pipeline.ucRefs τ sig) (Gen.V11 m (outsK m) c) ∗ R c)
  X c := iprop(∃ r, prngReg c r)
  Y c := iprop(∃ r, prngReg c r)
  Z c := Pipeline.unscopedRest (Ix := Unit) (Name := ℕ) (U := UR sig nD τ) (Lvl := ℕ) spec4 c (ent4 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (ent4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (ent4 m c) (ex4 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- REGION 5 over the thread state: as region 1 (a scratch carried between grid points), between the valuations
    before and after it. -/
def reg5 : RegionSeg (pcfgs (F := F)) adm (pdats m) () defs₀ Variants.none L lv 5 where
  win := launch5.win.to₀
  block_pos := launch5.block_pos
  stage_whole := launch5.stage_whole
  K := PEmpty
  osem k := k.elim
  ho := Pipeline.OwnSemFacts.none _
  hbody c := (body_obligation5 (ent5 m) c).loose
  hwaits := Pipeline.hwaits_of_owed_zero _ _ _ _ L lv 5 fun _ _ => rfl
  pre c := iprop(StableHlo.held (c : Thread nD τ) (Pipeline.ucRefs τ sig) (Gen.V12 m (outsK m) c) ∗ R c)
  post c := iprop(StableHlo.held (c : Thread nD τ) (Pipeline.ucRefs τ sig) (Gen.V13 m (outsK m) c) ∗ R c)
  X c := iprop(∃ r, prngReg c r)
  Y c := iprop(∃ r, prngReg c r)
  Z c := Pipeline.unscopedRest (Ix := Unit) (Name := ℕ) (U := UR sig nD τ) (Lvl := ℕ) spec5 c (ent5 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (ent5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show (Pipeline.ΦA spec5 c : sProp 𝕄) ⊢ (pdats m 5 c).Φ 0 from hin5 (ent5 m) c)
    unfold Pipeline.ΦA
    iintro ⟨Hp, -, Hr⟩
    isplitl [Hr]; · iexact Hr
    iexact Hp
  hout c := by
    rw [Pipeline.ownSems0_none]
    refine BIBase.Entails.trans (show (pdats m 5 c).Φ (Fin.last _) ⊢ (Pipeline.ΦA spec5 c : sProp 𝕄) from hout5 (ent5 m) c) ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (ent5 m c) (ex5 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

/-- The launch element is the pipeline library's own at every pipeline's staging cells; no further ghost resource. -/
theorem hu₀ : (ownU (initOf (Pipeline.cells cfgs cellOf_inj) (Pipeline.launchToks cfgs cellOf_inj)) : sProp 𝕄)
    ⊢ |={Set.univ}=> iprop(BI.own ((emb₁ : Emb _ 𝕄) (initOf (Pipeline.cells cfgs cellOf_inj) (Pipeline.launchToks cfgs cellOf_inj)))
        ∗ bigSep Finset.univ (fun _ : Dev nD => (iprop(emp) : sProp 𝕄))) := by
  iintro Hu; imodintro
  isplitl [Hu]
  · iapply (show (ownU (initOf (Pipeline.cells cfgs cellOf_inj) (Pipeline.launchToks cfgs cellOf_inj)) : sProp 𝕄)
        ⊢ BI.own ((emb₁ : Emb _ 𝕄) (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals a core, beside its buffers, makes the riding state: the generator register at its launch
    state, nothing owed. -/
theorem hE0 : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
    ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

/-- At the end the riding state still says that the core owes nothing. -/
theorem hE6 (c : Dev nD) : E (F := F) 6 c ⊢ (iprop(∃ W, owes (c : Thread nD τ) (0 : CellTallies nD τ sig Unit) W) : sProp 𝕄) := by
  iintro ⟨-, H⟩; iexact H

-- the launch theorem's implicit arguments are found by unifying its conclusion with this one, which takes unfolding
-- plain definitions in a metavariable's type
set_option backward.isDefEq.respectTransparency.types false in
/-- THE RUN. From any memory with zero counters every weakly fair execution of the program terminates and every final
    memory holds each unscoped buffer of each core at the last valuation: the items chain from the launch contents to
    it, each region between the valuations before and after it, and the last thread state is read against the final
    state. -/
theorem run_all : θ_run defs (onTc (τ := τ) (main (F := F))) ⟨m, fun _ => 0, ρ⟩
    (fun r => ∀ c : Dev nD, ∀ b ∈ Pipeline.ucRefs τ sig, r.2.mem ((c : Thread nD τ).1, b) = Gen.V14 m (outsK m) c b) := by
  refine Pipeline.θ_run_regions_kit_dev (pcfgs (F := F)) adm (pdats m) () cellOf_inj emb₁ defs₀ Variants.none L lv m ρ main
    (segs m (outsK m) Variants.none L lv E () (pdats m) (reg0 m) (reg1 m) (reg2 m) (reg3 m) (reg4 m) (reg5 m))
    (fun c Q => by
      rewrite [main_chain c, Seg.run_eq_chain,
        show (segs m (outsK m) Variants.none L lv E () (pdats m) (reg0 m) (reg1 m) (reg2 m) (reg3 m) (reg4 m) (reg5 m) c).map Seg.prog = [
          StableHlo.seq hostOps0,
          StableHlo.seq hostOps0_1,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6 ] from rfl]
      exact .rfl)
    (fun c => by simp only [segs, Seg.pipes_host, Seg.pipes_region, Seg.pipes_nil]; decide) 0 (fun _ _ => rfl)
    (fun _ => iprop(emp)) (initOf (Pipeline.cells cfgs cellOf_inj) (Pipeline.launchToks cfgs cellOf_inj)) hu₀
    (T₀ := fun c => iprop(StableHlo.held (c : Thread nD τ) (Pipeline.ucRefs τ sig) (Gen.V0 m c) ∗ E 0 c))
    (Tₙ := fun c => StableHlo.held (c : Thread nD τ) (Pipeline.ucRefs τ sig) (Gen.V14 m (outsK m) c))
    (hch := fun c => ⟨.rfl, .rfl, .rfl, .rfl, .rfl, .rfl, .rfl, .rfl, .rfl, .rfl, .rfl, .rfl, .rfl, .rfl, sep_mono .rfl (hE6 c)⟩)
    (hinit := ?_)
    (QY := fun c s => ∀ b ∈ Pipeline.ucRefs τ sig, s.mem ((c : Thread nD τ).1, b) = Gen.V14 m (outsK m) c b)
    (hfin := fun c s' => ?_) (hQ := fun _ h => h)
  · -- the launch: each core's unscoped buffers are held at the launch contents, the rest makes the riding state
    refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · -- the end: every unscoped buffer read off the last valuation
    iintro ⟨Hh, HSI⟩
    unfold StableHlo.held
    imodintro
    iapply (pointsTo_read_all (Pipeline.ucRefs τ sig) (fun b => ((c : Thread nD τ).1, b)) (Gen.V14 m (outsK m) c) s')
    isplitl [Hh] <;> iassumption

/-- THE FRAME. Every argument array ends holding its launch contents: no host stretch writes one and no region may
    change one, so the last valuation has each at what the launch memory held. -/
theorem frame_main : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Gen.frame_cond m (emb₁ : Emb _ 𝕄) () Variants.none L lv (fun _ _ => rfl) ρ (outsK m) (pdats m) 0 (fun _ => (iprop(emp) : sProp 𝕄))
    (initOf (Pipeline.cells cfgs cellOf_inj) (Pipeline.launchToks cfgs cellOf_inj)) hu₀ E (hE0 ρ) hE6
    (reg0 m) (fun _ => .rfl) (fun _ => .rfl) (reg1 m) (fun _ => .rfl) (fun _ => .rfl) (reg2 m) (fun _ => .rfl) (fun _ => .rfl)
    (reg3 m) (fun _ => .rfl) (fun _ => .rfl) (reg4 m) (fun _ => .rfl) (fun _ => .rfl) (reg5 m) (fun _ => .rfl) (fun _ => .rfl)

end Cert.KernelIdeal.Rg

end
-- ==== Proof.Ref.Defs.lean ====
/-
  The reference's arithmetic as named functions of whole arrays, for any float instance: the neighbour
  aggregation h + Σ_{edges into v} h[src], the two-layer perceptron with its outer relu, the batch statistics
  (mean, biased variance, reciprocal root), the normalisation, the per-graph sum pooling, and one layer as their
  composition. Each is the reference's own chain of host operations, so that the reference's results are these
  functions of its arguments on the nose, and the kernel's value lemmas are stated against the same terms.
-/
import proofs.«409766_j3350074491205_1_alg».proof.Proof.Gen.ReferenceIdeal

noncomputable section

namespace Cert.ReferenceIdeal.Sh

open Cert.ReferenceIdeal Cert.ReferenceIdeal.Gen Idealize.ShloMosaic Idealize.ShloMosaic.TcCoe Idealize.SL.Sem Idealize.ShloMosaic.StableHlo

variable {F : FTy → Type} [FloatOps F]

/-- A row of 128 numbers repeated down all 50000 rows. -/
def rows (v : (⟨S128, .f32⟩ : BufTy).Contents (Elt F)) : (⟨S50000x128, .f32⟩ : BufTy).Contents (Elt F) :=
  broadcastInDim S50000x128 ![0, 1] bcast_S1x128_S50000x128_0_1 (broadcastInDim S1x128 ![1] bcast_S128_S1x128_1 v)

/-- The zero matrix. -/
def zeros : (⟨S50000x128, .f32⟩ : BufTy).Contents (Elt F) :=
  broadcastInDim S50000x128 ![] bcast_S_S50000x128 (constant S_ .f32 0x00000000#32)

/-- The edge sources with negative entries wrapped by 50000, as a column of indices. -/
def srcIdx (src : (⟨S1600000, .i32⟩ : BufTy).Contents (Elt F)) : (⟨S1600000x1, .i32⟩ : BufTy).Contents (Elt F) :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 50000#32))) src)

/-- h plus, for each node, the sum of the rows of h at the sources of the edges that end there. -/
def agg (h : (⟨S50000x128, .f32⟩ : BufTy).Contents (Elt F)) (src dst : (⟨S1600000, .i32⟩ : BufTy).Contents (Elt F)) : (⟨S50000x128, .f32⟩ : BufTy).Contents (Elt F) :=
  addf h (Host.scatterAdd scatter_S50000x128_S1600000x1_S1600000x128_1_0_0_1 (zeros (F := F))
    (broadcastInDim S1600000x1 ![0] bcast_S1600000_S1600000x1_0 dst)
    (Host.gather gather_S50000x128_S1600000x1_S1600000x128_1_0_n_n_0_1_1128 h (srcIdx src)))

/-- relu(relu(x·W1 + b1)·W2 + b2). -/
def mlp (x : (⟨S50000x128, .f32⟩ : BufTy).Contents (Elt F)) (w1 : (⟨S128x128, .f32⟩ : BufTy).Contents (Elt F)) (b1 : (⟨S128, .f32⟩ : BufTy).Contents (Elt F)) (w2 : (⟨S128x128, .f32⟩ : BufTy).Contents (Elt F)) (b2 : (⟨S128, .f32⟩ : BufTy).Contents (Elt F)) : (⟨S50000x128, .f32⟩ : BufTy).Contents (Elt F) :=
  maximumf (addf (Host.dotGeneral dot_S50000x128_S128x128_S50000x128_1_0_0_1_n_n none
    (maximumf (addf (Host.dotGeneral dot_S50000x128_S128x128_S50000x128_1_0_0_1_n_n none x w1) (rows b1)) (zeros (F := F))) w2) (rows b2)) (zeros (F := F))

/-- The column means. -/
def mean (h : (⟨S50000x128, .f32⟩ : BufTy).Contents (Elt F)) : (⟨S128, .f32⟩ : BufTy).Contents (Elt F) :=
  Host.divf (Host.reduceAdd h (constant S_ .f32 0x00000000#32) reducesTo_S50000x128_S128_d0 h_S_)
    (broadcastInDim S128 ![] bcast_S_S128 (constant S_ .f32 0x47435000#32))

/-- The column means of the squared deviations. -/
def var (h : (⟨S50000x128, .f32⟩ : BufTy).Contents (Elt F)) : (⟨S128, .f32⟩ : BufTy).Contents (Elt F) :=
  Host.divf (Host.reduceAdd (mulf (subf h (rows (mean h))) (subf h (rows (mean h)))) (constant S_ .f32 0x00000000#32) reducesTo_S50000x128_S128_d0 h_S_)
    (broadcastInDim S128 ![] bcast_S_S128 (constant S_ .f32 0x47435000#32))

/-- 1 / sqrt(var + eps). -/
def rstd (h : (⟨S50000x128, .f32⟩ : BufTy).Contents (Elt F)) : (⟨S128, .f32⟩ : BufTy).Contents (Elt F) :=
  Host.rsqrt (addf (var h) (broadcastInDim S128 ![] bcast_S_S128 (constant S_ .f32 0x3727C5AC#32)))

/-- gamma·(h − mu)·rs + beta, row vectors repeated down the rows. -/
def bn (h : (⟨S50000x128, .f32⟩ : BufTy).Contents (Elt F)) (mu rs g b : (⟨S128, .f32⟩ : BufTy).Contents (Elt F)) : (⟨S50000x128, .f32⟩ : BufTy).Contents (Elt F) :=
  addf (mulf (mulf (rows g) (subf h (rows mu))) (rows rs)) (rows b)

/-- The sum of the rows of each graph: row n goes to row gid[n] when that is one of the 500 graphs. -/
def pool (hbn : (⟨S50000x128, .f32⟩ : BufTy).Contents (Elt F)) (gid : (⟨S50000, .i32⟩ : BufTy).Contents (Elt F)) : (⟨S500x128, .f32⟩ : BufTy).Contents (Elt F) :=
  Host.scatterAdd scatter_S500x128_S50000x1_S50000x128_1_0_0_1
    (broadcastInDim S500x128 ![] bcast_S_S500x128 (constant S_ .f32 0x00000000#32))
    (broadcastInDim S50000x1 ![0] bcast_S50000_S50000x1_0 gid) hbn

/-- Layer `i`'s slice of a stack of three matrices, and of three rows. -/
def mat0 (W : (⟨S3x128x128, .f32⟩ : BufTy).Contents (Elt F)) : (⟨S128x128, .f32⟩ : BufTy).Contents (Elt F) :=
  shapeCast _ (extractStridedSlice S1x128x128 ![0, 0, 0] W slices_S3x128x128_S1x128x128_0_0_0) shapeCasts_S1x128x128_S128x128
def mat1 (W : (⟨S3x128x128, .f32⟩ : BufTy).Contents (Elt F)) : (⟨S128x128, .f32⟩ : BufTy).Contents (Elt F) :=
  shapeCast _ (extractStridedSlice S1x128x128 ![1, 0, 0] W slices_S3x128x128_S1x128x128_1_0_0) shapeCasts_S1x128x128_S128x128
def mat2 (W : (⟨S3x128x128, .f32⟩ : BufTy).Contents (Elt F)) : (⟨S128x128, .f32⟩ : BufTy).Contents (Elt F) :=
  shapeCast _ (extractStridedSlice S1x128x128 ![2, 0, 0] W slices_S3x128x128_S1x128x128_2_0_0) shapeCasts_S1x128x128_S128x128
def row0 (b : (⟨S3x128, .f32⟩ : BufTy).Contents (Elt F)) : (⟨S128, .f32⟩ : BufTy).Contents (Elt F) :=
  shapeCast _ (extractStridedSlice S1x128 ![0, 0] b slices_S3x128_S1x128_0_0) shapeCasts_S1x128_S128
def row1 (b : (⟨S3x128, .f32⟩ : BufTy).Contents (Elt F)) : (⟨S128, .f32⟩ : BufTy).Contents (Elt F) :=
  shapeCast _ (extractStridedSlice S1x128 ![1, 0] b slices_S3x128_S1x128_1_0) shapeCasts_S1x128_S128
def row2 (b : (⟨S3x128, .f32⟩ : BufTy).Contents (Elt F)) : (⟨S128, .f32⟩ : BufTy).Contents (Elt F) :=
  shapeCast _ (extractStridedSlice S1x128 ![2, 0] b slices_S3x128_S1x128_2_0) shapeCasts_S1x128_S128

/-- One layer from the perceptron's output `hm`: normalised by its own statistics. -/
def norm (hm : (⟨S50000x128, .f32⟩ : BufTy).Contents (Elt F)) (g b : (⟨S128, .f32⟩ : BufTy).Contents (Elt F)) : (⟨S50000x128, .f32⟩ : BufTy).Contents (Elt F) :=
  bn hm (mean hm) (rstd hm) g b

/-- One layer: aggregate, perceptron, normalise. -/
def layer (h : (⟨S50000x128, .f32⟩ : BufTy).Contents (Elt F)) (src dst : (⟨S1600000, .i32⟩ : BufTy).Contents (Elt F)) (w1 : (⟨S128x128, .f32⟩ : BufTy).Contents (Elt F)) (b1 : (⟨S128, .f32⟩ : BufTy).Contents (Elt F)) (w2 : (⟨S128x128, .f32⟩ : BufTy).Contents (Elt F)) (b2 g b : (⟨S128, .f32⟩ : BufTy).Contents (Elt F)) : (⟨S50000x128, .f32⟩ : BufTy).Contents (Elt F) :=
  norm (mlp (agg h src dst) w1 b1 w2 b2) g b

/-- The three layers' outputs as functions of the program's arguments. -/
def L1 (x : (⟨S50000x128, .f32⟩ : BufTy).Contents (Elt F)) (src dst : (⟨S1600000, .i32⟩ : BufTy).Contents (Elt F)) (W1 : (⟨S3x128x128, .f32⟩ : BufTy).Contents (Elt F)) (b1 : (⟨S3x128, .f32⟩ : BufTy).Contents (Elt F)) (W2 : (⟨S3x128x128, .f32⟩ : BufTy).Contents (Elt F)) (b2 g be : (⟨S3x128, .f32⟩ : BufTy).Contents (Elt F)) : (⟨S50000x128, .f32⟩ : BufTy).Contents (Elt F) :=
  layer x src dst (mat0 W1) (row0 b1) (mat0 W2) (row0 b2) (row0 g) (row0 be)
def L2 (x : (⟨S50000x128, .f32⟩ : BufTy).Contents (Elt F)) (src dst : (⟨S1600000, .i32⟩ : BufTy).Contents (Elt F)) (W1 : (⟨S3x128x128, .f32⟩ : BufTy).Contents (Elt F)) (b1 : (⟨S3x128, .f32⟩ : BufTy).Contents (Elt F)) (W2 : (⟨S3x128x128, .f32⟩ : BufTy).Contents (Elt F)) (b2 g be : (⟨S3x128, .f32⟩ : BufTy).Contents (Elt F)) : (⟨S50000x128, .f32⟩ : BufTy).Contents (Elt F) :=
  layer (L1 x src dst W1 b1 W2 b2 g be) src dst (mat1 W1) (row1 b1) (mat1 W2) (row1 b2) (row1 g) (row1 be)
def L3 (x : (⟨S50000x128, .f32⟩ : BufTy).Contents (Elt F)) (src dst : (⟨S1600000, .i32⟩ : BufTy).Contents (Elt F)) (W1 : (⟨S3x128x128, .f32⟩ : BufTy).Contents (Elt F)) (b1 : (⟨S3x128, .f32⟩ : BufTy).Contents (Elt F)) (W2 : (⟨S3x128x128, .f32⟩ : BufTy).Contents (Elt F)) (b2 g be : (⟨S3x128, .f32⟩ : BufTy).Contents (Elt F)) : (⟨S50000x128, .f32⟩ : BufTy).Contents (Elt F) :=
  layer (L2 x src dst W1 b1 W2 b2 g be) src dst (mat2 W1) (row2 b1) (mat2 W2) (row2 b2) (row2 g) (row2 be)

/-- The second result: the three layers' outputs side by side. -/
def out1 (x : (⟨S50000x128, .f32⟩ : BufTy).Contents (Elt F)) (src dst : (⟨S1600000, .i32⟩ : BufTy).Contents (Elt F)) (W1 : (⟨S3x128x128, .f32⟩ : BufTy).Contents (Elt F)) (b1 : (⟨S3x128, .f32⟩ : BufTy).Contents (Elt F)) (W2 : (⟨S3x128x128, .f32⟩ : BufTy).Contents (Elt F)) (b2 g be : (⟨S3x128, .f32⟩ : BufTy).Contents (Elt F)) : (⟨S50000x384, .f32⟩ : BufTy).Contents (Elt F) :=
  concatenate S50000x384 1 [⟨S50000x128, L1 x src dst W1 b1 W2 b2 g be⟩, ⟨S50000x128, L2 x src dst W1 b1 W2 b2 g be⟩, ⟨S50000x128, L3 x src dst W1 b1 W2 b2 g be⟩]
    concatenates_S50000x128_S50000x128_S50000x128_S50000x384_d1

/-- The first result: the three layers' per-graph sums side by side. -/
def out0 (x : (⟨S50000x128, .f32⟩ : BufTy).Contents (Elt F)) (src dst : (⟨S1600000, .i32⟩ : BufTy).Contents (Elt F)) (W1 : (⟨S3x128x128, .f32⟩ : BufTy).Contents (Elt F)) (b1 : (⟨S3x128, .f32⟩ : BufTy).Contents (Elt F)) (W2 : (⟨S3x128x128, .f32⟩ : BufTy).Contents (Elt F)) (b2 g be : (⟨S3x128, .f32⟩ : BufTy).Contents (Elt F)) (gid : (⟨S50000, .i32⟩ : BufTy).Contents (Elt F)) : (⟨S500x384, .f32⟩ : BufTy).Contents (Elt F) :=
  concatenate S500x384 1 [⟨S500x128, pool (L1 x src dst W1 b1 W2 b2 g be) gid⟩, ⟨S500x128, pool (L2 x src dst W1 b1 W2 b2 g be) gid⟩, ⟨S500x128, pool (L3 x src dst W1 b1 W2 b2 g be) gid⟩]
    concatenates_S500x128_S500x128_S500x128_S500x384_d1

end Cert.ReferenceIdeal.Sh

end
-- ==== Proof.KI.OneHot.lean ====
/-
  The membership matrix the kernel's program builds on the host from the graph ids: entry (n, g) is 1 when node n
  belongs to graph g (of 512 columns, the 500 graphs padded) and 0 otherwise, as a function of the id array, for
  any float instance.
-/
import proofs.«409766_j3350074491205_1_alg».proof.Proof.Gen.KernelIdeal

noncomputable section

namespace Cert.KernelIdeal.Rg

open Cert.KernelIdeal Cert.KernelIdeal.Gen Idealize.ShloMosaic Idealize.ShloMosaic.TcCoe Idealize.SL.Sem

variable {F : FTy → Type} [FloatOps F]

/-- The one-hot rows of the graph ids, 512 columns. -/
def onehotK (gid : (⟨S50000, .i32⟩ : BufTy).Contents (Elt F)) : (⟨S50000x512, .bf16⟩ : BufTy).Contents (Elt F) :=
  uitofp .bf16 (cmpi .eq
    (broadcastInDim S50000x512 ![0, 1] bcast_S50000x1_S50000x512_0_1 (broadcastInDim S50000x1 ![0] bcast_S50000_S50000x1_0 gid))
    (broadcastInDim S50000x512 ![0, 1] bcast_S1x512_S50000x512_0_1 (iotaInDim S1x512 32 1)))

end Cert.KernelIdeal.Rg

end
-- ==== Proof.KI.HostVals.lean ====
/-
  What the host operations of the program compute between its six kernel regions, as the reference's named
  functions: the membership matrix and the first aggregation before region 0; the batch statistics of what a
  perceptron region left before each normalisation region; the pooled rows' slice, the next aggregation and the
  next layer's weights before each later perceptron region; and at the end the two results as the three layers'
  pieces side by side. For any float instance.

  Each stretch of host operations is a fixed chain of array operations, and the reference applies literally the
  same chains, so a stretch's result buffer holds a reference function of the buffers the stretch reads.
-/
import proofs.«409766_j3350074491205_1_alg».proof.Proof.Gen.KernelIdeal.Regions
import proofs.«409766_j3350074491205_1_alg».proof.Proof.Ref.Defs
import proofs.«409766_j3350074491205_1_alg».proof.Proof.KI.OneHot

set_option maxRecDepth 4096

noncomputable section

namespace Cert.KernelIdeal.Rg

open Cert.KernelIdeal Cert.KernelIdeal.Gen Idealize.ShloMosaic Idealize.ShloMosaic.TcCoe Idealize.SL.Sem Idealize.ShloMosaic.StableHlo

variable {F : FTy → Type} [FloatOps F]

/-! ## The stretches, from any contents

What a stretch of host operations leaves at one of its result buffers, as a function of what the buffers it reads
held before it: each stretch is a fixed chain of array operations, and the chain that ends at the buffer is one of the
reference's named functions applied to the chain's inputs. -/

section Stretches

variable (W : Valuation τ sig (Elt F))

/-- The first stretch builds the membership matrix from the graph ids. -/
theorem hostOps0_v0 : StableHlo.after hostOps0 W (Proc.devRef .tc main_v0) = onehotK (W (Proc.devRef .tc main_arg3)) := by
  after_results_simp; rfl

/-- The aggregation of `main_arg0` over the edges. -/
theorem hostOps0_1_v11 : StableHlo.after hostOps0_1 W (Proc.devRef .tc main_v11)
    = Cert.ReferenceIdeal.Sh.agg (W (Proc.devRef .tc main_arg0)) (W (Proc.devRef .tc main_arg1)) (W (Proc.devRef .tc main_arg2)) := by
  after_results_simp; unfold Cert.ReferenceIdeal.Sh.agg Cert.ReferenceIdeal.Sh.srcIdx Cert.ReferenceIdeal.Sh.zeros; rfl
theorem hostOps0_1_v13 : StableHlo.after hostOps0_1 W (Proc.devRef .tc main_v13) = Cert.ReferenceIdeal.Sh.mat0 (W (Proc.devRef .tc main_arg4)) := by
  after_results_simp; unfold Cert.ReferenceIdeal.Sh.mat0; rfl
theorem hostOps0_1_v15 : StableHlo.after hostOps0_1 W (Proc.devRef .tc main_v15) = Cert.ReferenceIdeal.Sh.row0 (W (Proc.devRef .tc main_arg5)) := by
  after_results_simp; unfold Cert.ReferenceIdeal.Sh.row0; rfl
theorem hostOps0_1_v17 : StableHlo.after hostOps0_1 W (Proc.devRef .tc main_v17) = Cert.ReferenceIdeal.Sh.mat0 (W (Proc.devRef .tc main_arg6)) := by
  after_results_simp; unfold Cert.ReferenceIdeal.Sh.mat0; rfl
theorem hostOps0_1_v19 : StableHlo.after hostOps0_1 W (Proc.devRef .tc main_v19) = Cert.ReferenceIdeal.Sh.row0 (W (Proc.devRef .tc main_arg7)) := by
  after_results_simp; unfold Cert.ReferenceIdeal.Sh.row0; rfl

/-- The column means of `main_v20`. -/
theorem hostOps1_v23 : StableHlo.after hostOps1 W (Proc.devRef .tc main_v23) = Cert.ReferenceIdeal.Sh.mean (W (Proc.devRef .tc main_v20)) := by
  after_results_simp; unfold Cert.ReferenceIdeal.Sh.mean; rfl
/-- The reciprocal root of the biased variance of `main_v20` plus epsilon. -/
theorem hostOps1_v33 : StableHlo.after hostOps1 W (Proc.devRef .tc main_v33) = Cert.ReferenceIdeal.Sh.rstd (W (Proc.devRef .tc main_v20)) := by
  after_results_simp; unfold Cert.ReferenceIdeal.Sh.rstd Cert.ReferenceIdeal.Sh.var Cert.ReferenceIdeal.Sh.mean Cert.ReferenceIdeal.Sh.rows; rfl
theorem hostOps1_v35 : StableHlo.after hostOps1 W (Proc.devRef .tc main_v35) = Cert.ReferenceIdeal.Sh.row0 (W (Proc.devRef .tc main_arg8)) := by
  after_results_simp; unfold Cert.ReferenceIdeal.Sh.row0; rfl
theorem hostOps1_v37 : StableHlo.after hostOps1 W (Proc.devRef .tc main_v37) = Cert.ReferenceIdeal.Sh.row0 (W (Proc.devRef .tc main_arg9)) := by
  after_results_simp; unfold Cert.ReferenceIdeal.Sh.row0; rfl

/-- The first 500 rows of the pooled sums. -/
theorem hostOps2_v39 : StableHlo.after hostOps2 W (Proc.devRef .tc main_v39)
    = extractStridedSlice S500x128 ![0, 0] (W (Proc.devRef .tc main_v38_1)) slices_S512x128_S500x128_0_0 := by
  after_results_simp

/-- The aggregation of `main_v38_0` over the edges. -/
theorem hostOps2_v50 : StableHlo.after hostOps2 W (Proc.devRef .tc main_v50)
    = Cert.ReferenceIdeal.Sh.agg (W (Proc.devRef .tc main_v38_0)) (W (Proc.devRef .tc main_arg1)) (W (Proc.devRef .tc main_arg2)) := by
  after_results_simp; unfold Cert.ReferenceIdeal.Sh.agg Cert.ReferenceIdeal.Sh.srcIdx Cert.ReferenceIdeal.Sh.zeros; rfl
theorem hostOps2_v52 : StableHlo.after hostOps2 W (Proc.devRef .tc main_v52) = Cert.ReferenceIdeal.Sh.mat1 (W (Proc.devRef .tc main_arg4)) := by
  after_results_simp; unfold Cert.ReferenceIdeal.Sh.mat1; rfl
theorem hostOps2_v54 : StableHlo.after hostOps2 W (Proc.devRef .tc main_v54) = Cert.ReferenceIdeal.Sh.row1 (W (Proc.devRef .tc main_arg5)) := by
  after_results_simp; unfold Cert.ReferenceIdeal.Sh.row1; rfl
theorem hostOps2_v56 : StableHlo.after hostOps2 W (Proc.devRef .tc main_v56) = Cert.ReferenceIdeal.Sh.mat1 (W (Proc.devRef .tc main_arg6)) := by
  after_results_simp; unfold Cert.ReferenceIdeal.Sh.mat1; rfl
theorem hostOps2_v58 : StableHlo.after hostOps2 W (Proc.devRef .tc main_v58) = Cert.ReferenceIdeal.Sh.row1 (W (Proc.devRef .tc main_arg7)) := by
  after_results_simp; unfold Cert.ReferenceIdeal.Sh.row1; rfl

/-- The column means of `main_v59`. -/
theorem hostOps3_v62 : StableHlo.after hostOps3 W (Proc.devRef .tc main_v62) = Cert.ReferenceIdeal.Sh.mean (W (Proc.devRef .tc main_v59)) := by
  after_results_simp; unfold Cert.ReferenceIdeal.Sh.mean; rfl
/-- The reciprocal root of the biased variance of `main_v59` plus epsilon. -/
theorem hostOps3_v72 : StableHlo.after hostOps3 W (Proc.devRef .tc main_v72) = Cert.ReferenceIdeal.Sh.rstd (W (Proc.devRef .tc main_v59)) := by
  after_results_simp; unfold Cert.ReferenceIdeal.Sh.rstd Cert.ReferenceIdeal.Sh.var Cert.ReferenceIdeal.Sh.mean Cert.ReferenceIdeal.Sh.rows; rfl
theorem hostOps3_v74 : StableHlo.after hostOps3 W (Proc.devRef .tc main_v74) = Cert.ReferenceIdeal.Sh.row1 (W (Proc.devRef .tc main_arg8)) := by
  after_results_simp; unfold Cert.ReferenceIdeal.Sh.row1; rfl
theorem hostOps3_v76 : StableHlo.after hostOps3 W (Proc.devRef .tc main_v76) = Cert.ReferenceIdeal.Sh.row1 (W (Proc.devRef .tc main_arg9)) := by
  after_results_simp; unfold Cert.ReferenceIdeal.Sh.row1; rfl

/-- The first 500 rows of the pooled sums. -/
theorem hostOps4_v78 : StableHlo.after hostOps4 W (Proc.devRef .tc main_v78)
    = extractStridedSlice S500x128 ![0, 0] (W (Proc.devRef .tc main_v77_1)) slices_S512x128_S500x128_0_0 := by
  after_results_simp

/-- The aggregation of `main_v77_0` over the edges. -/
theorem hostOps4_v89 : StableHlo.after hostOps4 W (Proc.devRef .tc main_v89)
    = Cert.ReferenceIdeal.Sh.agg (W (Proc.devRef .tc main_v77_0)) (W (Proc.devRef .tc main_arg1)) (W (Proc.devRef .tc main_arg2)) := by
  after_results_simp; unfold Cert.ReferenceIdeal.Sh.agg Cert.ReferenceIdeal.Sh.srcIdx Cert.ReferenceIdeal.Sh.zeros; rfl
theorem hostOps4_v91 : StableHlo.after hostOps4 W (Proc.devRef .tc main_v91) = Cert.ReferenceIdeal.Sh.mat2 (W (Proc.devRef .tc main_arg4)) := by
  after_results_simp; unfold Cert.ReferenceIdeal.Sh.mat2; rfl
theorem hostOps4_v93 : StableHlo.after hostOps4 W (Proc.devRef .tc main_v93) = Cert.ReferenceIdeal.Sh.row2 (W (Proc.devRef .tc main_arg5)) := by
  after_results_simp; unfold Cert.ReferenceIdeal.Sh.row2; rfl
theorem hostOps4_v95 : StableHlo.after hostOps4 W (Proc.devRef .tc main_v95) = Cert.ReferenceIdeal.Sh.mat2 (W (Proc.devRef .tc main_arg6)) := by
  after_results_simp; unfold Cert.ReferenceIdeal.Sh.mat2; rfl
theorem hostOps4_v97 : StableHlo.after hostOps4 W (Proc.devRef .tc main_v97) = Cert.ReferenceIdeal.Sh.row2 (W (Proc.devRef .tc main_arg7)) := by
  after_results_simp; unfold Cert.ReferenceIdeal.Sh.row2; rfl

/-- The column means of `main_v98`. -/
theorem hostOps5_v101 : StableHlo.after hostOps5 W (Proc.devRef .tc main_v101) = Cert.ReferenceIdeal.Sh.mean (W (Proc.devRef .tc main_v98)) := by
  after_results_simp; unfold Cert.ReferenceIdeal.Sh.mean; rfl
/-- The reciprocal root of the biased variance of `main_v98` plus epsilon. -/
theorem hostOps5_v111 : StableHlo.after hostOps5 W (Proc.devRef .tc main_v111) = Cert.ReferenceIdeal.Sh.rstd (W (Proc.devRef .tc main_v98)) := by
  after_results_simp; unfold Cert.ReferenceIdeal.Sh.rstd Cert.ReferenceIdeal.Sh.var Cert.ReferenceIdeal.Sh.mean Cert.ReferenceIdeal.Sh.rows; rfl
theorem hostOps5_v113 : StableHlo.after hostOps5 W (Proc.devRef .tc main_v113) = Cert.ReferenceIdeal.Sh.row2 (W (Proc.devRef .tc main_arg8)) := by
  after_results_simp; unfold Cert.ReferenceIdeal.Sh.row2; rfl
theorem hostOps5_v115 : StableHlo.after hostOps5 W (Proc.devRef .tc main_v115) = Cert.ReferenceIdeal.Sh.row2 (W (Proc.devRef .tc main_arg9)) := by
  after_results_simp; unfold Cert.ReferenceIdeal.Sh.row2; rfl

end Stretches

/-! ## The buffers between the regions

What the buffers the regions read hold when each region starts, and what the two results hold at the end, in terms
of the launch contents `m` of the ten arguments and of what the regions before left (`outs`). A buffer that no
item writes in between is carried along unchanged; a buffer a stretch writes is read off the stretch. -/

section Values

variable (m : (ℓ : Loc nD τ sig) → Buf (Elt F) ℓ) (outs : Gen.Outs (F := F)) (c : Dev nD)

/-! ### Buffers still at their launch contents -/

theorem V1_keep (r : Ref sig .tc) (h0 : r ∉ hostOps0_W) : V1 m c r = m ((c : Thread nD τ).loc r) :=
  (V1_of m c r h0).trans rfl
theorem V3_keep (r : Ref sig .tc) (h0 : r ∉ hostOps0_W) (h1 : r ∉ hostOps0_1_W) (h2 : r ∉ ([main_v20] : List (Ref sig .tc))) :
    V3 m outs c r = m ((c : Thread nD τ).loc r) :=
  (V3_of m outs c r h2).trans <| (V2_of m c r h1).trans (V1_keep m c r h0)
theorem V5_keep (r : Ref sig .tc) (h0 : r ∉ hostOps0_W) (h1 : r ∉ hostOps0_1_W) (h2 : r ∉ ([main_v20] : List (Ref sig .tc)))
    (h3 : r ∉ hostOps1_W) (h4 : r ∉ ([main_v38_0, main_v38_1] : List (Ref sig .tc))) :
    V5 m outs c r = m ((c : Thread nD τ).loc r) :=
  (V5_of m outs c r h4).trans <| (V4_of m outs c r h3).trans (V3_keep m outs c r h0 h1 h2)
theorem V7_keep (r : Ref sig .tc) (h0 : r ∉ hostOps0_W) (h1 : r ∉ hostOps0_1_W) (h2 : r ∉ ([main_v20] : List (Ref sig .tc)))
    (h3 : r ∉ hostOps1_W) (h4 : r ∉ ([main_v38_0, main_v38_1] : List (Ref sig .tc)))
    (h5 : r ∉ hostOps2_W) (h6 : r ∉ ([main_v59] : List (Ref sig .tc))) :
    V7 m outs c r = m ((c : Thread nD τ).loc r) :=
  (V7_of m outs c r h6).trans <| (V6_of m outs c r h5).trans (V5_keep m outs c r h0 h1 h2 h3 h4)
theorem V9_keep (r : Ref sig .tc) (h0 : r ∉ hostOps0_W) (h1 : r ∉ hostOps0_1_W) (h2 : r ∉ ([main_v20] : List (Ref sig .tc)))
    (h3 : r ∉ hostOps1_W) (h4 : r ∉ ([main_v38_0, main_v38_1] : List (Ref sig .tc)))
    (h5 : r ∉ hostOps2_W) (h6 : r ∉ ([main_v59] : List (Ref sig .tc)))
    (h7 : r ∉ hostOps3_W) (h8 : r ∉ ([main_v77_0, main_v77_1] : List (Ref sig .tc))) :
    V9 m outs c r = m ((c : Thread nD τ).loc r) :=
  (V9_of m outs c r h8).trans <| (V8_of m outs c r h7).trans (V7_keep m outs c r h0 h1 h2 h3 h4 h5 h6)
theorem V11_keep (r : Ref sig .tc) (h0 : r ∉ hostOps0_W) (h1 : r ∉ hostOps0_1_W) (h2 : r ∉ ([main_v20] : List (Ref sig .tc)))
    (h3 : r ∉ hostOps1_W) (h4 : r ∉ ([main_v38_0, main_v38_1] : List (Ref sig .tc)))
    (h5 : r ∉ hostOps2_W) (h6 : r ∉ ([main_v59] : List (Ref sig .tc)))
    (h7 : r ∉ hostOps3_W) (h8 : r ∉ ([main_v77_0, main_v77_1] : List (Ref sig .tc)))
    (h9 : r ∉ hostOps4_W) (h10 : r ∉ ([main_v98] : List (Ref sig .tc))) :
    V11 m outs c r = m ((c : Thread nD τ).loc r) :=
  (V11_of m outs c r h10).trans <| (V10_of m outs c r h9).trans (V9_keep m outs c r h0 h1 h2 h3 h4 h5 h6 h7 h8)

/-! ### Before region 0 -/

theorem V2_v0 : V2 m c main_v0 = onehotK (m ((c : Thread nD τ).loc main_arg3)) :=
  (V2_of m c main_v0 (by decide)).trans (hostOps0_v0 (V0 m c))
theorem V2_v11 : V2 m c main_v11 = Cert.ReferenceIdeal.Sh.agg (m ((c : Thread nD τ).loc main_arg0)) (m ((c : Thread nD τ).loc main_arg1)) (m ((c : Thread nD τ).loc main_arg2)) :=
  (hostOps0_1_v11 (V1 m c)).trans (by rw [V1_keep m c main_arg0 (by decide), V1_keep m c main_arg1 (by decide), V1_keep m c main_arg2 (by decide)])
theorem V2_v13 : V2 m c main_v13 = Cert.ReferenceIdeal.Sh.mat0 (m ((c : Thread nD τ).loc main_arg4)) :=
  (hostOps0_1_v13 (V1 m c)).trans (congrArg Cert.ReferenceIdeal.Sh.mat0 (V1_keep m c main_arg4 (by decide)))
theorem V2_v15 : V2 m c main_v15 = Cert.ReferenceIdeal.Sh.row0 (m ((c : Thread nD τ).loc main_arg5)) :=
  (hostOps0_1_v15 (V1 m c)).trans (congrArg Cert.ReferenceIdeal.Sh.row0 (V1_keep m c main_arg5 (by decide)))
theorem V2_v17 : V2 m c main_v17 = Cert.ReferenceIdeal.Sh.mat0 (m ((c : Thread nD τ).loc main_arg6)) :=
  (hostOps0_1_v17 (V1 m c)).trans (congrArg Cert.ReferenceIdeal.Sh.mat0 (V1_keep m c main_arg6 (by decide)))
theorem V2_v19 : V2 m c main_v19 = Cert.ReferenceIdeal.Sh.row0 (m ((c : Thread nD τ).loc main_arg7)) :=
  (hostOps0_1_v19 (V1 m c)).trans (congrArg Cert.ReferenceIdeal.Sh.row0 (V1_keep m c main_arg7 (by decide)))

/-! ### Before region 1 -/

theorem V3_v20 : V3 m outs c main_v20 = outs 3 main_v20 c := Function.update_self _ _ _
theorem V4_v20 : V4 m outs c main_v20 = outs 3 main_v20 c :=
  (V4_of m outs c main_v20 (by decide)).trans (V3_v20 m outs c)
theorem V4_v23 : V4 m outs c main_v23 = Cert.ReferenceIdeal.Sh.mean (outs 3 main_v20 c) :=
  (hostOps1_v23 (V3 m outs c)).trans (congrArg Cert.ReferenceIdeal.Sh.mean (V3_v20 m outs c))
theorem V4_v33 : V4 m outs c main_v33 = Cert.ReferenceIdeal.Sh.rstd (outs 3 main_v20 c) :=
  (hostOps1_v33 (V3 m outs c)).trans (congrArg Cert.ReferenceIdeal.Sh.rstd (V3_v20 m outs c))
theorem V4_v35 : V4 m outs c main_v35 = Cert.ReferenceIdeal.Sh.row0 (m ((c : Thread nD τ).loc main_arg8)) :=
  (hostOps1_v35 (V3 m outs c)).trans (congrArg Cert.ReferenceIdeal.Sh.row0 (V3_keep m outs c main_arg8 (by decide) (by decide) (by decide)))
theorem V4_v37 : V4 m outs c main_v37 = Cert.ReferenceIdeal.Sh.row0 (m ((c : Thread nD τ).loc main_arg9)) :=
  (hostOps1_v37 (V3 m outs c)).trans (congrArg Cert.ReferenceIdeal.Sh.row0 (V3_keep m outs c main_arg9 (by decide) (by decide) (by decide)))
theorem V4_v0 : V4 m outs c main_v0 = onehotK (m ((c : Thread nD τ).loc main_arg3)) :=
  (V4_of m outs c main_v0 (by decide)).trans <| (V3_of m outs c main_v0 (by decide)).trans (V2_v0 m c)

/-! ### Before region 2 -/

theorem V5_v38_1 : V5 m outs c main_v38_1 = outs 5 main_v38_1 c := Function.update_self _ _ _
theorem V5_v38_0 : V5 m outs c main_v38_0 = outs 5 main_v38_0 c :=
  (Function.update_of_ne (StableHlo.devRef_ne_of_ne (by decide)) _ _).trans (Function.update_self _ _ _)
theorem V6_v39 : V6 m outs c main_v39 = extractStridedSlice S500x128 ![0, 0] (outs 5 main_v38_1 c) slices_S512x128_S500x128_0_0 :=
  (hostOps2_v39 (V5 m outs c)).trans (by rw [V5_v38_1 m outs c])
theorem V6_v50 : V6 m outs c main_v50 = Cert.ReferenceIdeal.Sh.agg (outs 5 main_v38_0 c) (m ((c : Thread nD τ).loc main_arg1)) (m ((c : Thread nD τ).loc main_arg2)) :=
  (hostOps2_v50 (V5 m outs c)).trans (by rw [V5_v38_0 m outs c, V5_keep m outs c main_arg1 (by decide) (by decide) (by decide) (by decide) (by decide), V5_keep m outs c main_arg2 (by decide) (by decide) (by decide) (by decide) (by decide)])
theorem V6_v52 : V6 m outs c main_v52 = Cert.ReferenceIdeal.Sh.mat1 (m ((c : Thread nD τ).loc main_arg4)) :=
  (hostOps2_v52 (V5 m outs c)).trans (congrArg Cert.ReferenceIdeal.Sh.mat1 (V5_keep m outs c main_arg4 (by decide) (by decide) (by decide) (by decide) (by decide)))
theorem V6_v54 : V6 m outs c main_v54 = Cert.ReferenceIdeal.Sh.row1 (m ((c : Thread nD τ).loc main_arg5)) :=
  (hostOps2_v54 (V5 m outs c)).trans (congrArg Cert.ReferenceIdeal.Sh.row1 (V5_keep m outs c main_arg5 (by decide) (by decide) (by decide) (by decide) (by decide)))
theorem V6_v56 : V6 m outs c main_v56 = Cert.ReferenceIdeal.Sh.mat1 (m ((c : Thread nD τ).loc main_arg6)) :=
  (hostOps2_v56 (V5 m outs c)).trans (congrArg Cert.ReferenceIdeal.Sh.mat1 (V5_keep m outs c main_arg6 (by decide) (by decide) (by decide) (by decide) (by decide)))
theorem V6_v58 : V6 m outs c main_v58 = Cert.ReferenceIdeal.Sh.row1 (m ((c : Thread nD τ).loc main_arg7)) :=
  (hostOps2_v58 (V5 m outs c)).trans (congrArg Cert.ReferenceIdeal.Sh.row1 (V5_keep m outs c main_arg7 (by decide) (by decide) (by decide) (by decide) (by decide)))

/-! ### Before region 3 -/

theorem V7_v59 : V7 m outs c main_v59 = outs 7 main_v59 c := Function.update_self _ _ _
theorem V8_v59 : V8 m outs c main_v59 = outs 7 main_v59 c :=
  (V8_of m outs c main_v59 (by decide)).trans (V7_v59 m outs c)
theorem V8_v62 : V8 m outs c main_v62 = Cert.ReferenceIdeal.Sh.mean (outs 7 main_v59 c) :=
  (hostOps3_v62 (V7 m outs c)).trans (congrArg Cert.ReferenceIdeal.Sh.mean (V7_v59 m outs c))
theorem V8_v72 : V8 m outs c main_v72 = Cert.ReferenceIdeal.Sh.rstd (outs 7 main_v59 c) :=
  (hostOps3_v72 (V7 m outs c)).trans (congrArg Cert.ReferenceIdeal.Sh.rstd (V7_v59 m outs c))
theorem V8_v74 : V8 m outs c main_v74 = Cert.ReferenceIdeal.Sh.row1 (m ((c : Thread nD τ).loc main_arg8)) :=
  (hostOps3_v74 (V7 m outs c)).trans (congrArg Cert.ReferenceIdeal.Sh.row1 (V7_keep m outs c main_arg8 (by decide) (by decide) (by decide) (by decide) (by decide) (by decide) (by decide)))
theorem V8_v76 : V8 m outs c main_v76 = Cert.ReferenceIdeal.Sh.row1 (m ((c : Thread nD τ).loc main_arg9)) :=
  (hostOps3_v76 (V7 m outs c)).trans (congrArg Cert.ReferenceIdeal.Sh.row1 (V7_keep m outs c main_arg9 (by decide) (by decide) (by decide) (by decide) (by decide) (by decide) (by decide)))
theorem V8_v0 : V8 m outs c main_v0 = onehotK (m ((c : Thread nD τ).loc main_arg3)) :=
  (V8_of m outs c main_v0 (by decide)).trans <| (V7_of m outs c main_v0 (by decide)).trans <| (V6_of m outs c main_v0 (by decide)).trans <|
    (V5_of m outs c main_v0 (by decide)).trans (V4_v0 m outs c)

/-! ### Before region 4 -/

theorem V9_v77_1 : V9 m outs c main_v77_1 = outs 9 main_v77_1 c := Function.update_self _ _ _
theorem V9_v77_0 : V9 m outs c main_v77_0 = outs 9 main_v77_0 c :=
  (Function.update_of_ne (StableHlo.devRef_ne_of_ne (by decide)) _ _).trans (Function.update_self _ _ _)
theorem V10_v78 : V10 m outs c main_v78 = extractStridedSlice S500x128 ![0, 0] (outs 9 main_v77_1 c) slices_S512x128_S500x128_0_0 :=
  (hostOps4_v78 (V9 m outs c)).trans (by rw [V9_v77_1 m outs c])
theorem V10_v89 : V10 m outs c main_v89 = Cert.ReferenceIdeal.Sh.agg (outs 9 main_v77_0 c) (m ((c : Thread nD τ).loc main_arg1)) (m ((c : Thread nD τ).loc main_arg2)) :=
  (hostOps4_v89 (V9 m outs c)).trans (by rw [V9_v77_0 m outs c, V9_keep m outs c main_arg1 (by decide) (by decide) (by decide) (by decide) (by decide) (by decide) (by decide) (by decide) (by decide), V9_keep m outs c main_arg2 (by decide) (by decide) (by decide) (by decide) (by decide) (by decide) (by decide) (by decide) (by decide)])
theorem V10_v91 : V10 m outs c main_v91 = Cert.ReferenceIdeal.Sh.mat2 (m ((c : Thread nD τ).loc main_arg4)) :=
  (hostOps4_v91 (V9 m outs c)).trans (congrArg Cert.ReferenceIdeal.Sh.mat2 (V9_keep m outs c main_arg4 (by decide) (by decide) (by decide) (by decide) (by decide) (by decide) (by decide) (by decide) (by decide)))
theorem V10_v93 : V10 m outs c main_v93 = Cert.ReferenceIdeal.Sh.row2 (m ((c : Thread nD τ).loc main_arg5)) :=
  (hostOps4_v93 (V9 m outs c)).trans (congrArg Cert.ReferenceIdeal.Sh.row2 (V9_keep m outs c main_arg5 (by decide) (by decide) (by decide) (by decide) (by decide) (by decide) (by decide) (by decide) (by decide)))
theorem V10_v95 : V10 m outs c main_v95 = Cert.ReferenceIdeal.Sh.mat2 (m ((c : Thread nD τ).loc main_arg6)) :=
  (hostOps4_v95 (V9 m outs c)).trans (congrArg Cert.ReferenceIdeal.Sh.mat2 (V9_keep m outs c main_arg6 (by decide) (by decide) (by decide) (by decide) (by decide) (by decide) (by decide) (by decide) (by decide)))
theorem V10_v97 : V10 m outs c main_v97 = Cert.ReferenceIdeal.Sh.row2 (m ((c : Thread nD τ).loc main_arg7)) :=
  (hostOps4_v97 (V9 m outs c)).trans (congrArg Cert.ReferenceIdeal.Sh.row2 (V9_keep m outs c main_arg7 (by decide) (by decide) (by decide) (by decide) (by decide) (by decide) (by decide) (by decide) (by decide)))

/-! ### Before region 5 -/

theorem V11_v98 : V11 m outs c main_v98 = outs 11 main_v98 c := Function.update_self _ _ _
theorem V12_v98 : V12 m outs c main_v98 = outs 11 main_v98 c :=
  (V12_of m outs c main_v98 (by decide)).trans (V11_v98 m outs c)
theorem V12_v101 : V12 m outs c main_v101 = Cert.ReferenceIdeal.Sh.mean (outs 11 main_v98 c) :=
  (hostOps5_v101 (V11 m outs c)).trans (congrArg Cert.ReferenceIdeal.Sh.mean (V11_v98 m outs c))
theorem V12_v111 : V12 m outs c main_v111 = Cert.ReferenceIdeal.Sh.rstd (outs 11 main_v98 c) :=
  (hostOps5_v111 (V11 m outs c)).trans (congrArg Cert.ReferenceIdeal.Sh.rstd (V11_v98 m outs c))
theorem V12_v113 : V12 m outs c main_v113 = Cert.ReferenceIdeal.Sh.row2 (m ((c : Thread nD τ).loc main_arg8)) :=
  (hostOps5_v113 (V11 m outs c)).trans (congrArg Cert.ReferenceIdeal.Sh.row2 (V11_keep m outs c main_arg8 (by decide) (by decide) (by decide) (by decide) (by decide) (by decide) (by decide) (by decide) (by decide) (by decide) (by decide)))
theorem V12_v115 : V12 m outs c main_v115 = Cert.ReferenceIdeal.Sh.row2 (m ((c : Thread nD τ).loc main_arg9)) :=
  (hostOps5_v115 (V11 m outs c)).trans (congrArg Cert.ReferenceIdeal.Sh.row2 (V11_keep m outs c main_arg9 (by decide) (by decide) (by decide) (by decide) (by decide) (by decide) (by decide) (by decide) (by decide) (by decide) (by decide)))
theorem V12_v0 : V12 m outs c main_v0 = onehotK (m ((c : Thread nD τ).loc main_arg3)) :=
  (V12_of m outs c main_v0 (by decide)).trans <| (V11_of m outs c main_v0 (by decide)).trans <| (V10_of m outs c main_v0 (by decide)).trans <|
    (V9_of m outs c main_v0 (by decide)).trans (V8_v0 m outs c)

end Values

end Cert.KernelIdeal.Rg

end
-- ==== Proof.KI.LibNary3.lean ====
/-
  What an operation over a literal family of THREE references (a concatenation of three operands) leaves at its
  result: its function applied to the three operands' contents, each read at its own reference, so that what the
  operands hold can be rewritten further. For any signature and any values.
-/
import Idealize.ShloMosaic.Lib.StableHlo.Run

noncomputable section

namespace Cert.KernelIdeal.Rg

open Idealize.ShloMosaic Idealize.SL.Sem Idealize.ShloMosaic.StableHlo

variable {nD : Nat} {τ : Topo} {sig : RefSig} {Val : EltTy → Type}
variable {x a b y : Ref sig .tc}

/-- The result of a three-operand operation, the operands' contents as a literal family. -/
theorem nary3_result
    (f : ((k : Fin 3) → ((![x, a, b] : Fin 3 → Ref sig .tc) k).ty.Contents Val) → y.ty.Contents Val) (hxs hy)
    (V : Valuation τ sig Val) :
    (nary (τ := τ) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [nary_result]; congr 1; funext k; fin_cases k <;> rfl

/-- The same statement, for the result reference given in any form. -/
theorem nary3_result'
    (f : ((k : Fin 3) → ((![x, a, b] : Fin 3 → Ref sig .tc) k).ty.Contents Val) → y.ty.Contents Val) (hxs hy)
    (V : Valuation τ sig Val) :
    (nary (τ := τ) ![x, a, b] y f hxs hy).result V (no_index (Proc.devRef .tc y))
      = f (Fin.cons (V (Proc.devRef .tc x)) (Fin.cons (V (Proc.devRef .tc a)) (Fin.cons (V (Proc.devRef .tc b)) (fun i => i.elim0)))) :=
  nary3_result f hxs hy V

end Cert.KernelIdeal.Rg

end
-- ==== Proof.KI.HostVals2.lean ====
/-
  The two results of the program, read off its last stretch of host operations: the three layers' pooled rows
  (each the first 500 of the 512 rows a normalisation region left) side by side, and the three layers' node
  features side by side. For any float instance.
-/
import proofs.«409766_j3350074491205_1_alg».proof.Proof.KI.HostVals
import proofs.«409766_j3350074491205_1_alg».proof.Proof.KI.LibNary3

set_option maxRecDepth 4096

noncomputable section

namespace Cert.KernelIdeal.Rg

open Cert.KernelIdeal Cert.KernelIdeal.Gen Idealize.ShloMosaic Idealize.ShloMosaic.TcCoe Idealize.SL.Sem Idealize.ShloMosaic.StableHlo

variable {F : FTy → Type} [FloatOps F]

/-! ## The last stretch

The two results: the three layers' pooled rows side by side (the third layer's sliced here), and the three layers'
node features side by side. -/

section LastStretch

variable (W : Valuation τ sig (Elt F))

theorem hostOps6_v118 : StableHlo.after hostOps6 W (Proc.devRef .tc main_v118)
    = concatenate S500x384 1 [⟨S500x128, W (Proc.devRef .tc main_v39)⟩, ⟨S500x128, W (Proc.devRef .tc main_v78)⟩, ⟨S500x128, extractStridedSlice S500x128 ![0, 0] (W (Proc.devRef .tc main_v116_1)) slices_S512x128_S500x128_0_0⟩] concatenates_S500x128_S500x128_S500x128_S500x384_d1 := by
  simp (disch := decide) only [after_cons, after_nil, unary_result', unary_result_ne', nary3_result', nary_result_ne']
  rfl
theorem hostOps6_v119 : StableHlo.after hostOps6 W (Proc.devRef .tc main_v119)
    = concatenate S50000x384 1 [⟨S50000x128, W (Proc.devRef .tc main_v38_0)⟩, ⟨S50000x128, W (Proc.devRef .tc main_v77_0)⟩, ⟨S50000x128, W (Proc.devRef .tc main_v116_0)⟩] concatenates_S50000x128_S50000x128_S50000x128_S50000x384_d1 := by
  simp (disch := decide) only [after_cons, after_nil, unary_result', unary_result_ne', nary3_result', nary_result_ne']
  rfl

end LastStretch

section Values

variable (m : (ℓ : Loc nD τ sig) → Buf (Elt F) ℓ) (outs : Gen.Outs (F := F)) (c : Dev nD)

/-! ### The results -/

theorem V13_v116_1 : V13 m outs c main_v116_1 = outs 13 main_v116_1 c := Function.update_self _ _ _
theorem V13_v116_0 : V13 m outs c main_v116_0 = outs 13 main_v116_0 c :=
  (Function.update_of_ne (StableHlo.devRef_ne_of_ne (by decide)) _ _).trans (Function.update_self _ _ _)
theorem V13_v39 : V13 m outs c main_v39 = extractStridedSlice S500x128 ![0, 0] (outs 5 main_v38_1 c) slices_S512x128_S500x128_0_0 :=
  (V13_of m outs c main_v39 (by decide)).trans <| (V12_of m outs c main_v39 (by decide)).trans <| (V11_of m outs c main_v39 (by decide)).trans <| (V10_of m outs c main_v39 (by decide)).trans <| (V9_of m outs c main_v39 (by decide)).trans <| (V8_of m outs c main_v39 (by decide)).trans <| (V7_of m outs c main_v39 (by decide)).trans (V6_v39 m outs c)
theorem V13_v78 : V13 m outs c main_v78 = extractStridedSlice S500x128 ![0, 0] (outs 9 main_v77_1 c) slices_S512x128_S500x128_0_0 :=
  (V13_of m outs c main_v78 (by decide)).trans <| (V12_of m outs c main_v78 (by decide)).trans <| (V11_of m outs c main_v78 (by decide)).trans (V10_v78 m outs c)
theorem V13_v38_0 : V13 m outs c main_v38_0 = outs 5 main_v38_0 c :=
  (V13_of m outs c main_v38_0 (by decide)).trans <| (V12_of m outs c main_v38_0 (by decide)).trans <| (V11_of m outs c main_v38_0 (by decide)).trans <| (V10_of m outs c main_v38_0 (by decide)).trans <| (V9_of m outs c main_v38_0 (by decide)).trans <| (V8_of m outs c main_v38_0 (by decide)).trans <| (V7_of m outs c main_v38_0 (by decide)).trans <| (V6_of m outs c main_v38_0 (by decide)).trans (V5_v38_0 m outs c)
theorem V13_v77_0 : V13 m outs c main_v77_0 = outs 9 main_v77_0 c :=
  (V13_of m outs c main_v77_0 (by decide)).trans <| (V12_of m outs c main_v77_0 (by decide)).trans <| (V11_of m outs c main_v77_0 (by decide)).trans <| (V10_of m outs c main_v77_0 (by decide)).trans (V9_v77_0 m outs c)

theorem V14_v118 : V14 m outs c main_v118
    = concatenate S500x384 1 [⟨S500x128, extractStridedSlice S500x128 ![0, 0] (outs 5 main_v38_1 c) slices_S512x128_S500x128_0_0⟩, ⟨S500x128, extractStridedSlice S500x128 ![0, 0] (outs 9 main_v77_1 c) slices_S512x128_S500x128_0_0⟩, ⟨S500x128, extractStridedSlice S500x128 ![0, 0] (outs 13 main_v116_1 c) slices_S512x128_S500x128_0_0⟩] concatenates_S500x128_S500x128_S500x128_S500x384_d1 :=
  (hostOps6_v118 (V13 m outs c)).trans (by rw [V13_v39 m outs c, V13_v78 m outs c, V13_v116_1 m outs c])
theorem V14_v119 : V14 m outs c main_v119
    = concatenate S50000x384 1 [⟨S50000x128, outs 5 main_v38_0 c⟩, ⟨S50000x128, outs 9 main_v77_0 c⟩, ⟨S50000x128, outs 13 main_v116_0 c⟩] concatenates_S50000x128_S50000x128_S50000x128_S50000x384_d1 :=
  (hostOps6_v119 (V13 m outs c)).trans (by rw [V13_v38_0 m outs c, V13_v77_0 m outs c, V13_v116_0 m outs c])

end Values

end Cert.KernelIdeal.Rg

end
-- ==== Proof.KI.MlpSpec.lean ====
/-
  The two-layer perceptron relu(relu(x·W1 + b1)·W2 + b2) read at one index, on both sides.
  A row of the result depends on the same row of x alone: with denseRow lr w b k = max (Σ_j lr j · w[j, k] + b[k], 0)
  the entry at (r, q) is denseRow (k ↦ denseRow (row r of x) W1 b1 k) W2 b2 q. Proved here for the reference's chain of
  host operations on the whole 50000×128 array (its product is the plain sum over the contracted coordinate, its bias
  row repeated down the rows, its zero matrix the zero word everywhere) and for the kernel body's chain on one block of
  5000 rows (at the exact values narrowing the operands changes nothing and the matrix product into the zero splat is
  the same sum; the bias row is cast to one row and laid along every row). Nothing here depends on which of the
  program's perceptron regions the block belongs to.
-/
import proofs.«409766_j3350074491205_1_alg».proof.Proof.Gen.KernelIdeal
import proofs.«409766_j3350074491205_1_alg».proof.Proof.Ref.Defs
import Idealize.ShloMosaic.Lib.Pipeline.Value
import Idealize.ShloMosaic.Lib.ValueIdx
import Idealize.ShloMosaic.Lib.ValueLayout
import Idealize.ShloMosaic.PureOps.Ideal.Laws

noncomputable section

open scoped BigOperators

/-! ## One row of the perceptron, as sums over the 128 hidden and input coordinates -/

namespace Cert.ReferenceIdeal.Sh

open Idealize.ShloMosaic Idealize.ShloMosaic.ValueIdx

/-- One dense layer with its relu at output coordinate k, of a row lr of 128 numbers:
    max (Σ_j lr j · w[j, k] + b[k], 0). The zero is kept as the word both programs spell it with. -/
def denseRow (lr : Fin 128 → EReal) (w : (⟨2, ![128, 128]⟩ : Shape).Idx → EReal) (b : (⟨1, ![128]⟩ : Shape).Idx → EReal)
    (k : Fin 128) : EReal :=
  max ((∑ j : Fin 128, lr j * w (ix2 j k)) + b (ix1 k)) (Ideal.ofBits .f32 0x00000000#32)

/-- The two-layer perceptron of one row xr, at output coordinate q: the second layer of the first layer's row. -/
def mlpRow (xr : Fin 128 → EReal) (w1 : (⟨2, ![128, 128]⟩ : Shape).Idx → EReal) (b1 : (⟨1, ![128]⟩ : Shape).Idx → EReal)
    (w2 : (⟨2, ![128, 128]⟩ : Shape).Idx → EReal) (b2 : (⟨1, ![128]⟩ : Shape).Idx → EReal) (q : Fin 128) : EReal :=
  denseRow (fun k => denseRow xr w1 b1 k) w2 b2 q

end Cert.ReferenceIdeal.Sh

/-! ## The reference's perceptron read at an index -/

namespace Cert.ReferenceIdeal.Sh

open Cert.ReferenceIdeal Cert.ReferenceIdeal.Gen Idealize.ShloMosaic Idealize.ShloMosaic.TcCoe Idealize.SL.Sem Idealize.ShloMosaic.StableHlo
open Idealize.ShloMosaic.ValueIdx

/-- The operand indices of the reference's dot at output (r, q) and contraction coordinate k are (r, k) and (k, q):
    one fact per operand axis. -/
theorem rdot_lhs_0 (i : S50000x128.Idx) (q : dot_S50000x128_S128x128_S50000x128_1_0_0_1_n_n.contr.Idx) :
    (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
theorem rdot_lhs_1 (i : S50000x128.Idx) (q : dot_S50000x128_S128x128_S50000x128_1_0_0_1_n_n.contr.Idx) :
    (dot_S50000x128_S128x128_S50000x128_1_0_0_1_n_n.lhsIdx i q 1).val = (q ⟨0, by decide⟩).val :=
  dot_S50000x128_S128x128_S50000x128_1_0_0_1_n_n.lhsIdx_val_of_single rfl i q
theorem rdot_rhs_0 (i : S50000x128.Idx) (q : dot_S50000x128_S128x128_S50000x128_1_0_0_1_n_n.contr.Idx) :
    (dot_S50000x128_S128x128_S50000x128_1_0_0_1_n_n.rhsIdx i q 0).val = (q ⟨0, by decide⟩).val :=
  dot_S50000x128_S128x128_S50000x128_1_0_0_1_n_n.rhsIdx_val_of_single rfl i q
theorem rdot_rhs_1 (i : S50000x128.Idx) (q : dot_S50000x128_S128x128_S50000x128_1_0_0_1_n_n.contr.Idx) :
    (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

/-- The reference's product of a 50000×128 matrix with a 128×128 one, at (r, q): Σ_k l[r, k] · w[k, q]. -/
theorem rdot_at (l : FVec Ideal S50000x128 .f32) (w : FVec Ideal S128x128 .f32) (r : Fin 50000) (q : Fin 128) :
    Host.dotGeneral (F := Ideal) dot_S50000x128_S128x128_S50000x128_1_0_0_1_n_n none l w (ix2 r q) = ∑ k : Fin 128, l (ix2 r k) * w (ix2 k q) := by
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx (ix2 r q) ((ValueIdx.contrEquiv1 dot_S50000x128_S128x128_S50000x128_1_0_0_1_n_n 128 rfl rfl).symm k) = ix2 r k := funext fun a => Fin.ext (by
    match a with
    | ⟨0, _⟩ => exact rdot_lhs_0 _ _
    | ⟨1, _⟩ => exact (rdot_lhs_1 _ _).trans hk)
  have er : dot_S50000x128_S128x128_S50000x128_1_0_0_1_n_n.rhsIdx (ix2 r q) ((ValueIdx.contrEquiv1 dot_S50000x128_S128x128_S50000x128_1_0_0_1_n_n 128 rfl rfl).symm k) = ix2 k q := funext fun a => Fin.ext (by
    match a with
    | ⟨0, _⟩ => exact (rdot_rhs_0 _ _).trans hk
    | ⟨1, _⟩ => exact rdot_rhs_1 _ _)
  rw [el, er]

/-- A row of 128 numbers repeated down the rows reads, at (r, q), the row at q. -/
theorem rows_at (b : (⟨S128, .f32⟩ : BufTy).Contents (Elt Ideal)) (r : Fin 50000) (q : Fin 128) :
    rows (F := Ideal) b (ix2 r q) = b (ix1 q) := by
  unfold rows
  refine (broadcastInDim_apply ![0, 1] bcast_S1x128_S50000x128_0_1 _ (ix2 r q) (ix2 (0 : Fin 1) q) fun a => ?_).trans ?_
  · match a with
    | ⟨0, _⟩ => rfl
    | ⟨1, _⟩ => rfl
  · refine broadcastInDim_apply ![1] bcast_S128_S1x128_1 b (ix2 (0 : Fin 1) q) (ix1 q) fun a => ?_
    match a with
    | ⟨0, _⟩ => rfl

/-- The zero matrix reads the zero word everywhere. -/
theorem zeros_at (i : S50000x128.Idx) : zeros (F := Ideal) i = Ideal.ofBits .f32 0x00000000#32 := rfl

/-- One layer of the reference: relu(l·w + b) with the bias row repeated down the rows. -/
def dense {F : FTy → Type} [FloatOps F] (l : (⟨S50000x128, .f32⟩ : BufTy).Contents (Elt F)) (w : (⟨S128x128, .f32⟩ : BufTy).Contents (Elt F))
    (b : (⟨S128, .f32⟩ : BufTy).Contents (Elt F)) : (⟨S50000x128, .f32⟩ : BufTy).Contents (Elt F) :=
  maximumf (addf (Host.dotGeneral dot_S50000x128_S128x128_S50000x128_1_0_0_1_n_n none l w) (rows b)) (zeros (F := F))

/-- The layer at (r, q) is the row function of row r of its operand. -/
theorem dense_at (l : (⟨S50000x128, .f32⟩ : BufTy).Contents (Elt Ideal)) (w : (⟨S128x128, .f32⟩ : BufTy).Contents (Elt Ideal))
    (b : (⟨S128, .f32⟩ : BufTy).Contents (Elt Ideal)) (r : Fin 50000) (q : Fin 128) :
    dense (F := Ideal) l w b (ix2 r q) = denseRow (fun j => l (ix2 r j)) w b q := by
  unfold dense denseRow
  show max (Host.dotGeneral (F := Ideal) dot_S50000x128_S128x128_S50000x128_1_0_0_1_n_n none l w (ix2 r q) + rows (F := Ideal) b (ix2 r q)) (zeros (F := Ideal) (ix2 r q)) = _
  rw [rdot_at, rows_at, zeros_at]

/-- The perceptron is two such layers. -/
theorem mlp_eq_dense (x : (⟨S50000x128, .f32⟩ : BufTy).Contents (Elt Ideal)) (w1 : (⟨S128x128, .f32⟩ : BufTy).Contents (Elt Ideal))
    (b1 : (⟨S128, .f32⟩ : BufTy).Contents (Elt Ideal)) (w2 : (⟨S128x128, .f32⟩ : BufTy).Contents (Elt Ideal))
    (b2 : (⟨S128, .f32⟩ : BufTy).Contents (Elt Ideal)) : mlp (F := Ideal) x w1 b1 w2 b2 = dense (F := Ideal) (dense (F := Ideal) x w1 b1) w2 b2 := rfl

/-- THE REFERENCE'S PERCEPTRON AT (r, q): the row function of row r of x. -/
theorem mlp_at (x : (⟨S50000x128, .f32⟩ : BufTy).Contents (Elt Ideal)) (w1 : (⟨S128x128, .f32⟩ : BufTy).Contents (Elt Ideal))
    (b1 : (⟨S128, .f32⟩ : BufTy).Contents (Elt Ideal)) (w2 : (⟨S128x128, .f32⟩ : BufTy).Contents (Elt Ideal))
    (b2 : (⟨S128, .f32⟩ : BufTy).Contents (Elt Ideal)) (r : Fin 50000) (q : Fin 128) :
    mlp (F := Ideal) x w1 b1 w2 b2 (ix2 r q) = mlpRow (fun j => x (ix2 r j)) w1 b1 w2 b2 q := by
  rw [mlp_eq_dense, dense_at]
  unfold mlpRow
  exact congrArg (fun f => denseRow f w2 b2 q) (funext fun k => dense_at x w1 b1 r k)

end Cert.ReferenceIdeal.Sh

/-! ## The kernel's dense layer read at an index -/

namespace Cert.KernelIdeal.Rg

open Cert.KernelIdeal Cert.KernelIdeal.Gen
open Idealize.ShloMosaic Idealize.ShloMosaic.TcCoe Idealize.SL.Sem
open Idealize.ShloMosaic.ValueIdx
open Cert.ReferenceIdeal.Sh (denseRow mlpRow)

/-- The operand indices of the body's matrix product at output (p, q) and contraction coordinate k are (p, k) and
    (k, q): one fact per operand axis. -/
theorem kdot_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem kdot_lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem kdot_rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem kdot_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's matrix product into the zero splat, at (p, q): Σ_k l[p, k] · w[k, q]. -/
theorem kdot_at (l : FVec Ideal S5000x128 .bf16) (w : FVec Ideal S128x128 .bf16) (p : Fin 5000) (q : Fin 128) :
    matmul (F := Ideal) dot_S5000x128_S128x128_S5000x128_1_0_0_1_n_n none l w (constant S5000x128 .f32 0x00000000#32) (ix2 p q)
      = ∑ k : Fin 128, l (ix2 p k) * w (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact kdot_lhs_0 _ _
    | ⟨1, _⟩ => exact (kdot_lhs_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (kdot_rhs_0 _ _).trans hk
    | ⟨1, _⟩ => exact kdot_rhs_1 _ _)
  rw [el, er]

/-- One layer of the body on a block of 5000 rows: both operands narrowed, multiplied into the zero splat, the bias
    row laid along every row and added, the maximum with the zero splat. -/
def kdense {F : FTy → Type} [FloatOps F] (l : FVec F S5000x128 .f32) (w : FVec F S128x128 .f32) (b : FVec F S128 .f32) : FVec F S5000x128 .f32 :=
  maximumf (addf (matmul dot_S5000x128_S128x128_S5000x128_1_0_0_1_n_n none (truncf .bf16 l bitsLt_bf16_f32) (truncf .bf16 w bitsLt_bf16_f32) (constant S5000x128 .f32 0x00000000#32))
      (broadcastTo S5000x128 (shapeCast S1x128 b shapeCasts_S128_S1x128) broadcasts_S1x128_S5000x128))
    (broadcast S5000x128 (Scalar.ofBits .f32 0x00000000#32))

/-- At the exact values the narrowing is the identity, and the layer at (p, q) is the row function of row p of its
    operand. -/
theorem kdense_at (l : FVec Ideal S5000x128 .f32) (w : FVec Ideal S128x128 .f32) (b : FVec Ideal S128 .f32) (p : Fin 5000) (q : Fin 128) :
    kdense (F := Ideal) l w b (ix2 p q) = denseRow (fun j => l (ix2 p j)) w b q := by
  unfold kdense denseRow
  show max (matmul (F := Ideal) dot_S5000x128_S128x128_S5000x128_1_0_0_1_n_n none (truncf .bf16 l bitsLt_bf16_f32) (truncf .bf16 w bitsLt_bf16_f32) (constant S5000x128 .f32 0x00000000#32) (ix2 p q)
      + broadcastTo S5000x128 (shapeCast S1x128 b shapeCasts_S128_S1x128) broadcasts_S1x128_S5000x128 (ix2 p q)) (Ideal.ofBits .f32 0x00000000#32) = _
  rw [kdot_at, broadcastTo_1b_ab_apply, shapeCast_a_1a_apply]
  rfl

end Cert.KernelIdeal.Rg

end
-- ==== Proof.KI.MlpVal0.lean ====
/-
  The value of region 0, the per-node perceptron, at the exact values: after its ten grid points the output array is
  the reference's two-layer perceptron of the whole array of node features and of the weights and bias rows, as the
  region finds them. Point t stores one block of 5000 rows; its row p is the perceptron's row function of row p of the
  block of node features fetched at t, which is row t·5000 + p of the array, and the weights and bias rows are fetched
  whole; so the block is block t of the reference's function. The ten blocks tile the 50000 rows (row r lies in the
  block of point r / 5000) and every point writes back.
-/
import proofs.«409766_j3350074491205_1_alg».proof.Proof.KI.Mlp0
import proofs.«409766_j3350074491205_1_alg».proof.Proof.KI.MlpSpec
import proofs.«409766_j3350074491205_1_alg».proof.Proof.Ref.Defs
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

/-! ## Region 0's payload is two such layers -/

namespace Cert.KernelIdeal.Rg

open Cert.KernelIdeal Cert.KernelIdeal.Gen
open Idealize.ShloMosaic Idealize.ShloMosaic.TcCoe Idealize.SL.Sem
open Idealize.ShloMosaic.ValueIdx
open Cert.ReferenceIdeal.Sh (denseRow mlpRow)

/-- The payload is the second layer of the first (the shape casts of a block to its own shape are the identity). -/
theorem pay0_eq_kdense {F : FTy → Type} [FloatOps F] (x0 : Vec F S5000x128 .f32) (w1 : Vec F S128x128 .f32) (b1 : Vec F S128 .f32) (w2 : Vec F S128x128 .f32) (b2 : Vec F S128 .f32) :
    k0_pay1 x0 w1 b1 w2 b2 = kdense (kdense x0 w1 b1) w2 b2 := by
  unfold k0_pay1 kdense
  simp only [shapeCast_self]

/-- THE PAYLOAD AT (p, q): the perceptron's row function of row p of the block of node features. -/
theorem pay0_at (x0 : Vec Ideal S5000x128 .f32) (w1 : Vec Ideal S128x128 .f32) (b1 : Vec Ideal S128 .f32) (w2 : Vec Ideal S128x128 .f32) (b2 : Vec Ideal S128 .f32)
    (p : Fin 5000) (q : Fin 128) :
    k0_pay1 (F := Ideal) x0 w1 b1 w2 b2 (ix2 p q) = mlpRow (fun j => x0 (ix2 p j)) w1 b1 w2 b2 q := by
  rw [pay0_eq_kdense, kdense_at]
  unfold mlpRow
  exact congrArg (fun f => denseRow f w2 b2 q) (funext fun k => kdense_at x0 w1 b1 p k)

end Cert.KernelIdeal.Rg

/-! ## From blocks to the array -/

namespace Cert.KernelIdeal.Rg

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx
open Cert.ReferenceIdeal.Sh (denseRow mlpRow)

variable (V : (c : Dev nD) → (b : Ref sig .tc) → Buf (Elt Ideal) ((c : Thread nD τ).loc b))

theorem hzm0 : (![0, 0] : Fin 2 → Nat) = fun _ => 0 := funext fun a => by fin_cases a <;> rfl
theorem hzv0 : (![0] : Fin 1 → Nat) = fun _ => 0 := funext fun a => by fin_cases a <;> rfl

/-- The index maps over the ten grid points: the block of node features and the output block sit at block row t,
    column block 0; the weights and bias rows are whole at every point. -/
theorem idx0_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 ∧ t.val < 10 :=
  (by decide +kernel : ∀ t : Fin grid0.N, _)

/-- Every block row is some point's. -/
theorem idx0_onto : ∀ q0 : Fin 10, ∃ t : Fin cfg0.N, t.val = q0.val :=
  (by decide +kernel : ∀ q0 : Fin 10, ∃ t : Fin grid0.N, t.val = q0.val)

/-- WHAT POINT t WRITES BACK is block t of the reference's perceptron of the five arrays as the region finds them:
    row p of the block is row t·5000 + p of the array, and a row of the perceptron depends on that row of the node
    features alone. -/
theorem flushed0_eq (c : Dev nD) (t : Fin cfg0.N) :
    (dat0 (F := Ideal) V c).flushed 5 t = ((cfg0.win 5).blk t).view.read (Elt Ideal)
      (Cert.ReferenceIdeal.Sh.mlp (F := Ideal) (V c main_v11) (V c main_v13) (V c main_v15) (V c main_v17) (V c main_v19)) := by
  show (cfg0.win 5).cut (grid0.coords t) ((dat0 V c).after 5 t) = _
  rw [after0_5]
  unfold out0_5
  rw [View.canon_unit_zero hzm0]
  simp only [View.ld_unit_zero (S := S5000x128) hzm0, View.ld_unit_zero (S := S128x128) hzm0, View.ld_unit_zero (S := S128) hzv0]
  obtain ⟨e00, e01, e10, e11, e20, e30, e31, e40, e50, e51, hlt⟩ := idx0_facts t
  funext j
  obtain ⟨p, q, rfl⟩ : ∃ (p : Fin 5000) (q : Fin 128), j = ix2 p q := ⟨j 0, j 1, eq_ix2 j⟩
  have hp : p.val < 5000 := p.isLt
  have hq : q.val < 128 := q.isLt
  -- the array index under (p, q) of the output block
  have hemb : ((cfg0.win 5).blk t).view.emb (ix2 p q) = ix2 (⟨t.val * 5000 + p.val, by omega⟩ : Fin 50000) q := by
    funext a; apply Fin.ext
    match a with
    | ⟨0, _⟩ => show win0_5.index t (0 : Fin 2) * 5000 + 1 * p.val = t.val * 5000 + p.val; omega
    | ⟨1, _⟩ => show win0_5.index t (1 : Fin 2) * 128 + 1 * q.val = q.val; omega
  show k0_pay1 (F := Ideal) (iblk0 V c 0 t) (iblk0 V c 1 t) (iblk0 V c 2 t) (iblk0 V c 3 t) (iblk0 V c 4 t) (ix2 p q)
    = Cert.ReferenceIdeal.Sh.mlp (F := Ideal) (V c main_v11) (V c main_v13) (V c main_v15) (V c main_v17) (V c main_v19) (((cfg0.win 5).blk t).view.emb (ix2 p q))
  rw [hemb]
  refine (pay0_at (iblk0 V c 0 t) (iblk0 V c 1 t) (iblk0 V c 2 t) (iblk0 V c 3 t) (iblk0 V c 4 t) p q).trans ?_
  refine Eq.trans ?_ (Cert.ReferenceIdeal.Sh.mlp_at (V c main_v11) (V c main_v13) (V c main_v15) (V c main_v17) (V c main_v19) ⟨t.val * 5000 + p.val, by omega⟩ q).symm
  -- each input block, read where the output's rectangle says
  have b0 : (fun jj : Fin 128 => (iblk0 V c 0 t : Vec Ideal S5000x128 .f32) (ix2 p jj))
      = fun jj : Fin 128 => (V c main_v11 : Vec Ideal S50000x128 .f32) (ix2 (⟨t.val * 5000 + p.val, by omega⟩ : Fin 50000) jj) := by
    funext jj
    have hjj : jj.val < 128 := jj.isLt
    show V c main_v11 (((cfg0.win 0).blk t).view.emb (ix2 p jj)) = V c main_v11 (ix2 (⟨t.val * 5000 + p.val, by omega⟩ : Fin 50000) jj)
    refine congrArg (V c main_v11) (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * jj.val = jj.val; omega
  have b1 : (iblk0 V c 1 t : Vec Ideal S128x128 .f32) = V c main_v13 := by
    funext y
    have hy0 : (y 0).val < 128 := (y 0).isLt
    have hy1 : (y 1).val < 128 := (y 1).isLt
    show V c main_v13 (((cfg0.win 1).blk t).view.emb y) = V c main_v13 y
    refine congrArg (V c main_v13) (funext fun a => Fin.ext ?_)
    match a with
    | ⟨0, _⟩ => show win0_1.index t (0 : Fin 2) * 128 + 1 * (y 0).val = (y 0).val; omega
    | ⟨1, _⟩ => show win0_1.index t (1 : Fin 2) * 128 + 1 * (y 1).val = (y 1).val; omega
  have b2 : (iblk0 V c 2 t : Vec Ideal S128 .f32) = V c main_v15 := by
    funext y
    have hy0 : (y 0).val < 128 := (y 0).isLt
    show V c main_v15 (((cfg0.win 2).blk t).view.emb y) = V c main_v15 y
    refine congrArg (V c main_v15) (funext fun a => Fin.ext ?_)
    match a with
    | ⟨0, _⟩ => show win0_2.index t (0 : Fin 1) * 128 + 1 * (y 0).val = (y 0).val; omega
  have b3 : (iblk0 V c 3 t : Vec Ideal S128x128 .f32) = V c main_v17 := by
    funext y
    have hy0 : (y 0).val < 128 := (y 0).isLt
    have hy1 : (y 1).val < 128 := (y 1).isLt
    show V c main_v17 (((cfg0.win 3).blk t).view.emb y) = V c main_v17 y
    refine congrArg (V c main_v17) (funext fun a => Fin.ext ?_)
    match a with
    | ⟨0, _⟩ => show win0_3.index t (0 : Fin 2) * 128 + 1 * (y 0).val = (y 0).val; omega
    | ⟨1, _⟩ => show win0_3.index t (1 : Fin 2) * 128 + 1 * (y 1).val = (y 1).val; omega
  have b4 : (iblk0 V c 4 t : Vec Ideal S128 .f32) = V c main_v19 := by
    funext y
    have hy0 : (y 0).val < 128 := (y 0).isLt
    show V c main_v19 (((cfg0.win 4).blk t).view.emb y) = V c main_v19 y
    refine congrArg (V c main_v19) (funext fun a => Fin.ext ?_)
    match a with
    | ⟨0, _⟩ => show win0_4.index t (0 : Fin 1) * 128 + 1 * (y 0).val = (y 0).val; omega
  rw [b0, b1, b2, b3, b4]

/-- An index of the array is in point t's block iff each coordinate is in the block's range on its axis. -/
theorem mem0_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v20).slice (win0_5.rect t)).set ↔ _
  rw [View.set_slice_whole, Rect.mem_set_unit]
  exact Iff.rfl

/-- THE COVER: row r of the array is in the block of point r / 5000, and every point writes back. -/
theorem cover0_arr (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  obtain ⟨t, ht⟩ := idx0_onto ⟨(i 0).val / 5000, by omega⟩
  have ht' : t.val = (i 0).val / 5000 := ht
  obtain ⟨-, -, -, -, -, -, -, -, e50, e51, -⟩ := idx0_facts t
  refine ⟨t, flush0_5 t, ?_⟩
  rw [mem0_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- THE ARRAY after the ten points: the reference's two-layer perceptron of the whole array of node features and
    the weights and bias rows, as the region finds them. -/
theorem mlp0_arr (c : Dev nD) :
    (dat0 (F := Ideal) V c).arrAt 5 cfg0.N
      = Cert.ReferenceIdeal.Sh.mlp (F := Ideal) (V c main_v11) (V c main_v13) (V c main_v15) (V c main_v17) (V c main_v19) :=
  (dat0 (F := Ideal) V c).arrAt_eq_of_cover 5 _ (fun t _ => flushed0_eq V c t) cover0_arr

end Cert.KernelIdeal.Rg

end
-- ==== Proof.KI.BnVal1.lean ====
/-
  The values of the normalise-and-pool region at the exact instance: the normalised output array is gamma·(h − mean)·rstd + beta of the
  whole input array, row vectors repeated down the rows; the pooled output array at (g, d) is the sum over all 50000
  nodes n of onehot(n, g) · normalised(n, d). The first is read block by block (point t writes back rows
  5000·t … 5000·t + 4999, and the ten blocks tile the array); the second by induction over the ten points on the
  scratch the kernel carries (each point adds its block's contraction over 5000 rows), the one write-back after the
  last point covering the whole 512×128 array, and the double sum over (point, row in block) regrouped as one sum
  over the nodes.
-/
import proofs.«409766_j3350074491205_1_alg».proof.Proof.KI.Bn1
import proofs.«409766_j3350074491205_1_alg».proof.Proof.Ref.Defs
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Rg

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

variable (V : (c : Dev nD) → (b : Ref sig .tc) → Buf (Elt Ideal) ((c : Thread nD τ).loc b))

/-- A row of 128 numbers laid over the 5000 rows of a block reads, at (r, d), the row's entry d. -/
theorem bn1_rowb_apply (v : Vec Ideal S128 .f32) (r : Fin 5000) (d : Fin 128) :
    broadcastTo S5000x128 (shapeCast S1x128 v shapeCasts_S128_S1x128) broadcasts_S1x128_S5000x128 (ix2 r d) = v (ix1 d) :=
  (broadcastTo_1b_ab_apply _ _ r d).trans (shapeCast_a_1a_apply v _ 0 d)

/-- The normalisation's payload at an index: gamma·(x − mean)·rstd + beta of the row vectors' entries on the column. -/
theorem pay1_bn_apply (x : Vec Ideal S5000x128 .f32) (g mu rs b : Vec Ideal S128 .f32) (r : Fin 5000) (d : Fin 128) :
    k1_pay2 x g mu rs b (ix2 r d) = g (ix1 d) * (x (ix2 r d) - mu (ix1 d)) * rs (ix1 d) + b (ix1 d) := by
  unfold k1_pay2
  simp only [shapeCast_self]
  simp only [addf_apply, mulf_apply, subf_apply]
  rw [bn1_rowb_apply g r d, bn1_rowb_apply mu r d, bn1_rowb_apply rs r d, bn1_rowb_apply b r d]

/-- The reference's rows: a row of 128 numbers repeated down 50000 rows reads, at (n, d), the row's entry d. -/
theorem bn1_rows_apply (v : (⟨Cert.ReferenceIdeal.S128, .f32⟩ : BufTy).Contents (Elt Ideal)) (n : Fin 50000) (d : Fin 128) :
    Cert.ReferenceIdeal.Sh.rows (F := Ideal) v (ix2 n d) = v (ix1 d) := by
  unfold Cert.ReferenceIdeal.Sh.rows
  refine (broadcastInDim_apply _ _ _ (ix2 n d) (ix2 (0 : Fin 1) d) fun a => ?_).trans ?_
  · match a with
    | ⟨0, _⟩ => rfl
    | ⟨1, _⟩ =>
      show d.val = if (128 : ℕ) = 1 then 0 else d.val
      rfl
  · refine broadcastInDim_apply _ _ _ (ix2 (0 : Fin 1) d) (ix1 d) fun a => ?_
    match a with
    | ⟨0, _⟩ =>
      show d.val = if (128 : ℕ) = 1 then 0 else d.val
      rfl

/-- The reference's normalisation at an index. -/
theorem bn1_ref_apply (h : (⟨Cert.ReferenceIdeal.S50000x128, .f32⟩ : BufTy).Contents (Elt Ideal))
    (mu rs g b : (⟨Cert.ReferenceIdeal.S128, .f32⟩ : BufTy).Contents (Elt Ideal)) (n : Fin 50000) (d : Fin 128) :
    Cert.ReferenceIdeal.Sh.bn (F := Ideal) h mu rs g b (ix2 n d) = g (ix1 d) * (h (ix2 n d) - mu (ix1 d)) * rs (ix1 d) + b (ix1 d) := by
  unfold Cert.ReferenceIdeal.Sh.bn
  simp only [addf_apply, mulf_apply, subf_apply, bn1_rows_apply]

/-- The arrays the region finds, under their literal types. -/
abbrev bn1_hA (c : Dev nD) : Vec Ideal S50000x128 .f32 := V c main_v20
abbrev bn1_muA (c : Dev nD) : Vec Ideal S128 .f32 := V c main_v23
abbrev bn1_rsA (c : Dev nD) : Vec Ideal S128 .f32 := V c main_v33
abbrev bn1_gA (c : Dev nD) : Vec Ideal S128 .f32 := V c main_v35
abbrev bn1_bA (c : Dev nD) : Vec Ideal S128 .f32 := V c main_v37
abbrev pool1_ohA (c : Dev nD) : Vec Ideal S50000x512 .bf16 := V c main_v0

/-- The normalised array: the reference's normalisation of the arrays the region finds. -/
abbrev bn1_val (c : Dev nD) : Vec Ideal S50000x128 .f32 :=
  Cert.ReferenceIdeal.Sh.bn (F := Ideal) (V c main_v20) (V c main_v23) (V c main_v33) (V c main_v35) (V c main_v37)

/-- The printed index maps over the grid: the three row-blocked windows are at block t on the rows and block 0 on the
    columns, every other window at block 0. -/
theorem idx1_facts : ∀ t : Fin cfg1.N, win1_0.index t (0 : Fin 2) = t.val ∧ win1_0.index t (1 : Fin 2) = 0
    ∧ win1_1.index t (0 : Fin 1) = 0 ∧ win1_2.index t (0 : Fin 1) = 0 ∧ win1_3.index t (0 : Fin 1) = 0 ∧ win1_4.index t (0 : Fin 1) = 0
    ∧ win1_5.index t (0 : Fin 2) = t.val ∧ win1_5.index t (1 : Fin 2) = 0
    ∧ win1_6.index t (0 : Fin 2) = t.val ∧ win1_6.index t (1 : Fin 2) = 0
    ∧ win1_7.index t (0 : Fin 2) = 0 ∧ win1_7.index t (1 : Fin 2) = 0 :=
  (by decide +kernel : ∀ t : Fin grid1.N, _)

theorem bn1_N : cfg1.N = 10 := N_1

/-- Row r of block t is row 5000·t + r of the array. -/
theorem bn1_row_lt (t : Fin cfg1.N) (r : Fin 5000) : t.val * 5000 + r.val < 50000 := by
  have ht : t.val < 10 := lt_of_lt_of_eq t.isLt bn1_N
  have := r.isLt; omega

/-- The blocks the body reads, where they sit in the arrays: the row-blocked ones at row 5000·t + r, the row vectors whole. -/
theorem idx1_emb_0 (t : Fin cfg1.N) (r : Fin 5000) (d : Fin 128) :
    ((cfg1.win 0).blk t).view.emb (ix2 r d) = ix2 (⟨t.val * 5000 + r.val, bn1_row_lt t r⟩ : Fin 50000) d := by
  obtain ⟨e0, e1, -⟩ := idx1_facts t
  funext a; apply Fin.ext
  match a with
  | ⟨0, _⟩ => show win1_0.index t (0 : Fin 2) * 5000 + 1 * r.val = t.val * 5000 + r.val; omega
  | ⟨1, _⟩ => show win1_0.index t (1 : Fin 2) * 128 + 1 * d.val = d.val; omega
theorem idx1_emb_5 (t : Fin cfg1.N) (r : Fin 5000) (g : Fin 512) :
    ((cfg1.win 5).blk t).view.emb (ix2 r g) = ix2 (⟨t.val * 5000 + r.val, bn1_row_lt t r⟩ : Fin 50000) g := by
  obtain ⟨-, -, -, -, -, -, e0, e1, -⟩ := idx1_facts t
  funext a; apply Fin.ext
  match a with
  | ⟨0, _⟩ => show win1_5.index t (0 : Fin 2) * 5000 + 1 * r.val = t.val * 5000 + r.val; omega
  | ⟨1, _⟩ => show win1_5.index t (1 : Fin 2) * 512 + 1 * g.val = g.val; omega
theorem idx1_emb_6 (t : Fin cfg1.N) (r : Fin 5000) (d : Fin 128) :
    ((cfg1.win 6).blk t).view.emb (ix2 r d) = ix2 (⟨t.val * 5000 + r.val, bn1_row_lt t r⟩ : Fin 50000) d := by
  obtain ⟨-, -, -, -, -, -, -, -, e0, e1, -⟩ := idx1_facts t
  funext a; apply Fin.ext
  match a with
  | ⟨0, _⟩ => show win1_6.index t (0 : Fin 2) * 5000 + 1 * r.val = t.val * 5000 + r.val; omega
  | ⟨1, _⟩ => show win1_6.index t (1 : Fin 2) * 128 + 1 * d.val = d.val; omega
theorem idx1_emb_1 (t : Fin cfg1.N) (d : Fin 128) : ((cfg1.win 1).blk t).view.emb (ix1 d) = ix1 d := by
  obtain ⟨-, -, e, -⟩ := idx1_facts t
  funext a; apply Fin.ext
  match a with
  | ⟨0, _⟩ => show win1_1.index t (0 : Fin 1) * 128 + 1 * d.val = d.val; omega
theorem idx1_emb_2 (t : Fin cfg1.N) (d : Fin 128) : ((cfg1.win 2).blk t).view.emb (ix1 d) = ix1 d := by
  obtain ⟨-, -, -, e, -⟩ := idx1_facts t
  funext a; apply Fin.ext
  match a with
  | ⟨0, _⟩ => show win1_2.index t (0 : Fin 1) * 128 + 1 * d.val = d.val; omega
theorem idx1_emb_3 (t : Fin cfg1.N) (d : Fin 128) : ((cfg1.win 3).blk t).view.emb (ix1 d) = ix1 d := by
  obtain ⟨-, -, -, -, e, -⟩ := idx1_facts t
  funext a; apply Fin.ext
  match a with
  | ⟨0, _⟩ => show win1_3.index t (0 : Fin 1) * 128 + 1 * d.val = d.val; omega
theorem idx1_emb_4 (t : Fin cfg1.N) (d : Fin 128) : ((cfg1.win 4).blk t).view.emb (ix1 d) = ix1 d := by
  obtain ⟨-, -, -, -, -, e, -⟩ := idx1_facts t
  funext a; apply Fin.ext
  match a with
  | ⟨0, _⟩ => show win1_4.index t (0 : Fin 1) * 128 + 1 * d.val = d.val; omega

/-- The blocks' entries as entries of the arrays. -/
theorem iblk1_0_apply (c : Dev nD) (t : Fin cfg1.N) (r : Fin 5000) (d : Fin 128) :
    (iblk1 V c 0 t : Vec Ideal S5000x128 .f32) (ix2 r d) = bn1_hA V c (ix2 (⟨t.val * 5000 + r.val, bn1_row_lt t r⟩ : Fin 50000) d) := by
  show V c main_v20 (((cfg1.win 0).blk t).view.emb (ix2 r d)) = V c main_v20 _
  rw [idx1_emb_0]
theorem iblk1_5_apply (c : Dev nD) (t : Fin cfg1.N) (r : Fin 5000) (g : Fin 512) :
    (iblk1 V c 5 t : Vec Ideal S5000x512 .bf16) (ix2 r g) = pool1_ohA V c (ix2 (⟨t.val * 5000 + r.val, bn1_row_lt t r⟩ : Fin 50000) g) := by
  show V c main_v0 (((cfg1.win 5).blk t).view.emb (ix2 r g)) = V c main_v0 _
  rw [idx1_emb_5]
theorem iblk1_1_apply (c : Dev nD) (t : Fin cfg1.N) (d : Fin 128) : (iblk1 V c 1 t : Vec Ideal S128 .f32) (ix1 d) = bn1_muA V c (ix1 d) := by
  show V c main_v23 (((cfg1.win 1).blk t).view.emb (ix1 d)) = V c main_v23 _
  rw [idx1_emb_1]
theorem iblk1_2_apply (c : Dev nD) (t : Fin cfg1.N) (d : Fin 128) : (iblk1 V c 2 t : Vec Ideal S128 .f32) (ix1 d) = bn1_rsA V c (ix1 d) := by
  show V c main_v33 (((cfg1.win 2).blk t).view.emb (ix1 d)) = V c main_v33 _
  rw [idx1_emb_2]
theorem iblk1_3_apply (c : Dev nD) (t : Fin cfg1.N) (d : Fin 128) : (iblk1 V c 3 t : Vec Ideal S128 .f32) (ix1 d) = bn1_gA V c (ix1 d) := by
  show V c main_v35 (((cfg1.win 3).blk t).view.emb (ix1 d)) = V c main_v35 _
  rw [idx1_emb_3]
theorem iblk1_4_apply (c : Dev nD) (t : Fin cfg1.N) (d : Fin 128) : (iblk1 V c 4 t : Vec Ideal S128 .f32) (ix1 d) = bn1_bA V c (ix1 d) := by
  show V c main_v37 (((cfg1.win 4).blk t).view.emb (ix1 d)) = V c main_v37 _
  rw [idx1_emb_4]

/-- The block the body stores at point t is the block of the normalised array: entry (r, d) is the array's entry
    (5000·t + r, d). -/
theorem bnblk1_apply (c : Dev nD) (t : Fin cfg1.N) (r : Fin 5000) (d : Fin 128) :
    bnblk1 V c t (ix2 r d) = bn1_val V c (ix2 (⟨t.val * 5000 + r.val, bn1_row_lt t r⟩ : Fin 50000) d) := by
  refine (pay1_bn_apply (iblk1 V c 0 t) (iblk1 V c 3 t) (iblk1 V c 1 t) (iblk1 V c 2 t) (iblk1 V c 4 t) r d).trans ?_
  refine Eq.trans ?_ (bn1_ref_apply (V c main_v20) (V c main_v23) (V c main_v33) (V c main_v35) (V c main_v37) _ d).symm
  rw [iblk1_0_apply V c t r d, iblk1_1_apply V c t d, iblk1_2_apply V c t d, iblk1_3_apply V c t d, iblk1_4_apply V c t d]

/-- What point t writes back of the normalised output is block t of the normalised array. -/
theorem flushed1_6_eq (c : Dev nD) (t : Fin cfg1.N) :
    (dat1 V c).flushed 6 t = ((cfg1.win 6).blk t).view.read (Elt Ideal) (bn1_val V c) := by
  show (cfg1.win 6).cut (grid1.coords t) ((dat1 V c).after 6 t) = _
  rw [after1_6]
  funext j
  obtain ⟨r, d, rfl⟩ : ∃ (r : Fin 5000) (d : Fin 128), j = ix2 r d := ⟨j 0, j 1, eq_ix2 j⟩
  show bnblk1 V c t (ix2 r d) = bn1_val V c (((cfg1.win 6).blk t).view.emb (ix2 r d))
  rw [idx1_emb_6]
  exact bnblk1_apply V c t r d

/-- An index of the array is in point t's block of the normalised output iff each coordinate is in the block's range. -/
theorem mem1_blk_6 (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v38_0).slice (win1_6.rect t)).set ↔ _
  rw [View.set_slice_whole, Rect.mem_set_unit]
  exact Iff.rfl

/-- THE NORMALISED OUTPUT after the region: the ten blocks tile the array (row n is in point n / 5000's block), so it
    ends holding the normalisation of the arrays the region found. -/
theorem bn1_arr (c : Dev nD) : (dat1 (F := Ideal) V c).arrAt 6 cfg1.N
    = Cert.ReferenceIdeal.Sh.bn (F := Ideal) (V c main_v20) (V c main_v23) (V c main_v33) (V c main_v35) (V c main_v37) :=
  (dat1 V c).arrAt_eq_of_cover 6 (bn1_val V c) (fun t _ => flushed1_6_eq V c t) fun i => by
    have hi0 : (i 0).val < 50000 := (i 0).isLt
    have hi1 : (i 1).val < 128 := (i 1).isLt
    have hq : (i 0).val / 5000 < cfg1.N := by rw [bn1_N]; omega
    refine ⟨⟨(i 0).val / 5000, hq⟩, flush1_6 _, ?_⟩
    rw [mem1_blk_6]
    obtain ⟨-, -, -, -, -, -, -, -, e0, e1, -⟩ := idx1_facts ⟨(i 0).val / 5000, hq⟩
    intro a
    match a with
    | ⟨0, _⟩ =>
      show win1_6.index ⟨(i 0).val / 5000, hq⟩ (0 : Fin 2) * 5000 ≤ (i 0).val ∧ (i 0).val < win1_6.index ⟨(i 0).val / 5000, hq⟩ (0 : Fin 2) * 5000 + 5000
      rw [e0]; dsimp only; omega
    | ⟨1, _⟩ =>
      show win1_6.index ⟨(i 0).val / 5000, hq⟩ (1 : Fin 2) * 128 ≤ (i 1).val ∧ (i 1).val < win1_6.index ⟨(i 0).val / 5000, hq⟩ (1 : Fin 2) * 128 + 128
      rw [e1]; omega

/-! ## The pooled output -/

/-- The contraction's index maps: the matmul contracts axis 0 of both operands; the left operand's axis 1 is the
    output's axis 0, the right operand's axis 1 the output's axis 1. -/
theorem pool1_lhs_0 (j : S512x128.Idx) (q : dot_S5000x512_S5000x128_S512x128_0_0_1_1_n_n.contr.Idx) :
    (dot_S5000x512_S5000x128_S512x128_0_0_1_1_n_n.lhsIdx j q 0).val = (q ⟨0, by decide⟩).val :=
  dot_S5000x512_S5000x128_S512x128_0_0_1_1_n_n.lhsIdx_val_of_single rfl j q
theorem pool1_lhs_1 (j : S512x128.Idx) (q : dot_S5000x512_S5000x128_S512x128_0_0_1_1_n_n.contr.Idx) :
    (dot_S5000x512_S5000x128_S512x128_0_0_1_1_n_n.lhsIdx j q 1).val = (j 0).val := by
  unfold DotDims.lhsIdx
  rw [dif_neg (show ¬(1 : Fin S5000x512.rank) ∈ dot_S5000x512_S5000x128_S512x128_0_0_1_1_n_n.lhsBatch by decide), dif_pos (show (1 : Fin S5000x512.rank) ∈ dot_S5000x512_S5000x128_S512x128_0_0_1_1_n_n.lhsNonContracting by decide)]
  rfl
theorem pool1_rhs_0 (j : S512x128.Idx) (q : dot_S5000x512_S5000x128_S512x128_0_0_1_1_n_n.contr.Idx) :
    (dot_S5000x512_S5000x128_S512x128_0_0_1_1_n_n.rhsIdx j q 0).val = (q ⟨0, by decide⟩).val :=
  dot_S5000x512_S5000x128_S512x128_0_0_1_1_n_n.rhsIdx_val_of_single rfl j q
theorem pool1_rhs_1 (j : S512x128.Idx) (q : dot_S5000x512_S5000x128_S512x128_0_0_1_1_n_n.contr.Idx) :
    (dot_S5000x512_S5000x128_S512x128_0_0_1_1_n_n.rhsIdx j q 1).val = (j 1).val := by
  unfold DotDims.rhsIdx
  rw [dif_neg (show ¬(1 : Fin S5000x128.rank) ∈ dot_S5000x512_S5000x128_S512x128_0_0_1_1_n_n.rhsBatch by decide), dif_pos (show (1 : Fin S5000x128.rank) ∈ dot_S5000x512_S5000x128_S512x128_0_0_1_1_n_n.rhsNonContracting by decide)]
  rfl

/-- The accumulation's payload at an index: what the scratch held there plus the contraction, over the block's 5000
    rows, of the one-hot block's column g with the normalised block's column d. -/
theorem pay1_acc_apply (x : Vec Ideal S5000x128 .f32) (g mu rs b : Vec Ideal S128 .f32) (oh : Vec Ideal S5000x512 .bf16)
    (acc : Vec Ideal S512x128 .f32) (gg : Fin 512) (d : Fin 128) :
    k1_pay3 x g mu rs b oh acc (ix2 gg d) = acc (ix2 gg d) + ∑ r : Fin 5000, oh (ix2 r gg) * k1_pay2 x g mu rs b (ix2 r d) := by
  unfold k1_pay3
  simp only [shapeCast_self]
  refine (addf_apply _ _ _).trans (congrArg (acc (ix2 gg d) + ·) ?_)
  simp only [matmul]
  rw [Ideal.matmul_constant_zero_apply, ← Equiv.sum_comp (contrEquiv1 dot_S5000x512_S5000x128_S512x128_0_0_1_1_n_n 5000 rfl rfl).symm]
  refine Finset.sum_congr rfl fun k _ => ?_
  have hk := contrEquiv1_symm_val dot_S5000x512_S5000x128_S512x128_0_0_1_1_n_n 5000 rfl rfl k
  have el : dot_S5000x512_S5000x128_S512x128_0_0_1_1_n_n.lhsIdx (ix2 gg d) ((contrEquiv1 dot_S5000x512_S5000x128_S512x128_0_0_1_1_n_n 5000 rfl rfl).symm k) = ix2 k gg := funext fun a => Fin.ext (by
    match a with
    | ⟨0, _⟩ => exact (pool1_lhs_0 _ _).trans hk
    | ⟨1, _⟩ => exact pool1_lhs_1 _ _)
  have er : dot_S5000x512_S5000x128_S512x128_0_0_1_1_n_n.rhsIdx (ix2 gg d) ((contrEquiv1 dot_S5000x512_S5000x128_S512x128_0_0_1_1_n_n 5000 rfl rfl).symm k) = ix2 k d := funext fun a => Fin.ext (by
    match a with
    | ⟨0, _⟩ => exact (pool1_rhs_0 _ _).trans hk
    | ⟨1, _⟩ => exact pool1_rhs_1 _ _)
  rw [el, er]
  rfl

/-- The zero the first point starts the scratch from. -/
theorem pay1_zero_apply (i : S512x128.Idx) : k1_pay1 (F := Ideal) i = 0 := by
  unfold k1_pay1
  simp only [shapeCast_self]
  exact Ideal.ofBits_zero_f32

/-- One block's contribution to the pooled entry (g, d): the sum over the block's rows of onehot · normalised, read in
    the arrays at rows 5000·t + r. -/
def pool1_blksum (c : Dev nD) (g : Fin 512) (d : Fin 128) (t : Fin cfg1.N) : EReal :=
  ∑ r : Fin 5000, pool1_ohA V c (ix2 (⟨t.val * 5000 + r.val, bn1_row_lt t r⟩ : Fin 50000) g)
    * bn1_val V c (ix2 (⟨t.val * 5000 + r.val, bn1_row_lt t r⟩ : Fin 50000) d)

/-- One point's step on the scratch, at an index: the block's contribution is added. -/
theorem acc1_step (c : Dev nD) (t : Fin cfg1.N) (acc : Vec Ideal S512x128 .f32) (g : Fin 512) (d : Fin 128) :
    k1_pay3 (iblk1 V c 0 t) (iblk1 V c 3 t) (iblk1 V c 1 t) (iblk1 V c 2 t) (iblk1 V c 4 t) (iblk1 V c 5 t) acc (ix2 g d)
      = acc (ix2 g d) + pool1_blksum V c g d t := by
  refine (pay1_acc_apply (iblk1 V c 0 t) (iblk1 V c 3 t) (iblk1 V c 1 t) (iblk1 V c 2 t) (iblk1 V c 4 t) (iblk1 V c 5 t) acc g d).trans ?_
  refine congrArg (acc (ix2 g d) + ·) (Finset.sum_congr rfl fun r _ => ?_)
  rw [iblk1_5_apply V c t r g]
  exact congrArg (pool1_ohA V c (ix2 (⟨t.val * 5000 + r.val, bn1_row_lt t r⟩ : Fin 50000) g) * ·) (bnblk1_apply V c t r d)

/-- THE SCRATCH AFTER POINT n, at an index: the contributions of blocks 0 … n, by induction on the point. -/
theorem accsum1 (c : Dev nD) (g : Fin 512) (d : Fin 128) : ∀ (n : ℕ) (h : n < cfg1.N),
    acc1 V c n h (ix2 g d) = ∑ p : Fin (n + 1), pool1_blksum V c g d ⟨p.val, Nat.lt_of_lt_of_le p.isLt (Nat.succ_le_of_lt h)⟩
  | 0, h => by
    rw [acc1_zero]
    refine (acc1_step V c ⟨0, h⟩ (k1_pay1 (F := Ideal)) g d).trans ?_
    rw [pay1_zero_apply, zero_add, Fin.sum_univ_one]
    rfl
  | n + 1, h => by
    rw [acc1_succ]
    refine (acc1_step V c ⟨n + 1, h⟩ (acc1 V c n (Nat.lt_of_succ_lt h)) g d).trans ?_
    refine Eq.trans ?_ (Fin.sum_univ_castSucc _).symm
    exact congrArg (· + pool1_blksum V c g d ⟨n + 1, h⟩) (accsum1 c g d n (Nat.lt_of_succ_lt h))

/-- A sum over the 50000 nodes is the double sum over (block, row in block): node 5000·p + r. -/
theorem pool1_sum_nodes {M : Type*} [AddCommMonoid M] (f : Fin 50000 → M) :
    ∑ n : Fin 50000, f n = ∑ p : Fin 10, ∑ r : Fin 5000, f ⟨p.val * 5000 + r.val, by have := p.isLt; have := r.isLt; omega⟩ := by
  rw [← Equiv.sum_comp (finProdFinEquiv (m := 10) (n := 5000)) f, Fintype.sum_prod_type]
  refine Finset.sum_congr rfl fun p _ => Finset.sum_congr rfl fun r _ => congrArg f (Fin.ext ?_)
  show r.val + 5000 * p.val = p.val * 5000 + r.val
  omega

/-- The pooled array: at (g, d) the sum over all nodes of onehot(n, g) · normalised(n, d). -/
def pool1_val (c : Dev nD) : Vec Ideal S512x128 .f32 := fun i =>
  ∑ n : Fin 50000, pool1_ohA V c (ix2 n (i 0)) * bn1_val V c (ix2 n (i 1))
theorem pool1_val_apply (c : Dev nD) (g : Fin 512) (d : Fin 128) :
    pool1_val V c (ix2 g d) = ∑ n : Fin 50000, pool1_ohA V c (ix2 n g) * bn1_val V c (ix2 n d) := rfl

theorem idx1_emb_7 (t : Fin cfg1.N) (g : Fin 512) (d : Fin 128) : ((cfg1.win 7).blk t).view.emb (ix2 g d) = ix2 g d := by
  obtain ⟨-, -, -, -, -, -, -, -, -, -, e0, e1⟩ := idx1_facts t
  funext a; apply Fin.ext
  match a with
  | ⟨0, _⟩ => show win1_7.index t (0 : Fin 2) * 512 + 1 * g.val = g.val; omega
  | ⟨1, _⟩ => show win1_7.index t (1 : Fin 2) * 128 + 1 * d.val = d.val; omega

/-- The scratch after the last point is the pooled array. -/
theorem acc1_last (c : Dev nD) (t : Fin cfg1.N) (h9 : t.val = 9) (g : Fin 512) (d : Fin 128) :
    acc1 V c t.val t.isLt (ix2 g d) = pool1_val V c (ix2 g d) := by
  obtain ⟨tv, htv⟩ := t
  dsimp only at h9 ⊢
  subst h9
  rw [accsum1 V c g d 9 htv, pool1_val_apply]
  exact (pool1_sum_nodes fun n => pool1_ohA V c (ix2 n g) * bn1_val V c (ix2 n d)).symm

/-- The pooled output's one block read in an array, and moved out of the staging buffer: the same index. -/
theorem pool1_read (t : Fin cfg1.N) (G : Vec Ideal S512x128 .f32) (g : Fin 512) (d : Fin 128) :
    ((cfg1.win 7).blk t).view.read (Elt Ideal) G (ix2 g d) = G (ix2 g d) :=
  (show _ = G (((cfg1.win 7).blk t).view.emb (ix2 g d)) from rfl).trans (congrArg G (idx1_emb_7 t g d))
theorem pool1_cut (t : Fin cfg1.N) (X : Vec Ideal S512x128 .f32) (g : Fin 512) (d : Fin 128) :
    (cfg1.win 7).cut (grid1.coords t) X (ix2 g d) = X (ix2 g d) := rfl

/-- The one write-back of the pooled output, after the last point, writes the pooled array's one block. -/
theorem flushed1_7_eq (c : Dev nD) (t : Fin cfg1.N) (hf : (cfg1.win 7).flush t = true) :
    (dat1 V c).flushed 7 t = ((cfg1.win 7).blk t).view.read (Elt Ideal) (pool1_val V c) := by
  have ht : t.val < 10 := lt_of_lt_of_eq t.isLt bn1_N
  have h9 : t.val = 9 := by have := (flush1_7 t).mp hf; omega
  show (cfg1.win 7).cut (grid1.coords t) ((dat1 V c).after 7 t) = _
  rw [after1_7]
  funext j
  obtain ⟨g, d, rfl⟩ : ∃ (g : Fin 512) (d : Fin 128), j = ix2 g d := ⟨j 0, j 1, eq_ix2 j⟩
  exact (pool1_cut t (acc1 V c t.val t.isLt) g d).trans ((acc1_last V c t h9 g d).trans (pool1_read t (pool1_val V c) g d).symm)

theorem mem1_blk_7 (t : Fin cfg1.N) (i : S512x128.Idx) :
    i ∈ ((cfg1.win 7).blk t).view.set ↔ ∀ a : Fin 2, win1_7.index t a * S512x128.size a ≤ (i a).val ∧ (i a).val < win1_7.index t a * S512x128.size a + S512x128.size a := by
  show i ∈ ((View.whole main_v38_1).slice (win1_7.rect t)).set ↔ _
  rw [View.set_slice_whole, Rect.mem_set_unit]
  exact Iff.rfl

/-- THE POOLED OUTPUT after the region: its one block is the whole array and the last point writes it back. -/
theorem pool1_arr (c : Dev nD) : (dat1 (F := Ideal) V c).arrAt 7 cfg1.N = pool1_val V c :=
  (dat1 V c).arrAt_eq_of_cover 7 (pool1_val V c) (fun t hf => flushed1_7_eq V c t hf) fun i => by
    have hi0 : (i 0).val < 512 := (i 0).isLt
    have hi1 : (i 1).val < 128 := (i 1).isLt
    obtain ⟨t, h9⟩ : ∃ t : Fin cfg1.N, t.val = 9 := ⟨⟨9, by rw [bn1_N]; omega⟩, rfl⟩
    refine ⟨t, (flush1_7 t).mpr (by rw [h9]), ?_⟩
    rw [mem1_blk_7]
    obtain ⟨-, -, -, -, -, -, -, -, -, -, e0, e1⟩ := idx1_facts t
    intro a
    match a with
    | ⟨0, _⟩ =>
      show win1_7.index t (0 : Fin 2) * 512 ≤ (i 0).val ∧ (i 0).val < win1_7.index t (0 : Fin 2) * 512 + 512
      rw [e0]; omega
    | ⟨1, _⟩ =>
      show win1_7.index t (1 : Fin 2) * 128 ≤ (i 1).val ∧ (i 1).val < win1_7.index t (1 : Fin 2) * 128 + 128
      rw [e1]; omega

/-- The pooled output at (g, d): the sum over all 50000 nodes of onehot(n, g) · normalised(n, d). -/
theorem pool1_sum (c : Dev nD) (g : Fin 512) (d : Fin 128) :
    @Eq EReal ((dat1 (F := Ideal) V c).arrAt 7 cfg1.N (ix2 g d)) (∑ n : Fin 50000, pool1_ohA V c (ix2 n g) * bn1_val V c (ix2 n d)) :=
  (congrFun (pool1_arr V c) (ix2 g d)).trans (pool1_val_apply V c g d)

end Cert.KernelIdeal.Rg

end
-- ==== Proof.KI.PoolMath.lean ====
/-
  Pooling by a membership matrix is pooling by scatter-add, over the extended reals.

  The kernel multiplies the [50000 × 512] matrix whose entry (n, q) is 1 when node n's graph id is q and 0 otherwise
  against an array of node rows; the reference adds each node's row into the row of a [500 × 128] array of zeros that
  the node's id names. At row g < 500 and column d both are the sum of the array's column d over the nodes whose id,
  read as a signed 32-bit integer, is g. An id outside [0, 500) contributes to neither: it equals no column number
  below 500 (ids 500 … 511 match only padding columns, which are not read here), and the scatter drops an update whose
  row lies outside the operand. In the extended reals 0 · y = 0 and 1 · y = y for every y, the infinities included, so
  nothing is asked of the array's entries.
-/
import proofs.«409766_j3350074491205_1_alg».proof.Proof.KI.OneHot
import proofs.«409766_j3350074491205_1_alg».proof.Proof.Ref.Defs
import Idealize.ShloMosaic.Lib.ValueIdx
import Idealize.ShloMosaic.Lib.StableHlo.Predicate

noncomputable section

open scoped BigOperators

namespace Cert.KernelIdeal.Rg

open Cert.KernelIdeal Cert.KernelIdeal.Gen Idealize.ShloMosaic Idealize.ShloMosaic.TcCoe Idealize.SL.Sem
open Idealize.ShloMosaic.ValueIdx Idealize.ShloMosaic.StableHlo.Predicate

namespace PoolMath

/-- The per-graph pooling's scatter record: rows of a [50000 × 128] update array go to the rows of a [500 × 128]
    operand that a [50000 × 1] column of row numbers names. -/
abbrev dS := Cert.ReferenceIdeal.scatter_S500x128_S50000x1_S50000x128_1_0_0_1

/-- On the row axis, update element (n, d') starts at the row number read signed at (n, 0). -/
theorem start0 (idx : IVec Cert.ReferenceIdeal.S50000x1 32) (n : Fin 50000) (d' : Fin 128) :
    dS.start (ix2 n d') idx 0 = (idx (ix2 n (0 : Fin 1))).toInt := by
  have hmem : (0 : Fin 2) ∈ dS.scatterDimsToOperandDims := List.mem_singleton.mpr rfl
  have hsi : dS.siIdx (ix2 n d') ⟨List.idxOf (0 : Fin 2) dS.scatterDimsToOperandDims,
      List.idxOf_lt_length_iff.2 hmem⟩ = ix2 n (0 : Fin 1) := by
    funext b; refine Fin.ext ?_
    match b with
    | ⟨0, _⟩ => rfl
    | ⟨1, _⟩ => rfl
  unfold ScatterDims.start
  rw [dif_pos hmem, hsi]

/-- On the column axis the start is 0 … -/
theorem start1 (idx : IVec Cert.ReferenceIdeal.S50000x1 32) (n : Fin 50000) (d' : Fin 128) :
    dS.start (ix2 n d') idx 1 = 0 := rfl

/-- … the window coordinate is 0 on the row axis … -/
theorem win0 (n : Fin 50000) (d' : Fin 128) : dS.window (ix2 n d') 0 = 0 := rfl

/-- … and the update's own column on the column axis. -/
theorem win1 (n : Fin 50000) (d' : Fin 128) : dS.window (ix2 n d') 1 = d'.val := rfl

/-- Update element (n, d') lands on operand element (g, d) exactly when the row number at (n, 0), read signed, is g
    and the columns agree; a row number that is negative or at least 500 lands nowhere. -/
theorem resultIdx_iff (idx : IVec Cert.ReferenceIdeal.S50000x1 32) (n : Fin 50000) (d' d : Fin 128) (g : Fin 500) :
    dS.resultIdx? (ix2 n d') idx = some (ix2 g d) ↔ (idx (ix2 n (0 : Fin 1))).toInt = (g.val : Int) ∧ d' = d := by
  have h0 := start0 idx n d'
  have h1 := start1 idx n d'
  have w0 := win0 n d'
  have w1 := win1 n d'
  have hg := g.isLt
  have hd := d.isLt
  have hd' := d'.isLt
  unfold ScatterDims.resultIdx?
  split
  · next h =>
    rw [Option.some.injEq]
    constructor
    · intro hf
      have e0 := congrArg (fun f => (f 0).val) hf
      have e1 := congrArg (fun f => (f 1).val) hf
      change (dS.start (ix2 n d') idx 0 + (dS.window (ix2 n d') 0 : Nat)).toNat = g.val at e0
      change (dS.start (ix2 n d') idx 1 + (dS.window (ix2 n d') 1 : Nat)).toNat = d.val at e1
      have hp := (h 0).1
      rw [h0, w0] at e0 hp
      rw [h1, w1] at e1
      exact ⟨by omega, Fin.ext (by omega)⟩
    · rintro ⟨hv, rfl⟩
      funext a
      refine Fin.ext ?_
      match a with
      | ⟨0, _⟩ =>
        show (dS.start (ix2 n d') idx 0 + (dS.window (ix2 n d') 0 : Nat)).toNat = g.val
        rw [h0, w0, hv]; omega
      | ⟨1, _⟩ =>
        show (dS.start (ix2 n d') idx 1 + (dS.window (ix2 n d') 1 : Nat)).toNat = d'.val
        rw [h1, w1]; omega
  · next h =>
    constructor
    · intro hf; exact absurd hf (by simp)
    · rintro ⟨hv, rfl⟩
      exfalso; apply h
      intro a
      match a with
      | ⟨0, _⟩ =>
        show 0 ≤ dS.start (ix2 n d') idx 0 + (dS.window (ix2 n d') 0 : Nat) ∧ dS.start (ix2 n d') idx 0 + (dS.window (ix2 n d') 0 : Nat) < (500 : Nat)
        rw [h0, w0, hv]; omega
      | ⟨1, _⟩ =>
        show 0 ≤ dS.start (ix2 n d') idx 1 + (dS.window (ix2 n d') 1 : Nat) ∧ dS.start (ix2 n d') idx 1 + (dS.window (ix2 n d') 1 : Nat) < (128 : Nat)
        rw [h1, w1]; omega

/-- The membership matrix read at (n, q): 1 when node n's graph id is the word q, else 0. -/
theorem onehot_apply (gid : (⟨S50000, .i32⟩ : BufTy).Contents (Elt Ideal)) (n : Fin 50000) (q : Fin 512) :
    (onehotK (F := Ideal) gid) (ix2 n q) = if gid (ix1 n) = BitVec.ofNat 32 q.val then (1 : EReal) else 0 := by
  have hij : (ix2 n q : S50000x512.Idx) = ij n q := by
    funext a; match a with | ⟨0, _⟩ => rfl | ⟨1, _⟩ => rfl
  have hof : (Shape.Idx.ofFin n : S50000.Idx) = ix1 n := by
    funext a; match a with | ⟨0, _⟩ => rfl
  have hA : broadcastInDim S50000x512 ![0, 1] bcast_S50000x1_S50000x512_0_1
      (broadcastInDim S50000x1 ![0] bcast_S50000_S50000x1_0 gid) (ix2 n q) = gid (ix1 n) := by
    rw [hij, ← hof]; exact bcast_rows _ _ gid n q
  have hB : broadcastInDim S50000x512 ![0, 1] bcast_S1x512_S50000x512_0_1 (iotaInDim S1x512 32 1) (ix2 n q)
      = BitVec.ofNat 32 q.val := by
    rw [hij, bcast_of_row]; rfl
  show FloatOps.uitofp (F := Ideal) .bf16 (IntOp.cmpi .eq
    (broadcastInDim S50000x512 ![0, 1] bcast_S50000x1_S50000x512_0_1
      (broadcastInDim S50000x1 ![0] bcast_S50000_S50000x1_0 gid) (ix2 n q))
    (broadcastInDim S50000x512 ![0, 1] bcast_S1x512_S50000x512_0_1 (iotaInDim S1x512 32 1) (ix2 n q))) = _
  rw [hA, hB]
  by_cases h : gid (ix1 n) = BitVec.ofNat 32 q.val
  · rw [if_pos h, cmpi_eq_iff.mpr h]
    show (((1#1 : BitVec 1).toNat : ℝ) : EReal) = 1
    simp
  · rw [if_neg h, eq_zero_of_ne_one (fun hc => h (cmpi_eq_iff.mp hc))]
    show (((0#1 : BitVec 1).toNat : ℝ) : EReal) = 0
    simp

/-- A 32-bit word is the small natural g exactly when its signed reading is g. -/
theorem eq_ofNat_iff_toInt (b : BitVec 32) (g : ℕ) (hg : g < 2 ^ 31) : b = BitVec.ofNat 32 g ↔ b.toInt = (g : Int) := by
  constructor
  · rintro rfl; exact toInt_ofNat_small g hg
  · intro h; exact BitVec.eq_of_toInt_eq (h.trans (toInt_ofNat_small g hg).symm)

/-- Row g, column d of the kernel's product of the membership matrix with an array: the sum of the array's column d over
    the nodes whose id reads g. -/
theorem onehot_sum (x : (⟨S50000x128, .f32⟩ : BufTy).Contents (Elt Ideal)) (gid : (⟨S50000, .i32⟩ : BufTy).Contents (Elt Ideal))
    (g : Fin 500) (d : Fin 128) :
    (∑ n : Fin 50000, (onehotK (F := Ideal) gid) (ix2 n (Fin.castLE (by decide) g)) * x (ix2 n d))
      = ∑ n : Fin 50000, if (gid (ix1 n)).toInt = (g.val : Int) then x (ix2 n d) else 0 := by
  refine Finset.sum_congr rfl fun n _ => ?_
  have hg := g.isLt
  rw [onehot_apply]
  show (if gid (ix1 n) = BitVec.ofNat 32 g.val then (1 : EReal) else 0) * x (ix2 n d) = _
  by_cases hv : (gid (ix1 n)).toInt = (g.val : Int)
  · rw [if_pos hv, if_pos ((eq_ofNat_iff_toInt _ _ (by omega)).mpr hv), one_mul]
  · rw [if_neg hv, if_neg (fun hc => hv ((eq_ofNat_iff_toInt _ _ (by omega)).mp hc)), zero_mul]

/-- Row g, column d of the reference's scatter-add from zero: the same sum. -/
theorem pool_apply (x : (⟨S50000x128, .f32⟩ : BufTy).Contents (Elt Ideal)) (gid : (⟨S50000, .i32⟩ : BufTy).Contents (Elt Ideal))
    (g : Fin 500) (d : Fin 128) :
    Cert.ReferenceIdeal.Sh.pool (F := Ideal) x gid (ix2 g d)
      = ∑ n : Fin 50000, if (gid (ix1 n)).toInt = (g.val : Int) then x (ix2 n d) else 0 := by
  have hz : (broadcastInDim Cert.ReferenceIdeal.S500x128 ![] Cert.ReferenceIdeal.Gen.bcast_S_S500x128
      (constant (F := Ideal) Cert.ReferenceIdeal.S_ .f32 0x00000000#32)) (ix2 g d) = (0 : EReal) := by
    show Ideal.ofBits .f32 0x00000000#32 = 0
    simp [Ideal.ofBits, Ideal.ieee]
  have hidx : ∀ n : Fin 50000, (broadcastInDim Cert.ReferenceIdeal.S50000x1 ![0] Cert.ReferenceIdeal.Gen.bcast_S50000_S50000x1_0 gid)
      (ix2 n (0 : Fin 1)) = gid (ix1 n) := by
    intro n
    have hP : (ix2 n (0 : Fin 1) : Cert.ReferenceIdeal.S50000x1.Idx) = ixP n := by
      funext a; match a with | ⟨0, _⟩ => rfl | ⟨1, _⟩ => rfl
    have hof : (Shape.Idx.ofFin n : S50000.Idx) = ix1 n := by
      funext a; match a with | ⟨0, _⟩ => rfl
    rw [hP, ← hof]; exact bcast_col1 _ gid n
  show (broadcastInDim Cert.ReferenceIdeal.S500x128 ![] Cert.ReferenceIdeal.Gen.bcast_S_S500x128
      (constant (F := Ideal) Cert.ReferenceIdeal.S_ .f32 0x00000000#32)) (ix2 g d)
    + ∑ j ∈ Finset.univ.filter (fun j => dS.resultIdx? j
        (broadcastInDim Cert.ReferenceIdeal.S50000x1 ![0] Cert.ReferenceIdeal.Gen.bcast_S50000_S50000x1_0 gid) = some (ix2 g d)), x j = _
  rw [hz, zero_add, Finset.sum_filter, sum_idx2]
  refine Finset.sum_congr rfl fun n _ => ?_
  by_cases hv : (gid (ix1 n)).toInt = (g.val : Int)
  · rw [if_pos hv, Finset.sum_eq_single d]
    · exact if_pos ((resultIdx_iff _ n d d g).mpr ⟨by rw [hidx]; exact hv, rfl⟩)
    · intro b _ hb
      exact if_neg (fun hc => hb ((resultIdx_iff _ n b d g).mp hc).2)
    · intro h; exact absurd (Finset.mem_univ d) h
  · rw [if_neg hv]
    refine Finset.sum_eq_zero fun b _ => ?_
    exact if_neg (fun hc => hv (by have := ((resultIdx_iff _ n b d g).mp hc).1; rwa [hidx] at this))

end PoolMath

/-- Summing the rows of an array against the membership matrix is the reference's per-graph scatter-add: both are, at
    (g, d), the sum of column d over the nodes whose id reads g; an id outside [0, 500) matches no column below 500 on
    one side and is dropped on the other. -/
theorem onehot_sum_eq_pool (x : (⟨S50000x128, .f32⟩ : BufTy).Contents (Elt Ideal)) (gid : (⟨S50000, .i32⟩ : BufTy).Contents (Elt Ideal))
    (g : Fin 500) (d : Fin 128) :
    (∑ n : Fin 50000, (onehotK (F := Ideal) gid) (ValueIdx.ix2 n (Fin.castLE (by decide) g)) * x (ValueIdx.ix2 n d))
      = Cert.ReferenceIdeal.Sh.pool (F := Ideal) x gid (ValueIdx.ix2 g d) := by
  rw [PoolMath.onehot_sum, PoolMath.pool_apply]

end Cert.KernelIdeal.Rg

end
-- ==== Proof.KI.Value.lean ====
/-
  The idealized kernel program's two results as functions of its arguments: layer by layer, the array each region
  leaves is the reference's function of what the layer is entered with — the perceptron region's output is
  relu(relu(x·W1 + b1)·W2 + b2) of the aggregated features, the normalisation region's first output the batch
  normalisation of that by its own column statistics, and the first 500 rows of its second output the per-graph sums
  of the normalised rows (the one-hot product summed over all nodes is the scatter-add over graph ids). The host
  stretches between the regions compute the same aggregation, statistics and slices the reference computes.
-/
import proofs.«409766_j3350074491205_1_alg».proof.Proof.KI.Launch
import proofs.«409766_j3350074491205_1_alg».proof.Proof.KI.HostVals
import proofs.«409766_j3350074491205_1_alg».proof.Proof.KI.HostVals2
import proofs.«409766_j3350074491205_1_alg».proof.Proof.KI.MlpVal0
import proofs.«409766_j3350074491205_1_alg».proof.Proof.KI.MlpVal2
import proofs.«409766_j3350074491205_1_alg».proof.Proof.KI.MlpVal4
import proofs.«409766_j3350074491205_1_alg».proof.Proof.KI.BnVal1
import proofs.«409766_j3350074491205_1_alg».proof.Proof.KI.BnVal3
import proofs.«409766_j3350074491205_1_alg».proof.Proof.KI.BnVal5
import proofs.«409766_j3350074491205_1_alg».proof.Proof.KI.PoolMath
import proofs.«409766_j3350074491205_1_alg».proof.Proof.Ref.Defs
import Idealize.ShloMosaic.Lib.Pipeline.Value
import Idealize.ShloMosaic.Lib.ValueIdx

set_option maxRecDepth 16384

noncomputable section

namespace Cert.KernelIdeal.Rg

open Cert.KernelIdeal Cert.KernelIdeal.Gen
open Idealize.ShloMosaic Idealize.ShloMosaic.TcCoe Idealize.SL.Sem

variable (m : (ℓ : Loc nD τ sig) → Buf (Elt Ideal) ℓ) (c : Dev nD)

/-- An argument array's launch contents on core `c`. -/
abbrev ar (r : Ref sig .tc) : Buf (Elt Ideal) ((c : Thread nD τ).loc r) := m ((c : Thread nD τ).loc r)

/-- The first 500 of the 512 pooled rows are the per-graph sums: the one-hot product over all nodes is the scatter-add. -/
theorem pooled_eq (P : (⟨S512x128, .f32⟩ : BufTy).Contents (Elt Ideal)) (x : (⟨S50000x128, .f32⟩ : BufTy).Contents (Elt Ideal))
    (oh : (⟨S50000x512, .bf16⟩ : BufTy).Contents (Elt Ideal)) (gid : (⟨S50000, .i32⟩ : BufTy).Contents (Elt Ideal))
    (hoh : oh = onehotK (F := Ideal) gid)
    (hP : ∀ (g : Fin 512) (d : Fin 128), P (ValueIdx.ix2 g d) = ∑ n : Fin 50000, oh (ValueIdx.ix2 n g) * x (ValueIdx.ix2 n d)) :
    extractStridedSlice S500x128 ![0, 0] P slices_S512x128_S500x128_0_0 = Cert.ReferenceIdeal.Sh.pool (F := Ideal) x gid := by
  funext i
  obtain ⟨g, d, rfl⟩ : ∃ (g : Fin 500) (d : Fin 128), i = ValueIdx.ix2 g d := ⟨i 0, i 1, ValueIdx.eq_ix2 i⟩
  rw [← onehot_sum_eq_pool x gid g d, ← hoh, ← hP]
  unfold extractStridedSlice
  congr 1
  funext a
  match a with
  | ⟨0, _⟩ => exact Fin.ext (by simp)
  | ⟨1, _⟩ => exact Fin.ext (by simp)

/-! ## Layer 1 -/

/-- The perceptron region's output array. -/
theorem hm1_eq : outsK m 3 main_v20 c
    = Cert.ReferenceIdeal.Sh.mlp (F := Ideal) (Cert.ReferenceIdeal.Sh.agg (ar m c main_arg0) (ar m c main_arg1) (ar m c main_arg2)) (Cert.ReferenceIdeal.Sh.mat0 (ar m c main_arg4)) (Cert.ReferenceIdeal.Sh.row0 (ar m c main_arg5)) (Cert.ReferenceIdeal.Sh.mat0 (ar m c main_arg6)) (Cert.ReferenceIdeal.Sh.row0 (ar m c main_arg7)) := by
  rw [outsK_3, mlp0_arr]
  show Cert.ReferenceIdeal.Sh.mlp (F := Ideal) (V2 m c main_v11) (V2 m c main_v13) (V2 m c main_v15) (V2 m c main_v17) (V2 m c main_v19) = _
  rw [V2_v11 m c, V2_v13 m c, V2_v15 m c, V2_v17 m c, V2_v19 m c]

/-- What the normalisation region is entered with, and its first output: the layer's output. -/
theorem bnarg1_eq : Cert.ReferenceIdeal.Sh.bn (F := Ideal) (V4 m (outsK m) c main_v20) (V4 m (outsK m) c main_v23) (V4 m (outsK m) c main_v33) (V4 m (outsK m) c main_v35) (V4 m (outsK m) c main_v37)
    = Cert.ReferenceIdeal.Sh.L1 (F := Ideal) (ar m c main_arg0) (ar m c main_arg1) (ar m c main_arg2) (ar m c main_arg4) (ar m c main_arg5) (ar m c main_arg6) (ar m c main_arg7) (ar m c main_arg8) (ar m c main_arg9) := by
  rw [V4_v20 m (outsK m) c, V4_v23 m (outsK m) c, V4_v33 m (outsK m) c, V4_v35 m (outsK m) c, V4_v37 m (outsK m) c, hm1_eq m c]
  rfl

theorem h1_eq : outsK m 5 main_v38_0 c = Cert.ReferenceIdeal.Sh.L1 (F := Ideal) (ar m c main_arg0) (ar m c main_arg1) (ar m c main_arg2) (ar m c main_arg4) (ar m c main_arg5) (ar m c main_arg6) (ar m c main_arg7) (ar m c main_arg8) (ar m c main_arg9) := by
  rw [outsK_5_0, bn1_arr]
  exact bnarg1_eq m c

/-- Its second output's first 500 rows: the layer's per-graph sums. -/
theorem p1_eq : extractStridedSlice S500x128 ![0, 0] (outsK m 5 main_v38_1 c) slices_S512x128_S500x128_0_0
    = Cert.ReferenceIdeal.Sh.pool (F := Ideal) (Cert.ReferenceIdeal.Sh.L1 (F := Ideal) (ar m c main_arg0) (ar m c main_arg1) (ar m c main_arg2) (ar m c main_arg4) (ar m c main_arg5) (ar m c main_arg6) (ar m c main_arg7) (ar m c main_arg8) (ar m c main_arg9)) (ar m c main_arg3) := by
  refine pooled_eq _ _ (V4 m (outsK m) c main_v0) _ (V4_v0 m (outsK m) c) (fun g d => ?_)
  have h := pool1_sum (ent1 m) c g d
  rw [← outsK_5_1 m c] at h
  have hb : bn1_val (ent1 m) c = Cert.ReferenceIdeal.Sh.L1 (F := Ideal) (ar m c main_arg0) (ar m c main_arg1) (ar m c main_arg2) (ar m c main_arg4) (ar m c main_arg5) (ar m c main_arg6) (ar m c main_arg7) (ar m c main_arg8) (ar m c main_arg9) := bnarg1_eq m c
  refine h.trans ?_
  rw [hb]

/-! ## Layer 2 -/

/-- The perceptron region's output array. -/
theorem hm2_eq : outsK m 7 main_v59 c
    = Cert.ReferenceIdeal.Sh.mlp (F := Ideal) (Cert.ReferenceIdeal.Sh.agg (Cert.ReferenceIdeal.Sh.L1 (ar m c main_arg0) (ar m c main_arg1) (ar m c main_arg2) (ar m c main_arg4) (ar m c main_arg5) (ar m c main_arg6) (ar m c main_arg7) (ar m c main_arg8) (ar m c main_arg9)) (ar m c main_arg1) (ar m c main_arg2)) (Cert.ReferenceIdeal.Sh.mat1 (ar m c main_arg4)) (Cert.ReferenceIdeal.Sh.row1 (ar m c main_arg5)) (Cert.ReferenceIdeal.Sh.mat1 (ar m c main_arg6)) (Cert.ReferenceIdeal.Sh.row1 (ar m c main_arg7)) := by
  rw [outsK_7, mlp2_arr]
  show Cert.ReferenceIdeal.Sh.mlp (F := Ideal) (V6 m (outsK m) c main_v50) (V6 m (outsK m) c main_v52) (V6 m (outsK m) c main_v54) (V6 m (outsK m) c main_v56) (V6 m (outsK m) c main_v58) = _
  rw [V6_v50 m (outsK m) c, V6_v52 m (outsK m) c, V6_v54 m (outsK m) c, V6_v56 m (outsK m) c, V6_v58 m (outsK m) c, h1_eq m c]

/-- What the normalisation region is entered with, and its first output: the layer's output. -/
theorem bnarg2_eq : Cert.ReferenceIdeal.Sh.bn (F := Ideal) (V8 m (outsK m) c main_v59) (V8 m (outsK m) c main_v62) (V8 m (outsK m) c main_v72) (V8 m (outsK m) c main_v74) (V8 m (outsK m) c main_v76)
    = Cert.ReferenceIdeal.Sh.L2 (F := Ideal) (ar m c main_arg0) (ar m c main_arg1) (ar m c main_arg2) (ar m c main_arg4) (ar m c main_arg5) (ar m c main_arg6) (ar m c main_arg7) (ar m c main_arg8) (ar m c main_arg9) := by
  rw [V8_v59 m (outsK m) c, V8_v62 m (outsK m) c, V8_v72 m (outsK m) c, V8_v74 m (outsK m) c, V8_v76 m (outsK m) c, hm2_eq m c]
  rfl

theorem h2_eq : outsK m 9 main_v77_0 c = Cert.ReferenceIdeal.Sh.L2 (F := Ideal) (ar m c main_arg0) (ar m c main_arg1) (ar m c main_arg2) (ar m c main_arg4) (ar m c main_arg5) (ar m c main_arg6) (ar m c main_arg7) (ar m c main_arg8) (ar m c main_arg9) := by
  rw [outsK_9_0, bn3_arr]
  exact bnarg2_eq m c

/-- Its second output's first 500 rows: the layer's per-graph sums. -/
theorem p2_eq : extractStridedSlice S500x128 ![0, 0] (outsK m 9 main_v77_1 c) slices_S512x128_S500x128_0_0
    = Cert.ReferenceIdeal.Sh.pool (F := Ideal) (Cert.ReferenceIdeal.Sh.L2 (F := Ideal) (ar m c main_arg0) (ar m c main_arg1) (ar m c main_arg2) (ar m c main_arg4) (ar m c main_arg5) (ar m c main_arg6) (ar m c main_arg7) (ar m c main_arg8) (ar m c main_arg9)) (ar m c main_arg3) := by
  refine pooled_eq _ _ (V8 m (outsK m) c main_v0) _ (V8_v0 m (outsK m) c) (fun g d => ?_)
  have h := pool3_sum (ent3 m) c g d
  rw [← outsK_9_1 m c] at h
  have hb : bn3_val (ent3 m) c = Cert.ReferenceIdeal.Sh.L2 (F := Ideal) (ar m c main_arg0) (ar m c main_arg1) (ar m c main_arg2) (ar m c main_arg4) (ar m c main_arg5) (ar m c main_arg6) (ar m c main_arg7) (ar m c main_arg8) (ar m c main_arg9) := bnarg2_eq m c
  refine h.trans ?_
  rw [hb]

/-! ## Layer 3 -/

/-- The perceptron region's output array. -/
theorem hm3_eq : outsK m 11 main_v98 c
    = Cert.ReferenceIdeal.Sh.mlp (F := Ideal) (Cert.ReferenceIdeal.Sh.agg (Cert.ReferenceIdeal.Sh.L2 (ar m c main_arg0) (ar m c main_arg1) (ar m c main_arg2) (ar m c main_arg4) (ar m c main_arg5) (ar m c main_arg6) (ar m c main_arg7) (ar m c main_arg8) (ar m c main_arg9)) (ar m c main_arg1) (ar m c main_arg2)) (Cert.ReferenceIdeal.Sh.mat2 (ar m c main_arg4)) (Cert.ReferenceIdeal.Sh.row2 (ar m c main_arg5)) (Cert.ReferenceIdeal.Sh.mat2 (ar m c main_arg6)) (Cert.ReferenceIdeal.Sh.row2 (ar m c main_arg7)) := by
  rw [outsK_11, mlp4_arr]
  show Cert.ReferenceIdeal.Sh.mlp (F := Ideal) (V10 m (outsK m) c main_v89) (V10 m (outsK m) c main_v91) (V10 m (outsK m) c main_v93) (V10 m (outsK m) c main_v95) (V10 m (outsK m) c main_v97) = _
  rw [V10_v89 m (outsK m) c, V10_v91 m (outsK m) c, V10_v93 m (outsK m) c, V10_v95 m (outsK m) c, V10_v97 m (outsK m) c, h2_eq m c]

/-- What the normalisation region is entered with, and its first output: the layer's output. -/
theorem bnarg3_eq : Cert.ReferenceIdeal.Sh.bn (F := Ideal) (V12 m (outsK m) c main_v98) (V12 m (outsK m) c main_v101) (V12 m (outsK m) c main_v111) (V12 m (outsK m) c main_v113) (V12 m (outsK m) c main_v115)
    = Cert.ReferenceIdeal.Sh.L3 (F := Ideal) (ar m c main_arg0) (ar m c main_arg1) (ar m c main_arg2) (ar m c main_arg4) (ar m c main_arg5) (ar m c main_arg6) (ar m c main_arg7) (ar m c main_arg8) (ar m c main_arg9) := by
  rw [V12_v98 m (outsK m) c, V12_v101 m (outsK m) c, V12_v111 m (outsK m) c, V12_v113 m (outsK m) c, V12_v115 m (outsK m) c, hm3_eq m c]
  rfl

theorem h3_eq : outsK m 13 main_v116_0 c = Cert.ReferenceIdeal.Sh.L3 (F := Ideal) (ar m c main_arg0) (ar m c main_arg1) (ar m c main_arg2) (ar m c main_arg4) (ar m c main_arg5) (ar m c main_arg6) (ar m c main_arg7) (ar m c main_arg8) (ar m c main_arg9) := by
  rw [outsK_13_0, bn5_arr]
  exact bnarg3_eq m c

/-- Its second output's first 500 rows: the layer's per-graph sums. -/
theorem p3_eq : extractStridedSlice S500x128 ![0, 0] (outsK m 13 main_v116_1 c) slices_S512x128_S500x128_0_0
    = Cert.ReferenceIdeal.Sh.pool (F := Ideal) (Cert.ReferenceIdeal.Sh.L3 (F := Ideal) (ar m c main_arg0) (ar m c main_arg1) (ar m c main_arg2) (ar m c main_arg4) (ar m c main_arg5) (ar m c main_arg6) (ar m c main_arg7) (ar m c main_arg8) (ar m c main_arg9)) (ar m c main_arg3) := by
  refine pooled_eq _ _ (V12 m (outsK m) c main_v0) _ (V12_v0 m (outsK m) c) (fun g d => ?_)
  have h := pool5_sum (ent5 m) c g d
  rw [← outsK_13_1 m c] at h
  have hb : bn5_val (ent5 m) c = Cert.ReferenceIdeal.Sh.L3 (F := Ideal) (ar m c main_arg0) (ar m c main_arg1) (ar m c main_arg2) (ar m c main_arg4) (ar m c main_arg5) (ar m c main_arg6) (ar m c main_arg7) (ar m c main_arg8) (ar m c main_arg9) := bnarg3_eq m c
  refine h.trans ?_
  rw [hb]

/-! ## The two results -/

theorem res1_eq : V14 m (outsK m) c main_v119 = Cert.ReferenceIdeal.Sh.out1 (F := Ideal) (ar m c main_arg0) (ar m c main_arg1) (ar m c main_arg2) (ar m c main_arg4) (ar m c main_arg5) (ar m c main_arg6) (ar m c main_arg7) (ar m c main_arg8) (ar m c main_arg9) := by
  rw [V14_v119 m (outsK m) c, h1_eq m c, h2_eq m c, h3_eq m c]
  rfl

theorem res0_eq : V14 m (outsK m) c main_v118 = Cert.ReferenceIdeal.Sh.out0 (F := Ideal) (ar m c main_arg0) (ar m c main_arg1) (ar m c main_arg2) (ar m c main_arg4) (ar m c main_arg5) (ar m c main_arg6) (ar m c main_arg7) (ar m c main_arg8) (ar m c main_arg9) (ar m c main_arg3) := by
  rw [V14_v118 m (outsK m) c, p1_eq m c, p2_eq m c, p3_eq m c]
  rfl

end Cert.KernelIdeal.Rg

end
-- ==== Proof.Ref.RunChunks.lean ====
/-
  The reference's 224 host operations in five consecutive stretches: one per layer (neighbour aggregation,
  perceptron, batch statistics, normalisation: 70 operations each), the three per-graph poolings (12), and the
  two concatenations (2). For each stretch, from ANY contents W of the buffers before it: the value it leaves in
  the buffer the later stretches read, as the named function of what W holds in the buffers the stretch reads,
  and that every buffer outside the stretch's own list of written references keeps its contents.
-/
import proofs.«409766_j3350074491205_1_alg».proof.Proof.Ref.Defs
import Idealize.ShloMosaic.Lib.StableHlo.Run

noncomputable section

namespace Cert.ReferenceIdeal.Sh

open Cert.ReferenceIdeal Cert.ReferenceIdeal.Gen Idealize.ShloMosaic Idealize.ShloMosaic.TcCoe Idealize.SL.Sem Idealize.ShloMosaic.StableHlo

variable {F : FTy → Type} [FloatOps F]

/-! ## The stretches -/

/-- Layer 1: operations 1–70, from the arguments to `main_v57`. -/
abbrev c1 : List (HloOp τ sig (Elt F)) :=
  [ nullary main_c (constantI S_ 32 0#32),
    unary main_c main_v0 (broadcastInDim S1600000 ![] bcast_S_S1600000 : (⟨S_, .i32⟩ : BufTy).Contents (Elt F) → (⟨S1600000, .i32⟩ : BufTy).Contents (Elt F)),
    binary main_arg1 main_v0 main_v1 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 50000#32),
    unary main_c_0 main_v2 (broadcastInDim S1600000 ![] bcast_S_S1600000 : (⟨S_, .i32⟩ : BufTy).Contents (Elt F) → (⟨S1600000, .i32⟩ : BufTy).Contents (Elt F)),
    binary main_arg1 main_v2 main_v3 (addi : (⟨S1600000, .i32⟩ : BufTy).Contents (Elt F) → (⟨S1600000, .i32⟩ : BufTy).Contents (Elt F) → (⟨S1600000, .i32⟩ : BufTy).Contents (Elt F)),
    ternary main_v1 main_v3 main_arg1 main_v4 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v4 main_v5 (broadcastInDim S1600000x1 ![0] bcast_S1600000_S1600000x1_0 : (⟨S1600000, .i32⟩ : BufTy).Contents (Elt F) → (⟨S1600000x1, .i32⟩ : BufTy).Contents (Elt F)),
    binary main_arg0 main_v5 main_v6 ((fun x i => Host.gather gather_S50000x128_S1600000x1_S1600000x128_1_0_n_n_0_1_1128 x i) : (⟨S50000x128, .f32⟩ : BufTy).Contents (Elt F) → (⟨S1600000x1, .i32⟩ : BufTy).Contents (Elt F) → (⟨S1600000x128, .f32⟩ : BufTy).Contents (Elt F)),
    nullary main_cst (constant S_ .f32 0x00000000#32),
    unary main_cst main_v7 (broadcastInDim S50000x128 ![] bcast_S_S50000x128 : (⟨S_, .f32⟩ : BufTy).Contents (Elt F) → (⟨S50000x128, .f32⟩ : BufTy).Contents (Elt F)),
    unary main_arg2 main_v8 (broadcastInDim S1600000x1 ![0] bcast_S1600000_S1600000x1_0 : (⟨S1600000, .i32⟩ : BufTy).Contents (Elt F) → (⟨S1600000x1, .i32⟩ : BufTy).Contents (Elt F)),
    ternary main_v7 main_v8 main_v6 main_v9 ((fun x i u => Host.scatterAdd scatter_S50000x128_S1600000x1_S1600000x128_1_0_0_1 x i u) : (⟨S50000x128, .f32⟩ : BufTy).Contents (Elt F) → (⟨S1600000x1, .i32⟩ : BufTy).Contents (Elt F) → (⟨S1600000x128, .f32⟩ : BufTy).Contents (Elt F) → (⟨S50000x128, .f32⟩ : BufTy).Contents (Elt F)),
    binary main_arg0 main_v9 main_v10 (addf : (⟨S50000x128, .f32⟩ : BufTy).Contents (Elt F) → (⟨S50000x128, .f32⟩ : BufTy).Contents (Elt F) → (⟨S50000x128, .f32⟩ : BufTy).Contents (Elt F)),
    unary main_arg4 main_v11 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v11 main_v12 rfl shapeCasts_S1x128x128_S128x128,
    binary main_v10 main_v12 main_v13 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg5 main_v14 ((extractStridedSlice S1x128 ![0, 0] · slices_S3x128_S1x128_0_0) : (⟨S3x128, .f32⟩ : BufTy).Contents (Elt F) → (⟨S1x128, .f32⟩ : BufTy).Contents (Elt F)),
    reshape main_v14 main_v15 rfl shapeCasts_S1x128_S128,
    unary main_v15 main_v16 (broadcastInDim S1x128 ![1] bcast_S128_S1x128_1 : (⟨S128, .f32⟩ : BufTy).Contents (Elt F) → (⟨S1x128, .f32⟩ : BufTy).Contents (Elt F)),
    unary main_v16 main_v17 (broadcastInDim S50000x128 ![0, 1] bcast_S1x128_S50000x128_0_1 : (⟨S1x128, .f32⟩ : BufTy).Contents (Elt F) → (⟨S50000x128, .f32⟩ : BufTy).Contents (Elt F)),
    binary main_v13 main_v17 main_v18 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x128, .f32⟩) main_call0_v0) (broadcastInDim S50000x128 ![] bcast_S_S50000x128),
    TRef.binary (TRef.of (T := ⟨S50000x128, .f32⟩) main_v18) (TRef.of (T := ⟨S50000x128, .f32⟩) main_call0_v0) (TRef.of (T := ⟨S50000x128, .f32⟩) main_v19) maximumf,
    unary main_arg6 main_v20 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v20 main_v21 rfl shapeCasts_S1x128x128_S128x128,
    binary main_v19 main_v21 main_v22 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg7 main_v23 ((extractStridedSlice S1x128 ![0, 0] · slices_S3x128_S1x128_0_0) : (⟨S3x128, .f32⟩ : BufTy).Contents (Elt F) → (⟨S1x128, .f32⟩ : BufTy).Contents (Elt F)),
    reshape main_v23 main_v24 rfl shapeCasts_S1x128_S128,
    unary main_v24 main_v25 (broadcastInDim S1x128 ![1] bcast_S128_S1x128_1 : (⟨S128, .f32⟩ : BufTy).Contents (Elt F) → (⟨S1x128, .f32⟩ : BufTy).Contents (Elt F)),
    unary main_v25 main_v26 (broadcastInDim S50000x128 ![0, 1] bcast_S1x128_S50000x128_0_1 : (⟨S1x128, .f32⟩ : BufTy).Contents (Elt F) → (⟨S50000x128, .f32⟩ : BufTy).Contents (Elt F)),
    binary main_v22 main_v26 main_v27 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v27) (TRef.of (T := ⟨S50000x128, .f32⟩) main_call1_v0) (TRef.of (T := ⟨S50000x128, .f32⟩) main_v28) maximumf,
    nullary main_cst_1 (constant S_ .f32 0x00000000#32),
    binary main_v28 main_cst_1 main_v29 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_2 (constant S_ .f32 0x47435000#32),
    unary main_cst_2 main_v30 (broadcastInDim S128 ![] bcast_S_S128 : (⟨S_, .f32⟩ : BufTy).Contents (Elt F) → (⟨S128, .f32⟩ : BufTy).Contents (Elt F)),
    binary main_v29 main_v30 main_v31 (Host.divf : (⟨S128, .f32⟩ : BufTy).Contents (Elt F) → (⟨S128, .f32⟩ : BufTy).Contents (Elt F) → (⟨S128, .f32⟩ : BufTy).Contents (Elt F)),
    unary main_v31 main_v32 (broadcastInDim S1x128 ![1] bcast_S128_S1x128_1 : (⟨S128, .f32⟩ : BufTy).Contents (Elt F) → (⟨S1x128, .f32⟩ : BufTy).Contents (Elt F)),
    unary main_v32 main_v33 (broadcastInDim S50000x128 ![0, 1] bcast_S1x128_S50000x128_0_1 : (⟨S1x128, .f32⟩ : BufTy).Contents (Elt F) → (⟨S50000x128, .f32⟩ : BufTy).Contents (Elt F)),
    binary main_v28 main_v33 main_v34 (subf : (⟨S50000x128, .f32⟩ : BufTy).Contents (Elt F) → (⟨S50000x128, .f32⟩ : BufTy).Contents (Elt F) → (⟨S50000x128, .f32⟩ : BufTy).Contents (Elt F)),
    binary main_v34 main_v34 main_v35 (mulf : (⟨S50000x128, .f32⟩ : BufTy).Contents (Elt F) → (⟨S50000x128, .f32⟩ : BufTy).Contents (Elt F) → (⟨S50000x128, .f32⟩ : BufTy).Contents (Elt F)),
    nullary main_cst_3 (constant S_ .f32 0x00000000#32),
    binary main_v35 main_cst_3 main_v36 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_4 (constant S_ .f32 0x47435000#32),
    unary main_cst_4 main_v37 (broadcastInDim S128 ![] bcast_S_S128 : (⟨S_, .f32⟩ : BufTy).Contents (Elt F) → (⟨S128, .f32⟩ : BufTy).Contents (Elt F)),
    binary main_v36 main_v37 main_v38 (Host.divf : (⟨S128, .f32⟩ : BufTy).Contents (Elt F) → (⟨S128, .f32⟩ : BufTy).Contents (Elt F) → (⟨S128, .f32⟩ : BufTy).Contents (Elt F)),
    unary main_arg8 main_v39 ((extractStridedSlice S1x128 ![0, 0] · slices_S3x128_S1x128_0_0) : (⟨S3x128, .f32⟩ : BufTy).Contents (Elt F) → (⟨S1x128, .f32⟩ : BufTy).Contents (Elt F)),
    reshape main_v39 main_v40 rfl shapeCasts_S1x128_S128,
    unary main_v31 main_v41 (broadcastInDim S1x128 ![1] bcast_S128_S1x128_1 : (⟨S128, .f32⟩ : BufTy).Contents (Elt F) → (⟨S1x128, .f32⟩ : BufTy).Contents (Elt F)),
    unary main_v41 main_v42 (broadcastInDim S50000x128 ![0, 1] bcast_S1x128_S50000x128_0_1 : (⟨S1x128, .f32⟩ : BufTy).Contents (Elt F) → (⟨S50000x128, .f32⟩ : BufTy).Contents (Elt F)),
    binary main_v28 main_v42 main_v43 (subf : (⟨S50000x128, .f32⟩ : BufTy).Contents (Elt F) → (⟨S50000x128, .f32⟩ : BufTy).Contents (Elt F) → (⟨S50000x128, .f32⟩ : BufTy).Contents (Elt F)),
    unary main_v40 main_v44 (broadcastInDim S1x128 ![1] bcast_S128_S1x128_1 : (⟨S128, .f32⟩ : BufTy).Contents (Elt F) → (⟨S1x128, .f32⟩ : BufTy).Contents (Elt F)),
    unary main_v44 main_v45 (broadcastInDim S50000x128 ![0, 1] bcast_S1x128_S50000x128_0_1 : (⟨S1x128, .f32⟩ : BufTy).Contents (Elt F) → (⟨S50000x128, .f32⟩ : BufTy).Contents (Elt F)),
    binary main_v45 main_v43 main_v46 (mulf : (⟨S50000x128, .f32⟩ : BufTy).Contents (Elt F) → (⟨S50000x128, .f32⟩ : BufTy).Contents (Elt F) → (⟨S50000x128, .f32⟩ : BufTy).Contents (Elt F)),
    nullary main_cst_5 (constant S_ .f32 0x3727C5AC#32),
    unary main_cst_5 main_v47 (broadcastInDim S128 ![] bcast_S_S128 : (⟨S_, .f32⟩ : BufTy).Contents (Elt F) → (⟨S128, .f32⟩ : BufTy).Contents (Elt F)),
    binary main_v38 main_v47 main_v48 (addf : (⟨S128, .f32⟩ : BufTy).Contents (Elt F) → (⟨S128, .f32⟩ : BufTy).Contents (Elt F) → (⟨S128, .f32⟩ : BufTy).Contents (Elt F)),
    unary main_v48 main_v49 (Host.rsqrt : (⟨S128, .f32⟩ : BufTy).Contents (Elt F) → (⟨S128, .f32⟩ : BufTy).Contents (Elt F)),
    unary main_v49 main_v50 (broadcastInDim S1x128 ![1] bcast_S128_S1x128_1 : (⟨S128, .f32⟩ : BufTy).Contents (Elt F) → (⟨S1x128, .f32⟩ : BufTy).Contents (Elt F)),
    unary main_v50 main_v51 (broadcastInDim S50000x128 ![0, 1] bcast_S1x128_S50000x128_0_1 : (⟨S1x128, .f32⟩ : BufTy).Contents (Elt F) → (⟨S50000x128, .f32⟩ : BufTy).Contents (Elt F)),
    binary main_v46 main_v51 main_v52 (mulf : (⟨S50000x128, .f32⟩ : BufTy).Contents (Elt F) → (⟨S50000x128, .f32⟩ : BufTy).Contents (Elt F) → (⟨S50000x128, .f32⟩ : BufTy).Contents (Elt F)),
    unary main_arg9 main_v53 ((extractStridedSlice S1x128 ![0, 0] · slices_S3x128_S1x128_0_0) : (⟨S3x128, .f32⟩ : BufTy).Contents (Elt F) → (⟨S1x128, .f32⟩ : BufTy).Contents (Elt F)),
    reshape main_v53 main_v54 rfl shapeCasts_S1x128_S128,
    unary main_v54 main_v55 (broadcastInDim S1x128 ![1] bcast_S128_S1x128_1 : (⟨S128, .f32⟩ : BufTy).Contents (Elt F) → (⟨S1x128, .f32⟩ : BufTy).Contents (Elt F)),
    unary main_v55 main_v56 (broadcastInDim S50000x128 ![0, 1] bcast_S1x128_S50000x128_0_1 : (⟨S1x128, .f32⟩ : BufTy).Contents (Elt F) → (⟨S50000x128, .f32⟩ : BufTy).Contents (Elt F)),
    binary main_v52 main_v56 main_v57 (addf : (⟨S50000x128, .f32⟩ : BufTy).Contents (Elt F) → (⟨S50000x128, .f32⟩ : BufTy).Contents (Elt F) → (⟨S50000x128, .f32⟩ : BufTy).Contents (Elt F)) ]

/-- Layer 2: operations 71–140, from `main_v57` to `main_v115`. -/
abbrev c2 : List (HloOp τ sig (Elt F)) :=
  [ nullary main_c_6 (constantI S_ 32 0#32),
    unary main_c_6 main_v58 (broadcastInDim S1600000 ![] bcast_S_S1600000 : (⟨S_, .i32⟩ : BufTy).Contents (Elt F) → (⟨S1600000, .i32⟩ : BufTy).Contents (Elt F)),
    binary main_arg1 main_v58 main_v59 (cmpi .slt : (⟨S1600000, .i32⟩ : BufTy).Contents (Elt F) → (⟨S1600000, .i32⟩ : BufTy).Contents (Elt F) → (⟨S1600000, .i1⟩ : BufTy).Contents (Elt F)),
    nullary main_c_7 (constantI S_ 32 50000#32),
    unary main_c_7 main_v60 (broadcastInDim S1600000 ![] bcast_S_S1600000 : (⟨S_, .i32⟩ : BufTy).Contents (Elt F) → (⟨S1600000, .i32⟩ : BufTy).Contents (Elt F)),
    binary main_arg1 main_v60 main_v61 (addi : (⟨S1600000, .i32⟩ : BufTy).Contents (Elt F) → (⟨S1600000, .i32⟩ : BufTy).Contents (Elt F) → (⟨S1600000, .i32⟩ : BufTy).Contents (Elt F)),
    ternary main_v59 main_v61 main_arg1 main_v62 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v62 main_v63 (broadcastInDim S1600000x1 ![0] bcast_S1600000_S1600000x1_0 : (⟨S1600000, .i32⟩ : BufTy).Contents (Elt F) → (⟨S1600000x1, .i32⟩ : BufTy).Contents (Elt F)),
    binary main_v57 main_v63 main_v64 ((fun x i => Host.gather gather_S50000x128_S1600000x1_S1600000x128_1_0_n_n_0_1_1128 x i) : (⟨S50000x128, .f32⟩ : BufTy).Contents (Elt F) → (⟨S1600000x1, .i32⟩ : BufTy).Contents (Elt F) → (⟨S1600000x128, .f32⟩ : BufTy).Contents (Elt F)),
    nullary main_cst_8 (constant S_ .f32 0x00000000#32),
    unary main_cst_8 main_v65 (broadcastInDim S50000x128 ![] bcast_S_S50000x128 : (⟨S_, .f32⟩ : BufTy).Contents (Elt F) → (⟨S50000x128, .f32⟩ : BufTy).Contents (Elt F)),
    unary main_arg2 main_v66 (broadcastInDim S1600000x1 ![0] bcast_S1600000_S1600000x1_0 : (⟨S1600000, .i32⟩ : BufTy).Contents (Elt F) → (⟨S1600000x1, .i32⟩ : BufTy).Contents (Elt F)),
    ternary main_v65 main_v66 main_v64 main_v67 ((fun x i u => Host.scatterAdd scatter_S50000x128_S1600000x1_S1600000x128_1_0_0_1 x i u) : (⟨S50000x128, .f32⟩ : BufTy).Contents (Elt F) → (⟨S1600000x1, .i32⟩ : BufTy).Contents (Elt F) → (⟨S1600000x128, .f32⟩ : BufTy).Contents (Elt F) → (⟨S50000x128, .f32⟩ : BufTy).Contents (Elt F)),
    binary main_v57 main_v67 main_v68 (addf : (⟨S50000x128, .f32⟩ : BufTy).Contents (Elt F) → (⟨S50000x128, .f32⟩ : BufTy).Contents (Elt F) → (⟨S50000x128, .f32⟩ : BufTy).Contents (Elt F)),
    unary main_arg4 main_v69 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v69 main_v70 rfl shapeCasts_S1x128x128_S128x128,
    binary main_v68 main_v70 main_v71 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg5 main_v72 ((extractStridedSlice S1x128 ![1, 0] · slices_S3x128_S1x128_1_0) : (⟨S3x128, .f32⟩ : BufTy).Contents (Elt F) → (⟨S1x128, .f32⟩ : BufTy).Contents (Elt F)),
    reshape main_v72 main_v73 rfl shapeCasts_S1x128_S128,
    unary main_v73 main_v74 (broadcastInDim S1x128 ![1] bcast_S128_S1x128_1 : (⟨S128, .f32⟩ : BufTy).Contents (Elt F) → (⟨S1x128, .f32⟩ : BufTy).Contents (Elt F)),
    unary main_v74 main_v75 (broadcastInDim S50000x128 ![0, 1] bcast_S1x128_S50000x128_0_1 : (⟨S1x128, .f32⟩ : BufTy).Contents (Elt F) → (⟨S50000x128, .f32⟩ : BufTy).Contents (Elt F)),
    binary main_v71 main_v75 main_v76 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x128, .f32⟩) main_call2_v0) (broadcastInDim S50000x128 ![] bcast_S_S50000x128),
    TRef.binary (TRef.of (T := ⟨S50000x128, .f32⟩) main_v76) (TRef.of (T := ⟨S50000x128, .f32⟩) main_call2_v0) (TRef.of (T := ⟨S50000x128, .f32⟩) main_v77) maximumf,
    unary main_arg6 main_v78 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v78 main_v79 rfl shapeCasts_S1x128x128_S128x128,
    binary main_v77 main_v79 main_v80 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg7 main_v81 ((extractStridedSlice S1x128 ![1, 0] · slices_S3x128_S1x128_1_0) : (⟨S3x128, .f32⟩ : BufTy).Contents (Elt F) → (⟨S1x128, .f32⟩ : BufTy).Contents (Elt F)),
    reshape main_v81 main_v82 rfl shapeCasts_S1x128_S128,
    unary main_v82 main_v83 (broadcastInDim S1x128 ![1] bcast_S128_S1x128_1 : (⟨S128, .f32⟩ : BufTy).Contents (Elt F) → (⟨S1x128, .f32⟩ : BufTy).Contents (Elt F)),
    unary main_v83 main_v84 (broadcastInDim S50000x128 ![0, 1] bcast_S1x128_S50000x128_0_1 : (⟨S1x128, .f32⟩ : BufTy).Contents (Elt F) → (⟨S50000x128, .f32⟩ : BufTy).Contents (Elt F)),
    binary main_v80 main_v84 main_v85 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x128, .f32⟩) main_call3_v0) (broadcastInDim S50000x128 ![] bcast_S_S50000x128),
    TRef.binary (TRef.of (T := ⟨S50000x128, .f32⟩) main_v85) (TRef.of (T := ⟨S50000x128, .f32⟩) main_call3_v0) (TRef.of (T := ⟨S50000x128, .f32⟩) main_v86) maximumf,
    nullary main_cst_9 (constant S_ .f32 0x00000000#32),
    binary main_v86 main_cst_9 main_v87 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_10 (constant S_ .f32 0x47435000#32),
    unary main_cst_10 main_v88 (broadcastInDim S128 ![] bcast_S_S128 : (⟨S_, .f32⟩ : BufTy).Contents (Elt F) → (⟨S128, .f32⟩ : BufTy).Contents (Elt F)),
    binary main_v87 main_v88 main_v89 (Host.divf : (⟨S128, .f32⟩ : BufTy).Contents (Elt F) → (⟨S128, .f32⟩ : BufTy).Contents (Elt F) → (⟨S128, .f32⟩ : BufTy).Contents (Elt F)),
    unary main_v89 main_v90 (broadcastInDim S1x128 ![1] bcast_S128_S1x128_1 : (⟨S128, .f32⟩ : BufTy).Contents (Elt F) → (⟨S1x128, .f32⟩ : BufTy).Contents (Elt F)),
    unary main_v90 main_v91 (broadcastInDim S50000x128 ![0, 1] bcast_S1x128_S50000x128_0_1 : (⟨S1x128, .f32⟩ : BufTy).Contents (Elt F) → (⟨S50000x128, .f32⟩ : BufTy).Contents (Elt F)),
    binary main_v86 main_v91 main_v92 (subf : (⟨S50000x128, .f32⟩ : BufTy).Contents (Elt F) → (⟨S50000x128, .f32⟩ : BufTy).Contents (Elt F) → (⟨S50000x128, .f32⟩ : BufTy).Contents (Elt F)),
    binary main_v92 main_v92 main_v93 (mulf : (⟨S50000x128, .f32⟩ : BufTy).Contents (Elt F) → (⟨S50000x128, .f32⟩ : BufTy).Contents (Elt F) → (⟨S50000x128, .f32⟩ : BufTy).Contents (Elt F)),
    nullary main_cst_11 (constant S_ .f32 0x00000000#32),
    binary main_v93 main_cst_11 main_v94 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_12 (constant S_ .f32 0x47435000#32),
    unary main_cst_12 main_v95 (broadcastInDim S128 ![] bcast_S_S128 : (⟨S_, .f32⟩ : BufTy).Contents (Elt F) → (⟨S128, .f32⟩ : BufTy).Contents (Elt F)),
    binary main_v94 main_v95 main_v96 (Host.divf : (⟨S128, .f32⟩ : BufTy).Contents (Elt F) → (⟨S128, .f32⟩ : BufTy).Contents (Elt F) → (⟨S128, .f32⟩ : BufTy).Contents (Elt F)),
    unary main_arg8 main_v97 ((extractStridedSlice S1x128 ![1, 0] · slices_S3x128_S1x128_1_0) : (⟨S3x128, .f32⟩ : BufTy).Contents (Elt F) → (⟨S1x128, .f32⟩ : BufTy).Contents (Elt F)),
    reshape main_v97 main_v98 rfl shapeCasts_S1x128_S128,
    unary main_v89 main_v99 (broadcastInDim S1x128 ![1] bcast_S128_S1x128_1 : (⟨S128, .f32⟩ : BufTy).Contents (Elt F) → (⟨S1x128, .f32⟩ : BufTy).Contents (Elt F)),
    unary main_v99 main_v100 (broadcastInDim S50000x128 ![0, 1] bcast_S1x128_S50000x128_0_1 : (⟨S1x128, .f32⟩ : BufTy).Contents (Elt F) → (⟨S50000x128, .f32⟩ : BufTy).Contents (Elt F)),
    binary main_v86 main_v100 main_v101 (subf : (⟨S50000x128, .f32⟩ : BufTy).Contents (Elt F) → (⟨S50000x128, .f32⟩ : BufTy).Contents (Elt F) → (⟨S50000x128, .f32⟩ : BufTy).Contents (Elt F)),
    unary main_v98 main_v102 (broadcastInDim S1x128 ![1] bcast_S128_S1x128_1 : (⟨S128, .f32⟩ : BufTy).Contents (Elt F) → (⟨S1x128, .f32⟩ : BufTy).Contents (Elt F)),
    unary main_v102 main_v103 (broadcastInDim S50000x128 ![0, 1] bcast_S1x128_S50000x128_0_1 : (⟨S1x128, .f32⟩ : BufTy).Contents (Elt F) → (⟨S50000x128, .f32⟩ : BufTy).Contents (Elt F)),
    binary main_v103 main_v101 main_v104 (mulf : (⟨S50000x128, .f32⟩ : BufTy).Contents (Elt F) → (⟨S50000x128, .f32⟩ : BufTy).Contents (Elt F) → (⟨S50000x128, .f32⟩ : BufTy).Contents (Elt F)),
    nullary main_cst_13 (constant S_ .f32 0x3727C5AC#32),
    unary main_cst_13 main_v105 (broadcastInDim S128 ![] bcast_S_S128 : (⟨S_, .f32⟩ : BufTy).Contents (Elt F) → (⟨S128, .f32⟩ : BufTy).Contents (Elt F)),
    binary main_v96 main_v105 main_v106 (addf : (⟨S128, .f32⟩ : BufTy).Contents (Elt F) → (⟨S128, .f32⟩ : BufTy).Contents (Elt F) → (⟨S128, .f32⟩ : BufTy).Contents (Elt F)),
    unary main_v106 main_v107 (Host.rsqrt : (⟨S128, .f32⟩ : BufTy).Contents (Elt F) → (⟨S128, .f32⟩ : BufTy).Contents (Elt F)),
    unary main_v107 main_v108 (broadcastInDim S1x128 ![1] bcast_S128_S1x128_1 : (⟨S128, .f32⟩ : BufTy).Contents (Elt F) → (⟨S1x128, .f32⟩ : BufTy).Contents (Elt F)),
    unary main_v108 main_v109 (broadcastInDim S50000x128 ![0, 1] bcast_S1x128_S50000x128_0_1 : (⟨S1x128, .f32⟩ : BufTy).Contents (Elt F) → (⟨S50000x128, .f32⟩ : BufTy).Contents (Elt F)),
    binary main_v104 main_v109 main_v110 (mulf : (⟨S50000x128, .f32⟩ : BufTy).Contents (Elt F) → (⟨S50000x128, .f32⟩ : BufTy).Contents (Elt F) → (⟨S50000x128, .f32⟩ : BufTy).Contents (Elt F)),
    unary main_arg9 main_v111 ((extractStridedSlice S1x128 ![1, 0] · slices_S3x128_S1x128_1_0) : (⟨S3x128, .f32⟩ : BufTy).Contents (Elt F) → (⟨S1x128, .f32⟩ : BufTy).Contents (Elt F)),
    reshape main_v111 main_v112 rfl shapeCasts_S1x128_S128,
    unary main_v112 main_v113 (broadcastInDim S1x128 ![1] bcast_S128_S1x128_1 : (⟨S128, .f32⟩ : BufTy).Contents (Elt F) → (⟨S1x128, .f32⟩ : BufTy).Contents (Elt F)),
    unary main_v113 main_v114 (broadcastInDim S50000x128 ![0, 1] bcast_S1x128_S50000x128_0_1 : (⟨S1x128, .f32⟩ : BufTy).Contents (Elt F) → (⟨S50000x128, .f32⟩ : BufTy).Contents (Elt F)),
    binary main_v110 main_v114 main_v115 (addf : (⟨S50000x128, .f32⟩ : BufTy).Contents (Elt F) → (⟨S50000x128, .f32⟩ : BufTy).Contents (Elt F) → (⟨S50000x128, .f32⟩ : BufTy).Contents (Elt F)) ]

/-- Layer 3: operations 141–210, from `main_v115` to `main_v173`. -/
abbrev c3 : List (HloOp τ sig (Elt F)) :=
  [ nullary main_c_14 (constantI S_ 32 0#32),
    unary main_c_14 main_v116 (broadcastInDim S1600000 ![] bcast_S_S1600000 : (⟨S_, .i32⟩ : BufTy).Contents (Elt F) → (⟨S1600000, .i32⟩ : BufTy).Contents (Elt F)),
    binary main_arg1 main_v116 main_v117 (cmpi .slt : (⟨S1600000, .i32⟩ : BufTy).Contents (Elt F) → (⟨S1600000, .i32⟩ : BufTy).Contents (Elt F) → (⟨S1600000, .i1⟩ : BufTy).Contents (Elt F)),
    nullary main_c_15 (constantI S_ 32 50000#32),
    unary main_c_15 main_v118 (broadcastInDim S1600000 ![] bcast_S_S1600000 : (⟨S_, .i32⟩ : BufTy).Contents (Elt F) → (⟨S1600000, .i32⟩ : BufTy).Contents (Elt F)),
    binary main_arg1 main_v118 main_v119 (addi : (⟨S1600000, .i32⟩ : BufTy).Contents (Elt F) → (⟨S1600000, .i32⟩ : BufTy).Contents (Elt F) → (⟨S1600000, .i32⟩ : BufTy).Contents (Elt F)),
    ternary main_v117 main_v119 main_arg1 main_v120 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v120 main_v121 (broadcastInDim S1600000x1 ![0] bcast_S1600000_S1600000x1_0 : (⟨S1600000, .i32⟩ : BufTy).Contents (Elt F) → (⟨S1600000x1, .i32⟩ : BufTy).Contents (Elt F)),
    binary main_v115 main_v121 main_v122 ((fun x i => Host.gather gather_S50000x128_S1600000x1_S1600000x128_1_0_n_n_0_1_1128 x i) : (⟨S50000x128, .f32⟩ : BufTy).Contents (Elt F) → (⟨S1600000x1, .i32⟩ : BufTy).Contents (Elt F) → (⟨S1600000x128, .f32⟩ : BufTy).Contents (Elt F)),
    nullary main_cst_16 (constant S_ .f32 0x00000000#32),
    unary main_cst_16 main_v123 (broadcastInDim S50000x128 ![] bcast_S_S50000x128 : (⟨S_, .f32⟩ : BufTy).Contents (Elt F) → (⟨S50000x128, .f32⟩ : BufTy).Contents (Elt F)),
    unary main_arg2 main_v124 (broadcastInDim S1600000x1 ![0] bcast_S1600000_S1600000x1_0 : (⟨S1600000, .i32⟩ : BufTy).Contents (Elt F) → (⟨S1600000x1, .i32⟩ : BufTy).Contents (Elt F)),
    ternary main_v123 main_v124 main_v122 main_v125 ((fun x i u => Host.scatterAdd scatter_S50000x128_S1600000x1_S1600000x128_1_0_0_1 x i u) : (⟨S50000x128, .f32⟩ : BufTy).Contents (Elt F) → (⟨S1600000x1, .i32⟩ : BufTy).Contents (Elt F) → (⟨S1600000x128, .f32⟩ : BufTy).Contents (Elt F) → (⟨S50000x128, .f32⟩ : BufTy).Contents (Elt F)),
    binary main_v115 main_v125 main_v126 (addf : (⟨S50000x128, .f32⟩ : BufTy).Contents (Elt F) → (⟨S50000x128, .f32⟩ : BufTy).Contents (Elt F) → (⟨S50000x128, .f32⟩ : BufTy).Contents (Elt F)),
    unary main_arg4 main_v127 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v127 main_v128 rfl shapeCasts_S1x128x128_S128x128,
    binary main_v126 main_v128 main_v129 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg5 main_v130 ((extractStridedSlice S1x128 ![2, 0] · slices_S3x128_S1x128_2_0) : (⟨S3x128, .f32⟩ : BufTy).Contents (Elt F) → (⟨S1x128, .f32⟩ : BufTy).Contents (Elt F)),
    reshape main_v130 main_v131 rfl shapeCasts_S1x128_S128,
    unary main_v131 main_v132 (broadcastInDim S1x128 ![1] bcast_S128_S1x128_1 : (⟨S128, .f32⟩ : BufTy).Contents (Elt F) → (⟨S1x128, .f32⟩ : BufTy).Contents (Elt F)),
    unary main_v132 main_v133 (broadcastInDim S50000x128 ![0, 1] bcast_S1x128_S50000x128_0_1 : (⟨S1x128, .f32⟩ : BufTy).Contents (Elt F) → (⟨S50000x128, .f32⟩ : BufTy).Contents (Elt F)),
    binary main_v129 main_v133 main_v134 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S50000x128, .f32⟩) main_call4_v0) (broadcastInDim S50000x128 ![] bcast_S_S50000x128),
    TRef.binary (TRef.of (T := ⟨S50000x128, .f32⟩) main_v134) (TRef.of (T := ⟨S50000x128, .f32⟩) main_call4_v0) (TRef.of (T := ⟨S50000x128, .f32⟩) main_v135) maximumf,
    unary main_arg6 main_v136 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v136 main_v137 rfl shapeCasts_S1x128x128_S128x128,
    binary main_v135 main_v137 main_v138 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg7 main_v139 ((extractStridedSlice S1x128 ![2, 0] · slices_S3x128_S1x128_2_0) : (⟨S3x128, .f32⟩ : BufTy).Contents (Elt F) → (⟨S1x128, .f32⟩ : BufTy).Contents (Elt F)),
    reshape main_v139 main_v140 rfl shapeCasts_S1x128_S128,
    unary main_v140 main_v141 (broadcastInDim S1x128 ![1] bcast_S128_S1x128_1 : (⟨S128, .f32⟩ : BufTy).Contents (Elt F) → (⟨S1x128, .f32⟩ : BufTy).Contents (Elt F)),
    unary main_v141 main_v142 (broadcastInDim S50000x128 ![0, 1] bcast_S1x128_S50000x128_0_1 : (⟨S1x128, .f32⟩ : BufTy).Contents (Elt F) → (⟨S50000x128, .f32⟩ : BufTy).Contents (Elt F)),
    binary main_v138 main_v142 main_v143 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S50000x128, .f32⟩) main_call5_v0) (broadcastInDim S50000x128 ![] bcast_S_S50000x128),
    TRef.binary (TRef.of (T := ⟨S50000x128, .f32⟩) main_v143) (TRef.of (T := ⟨S50000x128, .f32⟩) main_call5_v0) (TRef.of (T := ⟨S50000x128, .f32⟩) main_v144) maximumf,
    nullary main_cst_17 (constant S_ .f32 0x00000000#32),
    binary main_v144 main_cst_17 main_v145 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_18 (constant S_ .f32 0x47435000#32),
    unary main_cst_18 main_v146 (broadcastInDim S128 ![] bcast_S_S128 : (⟨S_, .f32⟩ : BufTy).Contents (Elt F) → (⟨S128, .f32⟩ : BufTy).Contents (Elt F)),
    binary main_v145 main_v146 main_v147 (Host.divf : (⟨S128, .f32⟩ : BufTy).Contents (Elt F) → (⟨S128, .f32⟩ : BufTy).Contents (Elt F) → (⟨S128, .f32⟩ : BufTy).Contents (Elt F)),
    unary main_v147 main_v148 (broadcastInDim S1x128 ![1] bcast_S128_S1x128_1 : (⟨S128, .f32⟩ : BufTy).Contents (Elt F) → (⟨S1x128, .f32⟩ : BufTy).Contents (Elt F)),
    unary main_v148 main_v149 (broadcastInDim S50000x128 ![0, 1] bcast_S1x128_S50000x128_0_1 : (⟨S1x128, .f32⟩ : BufTy).Contents (Elt F) → (⟨S50000x128, .f32⟩ : BufTy).Contents (Elt F)),
    binary main_v144 main_v149 main_v150 (subf : (⟨S50000x128, .f32⟩ : BufTy).Contents (Elt F) → (⟨S50000x128, .f32⟩ : BufTy).Contents (Elt F) → (⟨S50000x128, .f32⟩ : BufTy).Contents (Elt F)),
    binary main_v150 main_v150 main_v151 (mulf : (⟨S50000x128, .f32⟩ : BufTy).Contents (Elt F) → (⟨S50000x128, .f32⟩ : BufTy).Contents (Elt F) → (⟨S50000x128, .f32⟩ : BufTy).Contents (Elt F)),
    nullary main_cst_19 (constant S_ .f32 0x00000000#32),
    binary main_v151 main_cst_19 main_v152 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_20 (constant S_ .f32 0x47435000#32),
    unary main_cst_20 main_v153 (broadcastInDim S128 ![] bcast_S_S128 : (⟨S_, .f32⟩ : BufTy).Contents (Elt F) → (⟨S128, .f32⟩ : BufTy).Contents (Elt F)),
    binary main_v152 main_v153 main_v154 (Host.divf : (⟨S128, .f32⟩ : BufTy).Contents (Elt F) → (⟨S128, .f32⟩ : BufTy).Contents (Elt F) → (⟨S128, .f32⟩ : BufTy).Contents (Elt F)),
    unary main_arg8 main_v155 ((extractStridedSlice S1x128 ![2, 0] · slices_S3x128_S1x128_2_0) : (⟨S3x128, .f32⟩ : BufTy).Contents (Elt F) → (⟨S1x128, .f32⟩ : BufTy).Contents (Elt F)),
    reshape main_v155 main_v156 rfl shapeCasts_S1x128_S128,
    unary main_v147 main_v157 (broadcastInDim S1x128 ![1] bcast_S128_S1x128_1 : (⟨S128, .f32⟩ : BufTy).Contents (Elt F) → (⟨S1x128, .f32⟩ : BufTy).Contents (Elt F)),
    unary main_v157 main_v158 (broadcastInDim S50000x128 ![0, 1] bcast_S1x128_S50000x128_0_1 : (⟨S1x128, .f32⟩ : BufTy).Contents (Elt F) → (⟨S50000x128, .f32⟩ : BufTy).Contents (Elt F)),
    binary main_v144 main_v158 main_v159 (subf : (⟨S50000x128, .f32⟩ : BufTy).Contents (Elt F) → (⟨S50000x128, .f32⟩ : BufTy).Contents (Elt F) → (⟨S50000x128, .f32⟩ : BufTy).Contents (Elt F)),
    unary main_v156 main_v160 (broadcastInDim S1x128 ![1] bcast_S128_S1x128_1 : (⟨S128, .f32⟩ : BufTy).Contents (Elt F) → (⟨S1x128, .f32⟩ : BufTy).Contents (Elt F)),
    unary main_v160 main_v161 (broadcastInDim S50000x128 ![0, 1] bcast_S1x128_S50000x128_0_1 : (⟨S1x128, .f32⟩ : BufTy).Contents (Elt F) → (⟨S50000x128, .f32⟩ : BufTy).Contents (Elt F)),
    binary main_v161 main_v159 main_v162 (mulf : (⟨S50000x128, .f32⟩ : BufTy).Contents (Elt F) → (⟨S50000x128, .f32⟩ : BufTy).Contents (Elt F) → (⟨S50000x128, .f32⟩ : BufTy).Contents (Elt F)),
    nullary main_cst_21 (constant S_ .f32 0x3727C5AC#32),
    unary main_cst_21 main_v163 (broadcastInDim S128 ![] bcast_S_S128 : (⟨S_, .f32⟩ : BufTy).Contents (Elt F) → (⟨S128, .f32⟩ : BufTy).Contents (Elt F)),
    binary main_v154 main_v163 main_v164 (addf : (⟨S128, .f32⟩ : BufTy).Contents (Elt F) → (⟨S128, .f32⟩ : BufTy).Contents (Elt F) → (⟨S128, .f32⟩ : BufTy).Contents (Elt F)),
    unary main_v164 main_v165 (Host.rsqrt : (⟨S128, .f32⟩ : BufTy).Contents (Elt F) → (⟨S128, .f32⟩ : BufTy).Contents (Elt F)),
    unary main_v165 main_v166 (broadcastInDim S1x128 ![1] bcast_S128_S1x128_1 : (⟨S128, .f32⟩ : BufTy).Contents (Elt F) → (⟨S1x128, .f32⟩ : BufTy).Contents (Elt F)),
    unary main_v166 main_v167 (broadcastInDim S50000x128 ![0, 1] bcast_S1x128_S50000x128_0_1 : (⟨S1x128, .f32⟩ : BufTy).Contents (Elt F) → (⟨S50000x128, .f32⟩ : BufTy).Contents (Elt F)),
    binary main_v162 main_v167 main_v168 (mulf : (⟨S50000x128, .f32⟩ : BufTy).Contents (Elt F) → (⟨S50000x128, .f32⟩ : BufTy).Contents (Elt F) → (⟨S50000x128, .f32⟩ : BufTy).Contents (Elt F)),
    unary main_arg9 main_v169 ((extractStridedSlice S1x128 ![2, 0] · slices_S3x128_S1x128_2_0) : (⟨S3x128, .f32⟩ : BufTy).Contents (Elt F) → (⟨S1x128, .f32⟩ : BufTy).Contents (Elt F)),
    reshape main_v169 main_v170 rfl shapeCasts_S1x128_S128,
    unary main_v170 main_v171 (broadcastInDim S1x128 ![1] bcast_S128_S1x128_1 : (⟨S128, .f32⟩ : BufTy).Contents (Elt F) → (⟨S1x128, .f32⟩ : BufTy).Contents (Elt F)),
    unary main_v171 main_v172 (broadcastInDim S50000x128 ![0, 1] bcast_S1x128_S50000x128_0_1 : (⟨S1x128, .f32⟩ : BufTy).Contents (Elt F) → (⟨S50000x128, .f32⟩ : BufTy).Contents (Elt F)),
    binary main_v168 main_v172 main_v173 (addf : (⟨S50000x128, .f32⟩ : BufTy).Contents (Elt F) → (⟨S50000x128, .f32⟩ : BufTy).Contents (Elt F) → (⟨S50000x128, .f32⟩ : BufTy).Contents (Elt F)) ]

/-- The three poolings: operations 211–222, into `main_v176`, `main_v179`, `main_v182`. -/
abbrev c4 : List (HloOp τ sig (Elt F)) :=
  [ nullary main_cst_22 (constant S_ .f32 0x00000000#32),
    unary main_cst_22 main_v174 (broadcastInDim S500x128 ![] bcast_S_S500x128 : (⟨S_, .f32⟩ : BufTy).Contents (Elt F) → (⟨S500x128, .f32⟩ : BufTy).Contents (Elt F)),
    unary main_arg3 main_v175 (broadcastInDim S50000x1 ![0] bcast_S50000_S50000x1_0 : (⟨S50000, .i32⟩ : BufTy).Contents (Elt F) → (⟨S50000x1, .i32⟩ : BufTy).Contents (Elt F)),
    ternary main_v174 main_v175 main_v57 main_v176 ((fun x i u => Host.scatterAdd scatter_S500x128_S50000x1_S50000x128_1_0_0_1 x i u) : (⟨S500x128, .f32⟩ : BufTy).Contents (Elt F) → (⟨S50000x1, .i32⟩ : BufTy).Contents (Elt F) → (⟨S50000x128, .f32⟩ : BufTy).Contents (Elt F) → (⟨S500x128, .f32⟩ : BufTy).Contents (Elt F)),
    nullary main_cst_23 (constant S_ .f32 0x00000000#32),
    unary main_cst_23 main_v177 (broadcastInDim S500x128 ![] bcast_S_S500x128 : (⟨S_, .f32⟩ : BufTy).Contents (Elt F) → (⟨S500x128, .f32⟩ : BufTy).Contents (Elt F)),
    unary main_arg3 main_v178 (broadcastInDim S50000x1 ![0] bcast_S50000_S50000x1_0 : (⟨S50000, .i32⟩ : BufTy).Contents (Elt F) → (⟨S50000x1, .i32⟩ : BufTy).Contents (Elt F)),
    ternary main_v177 main_v178 main_v115 main_v179 ((fun x i u => Host.scatterAdd scatter_S500x128_S50000x1_S50000x128_1_0_0_1 x i u) : (⟨S500x128, .f32⟩ : BufTy).Contents (Elt F) → (⟨S50000x1, .i32⟩ : BufTy).Contents (Elt F) → (⟨S50000x128, .f32⟩ : BufTy).Contents (Elt F) → (⟨S500x128, .f32⟩ : BufTy).Contents (Elt F)),
    nullary main_cst_24 (constant S_ .f32 0x00000000#32),
    unary main_cst_24 main_v180 (broadcastInDim S500x128 ![] bcast_S_S500x128 : (⟨S_, .f32⟩ : BufTy).Contents (Elt F) → (⟨S500x128, .f32⟩ : BufTy).Contents (Elt F)),
    unary main_arg3 main_v181 (broadcastInDim S50000x1 ![0] bcast_S50000_S50000x1_0 : (⟨S50000, .i32⟩ : BufTy).Contents (Elt F) → (⟨S50000x1, .i32⟩ : BufTy).Contents (Elt F)),
    ternary main_v180 main_v181 main_v173 main_v182 ((fun x i u => Host.scatterAdd scatter_S500x128_S50000x1_S50000x128_1_0_0_1 x i u) : (⟨S500x128, .f32⟩ : BufTy).Contents (Elt F) → (⟨S50000x1, .i32⟩ : BufTy).Contents (Elt F) → (⟨S50000x128, .f32⟩ : BufTy).Contents (Elt F) → (⟨S500x128, .f32⟩ : BufTy).Contents (Elt F)) ]

/-- The two concatenations: operations 223–224, into the results `main_v183`, `main_v184`. -/
abbrev c5 : List (HloOp τ sig (Elt F)) :=
  [ nary ![main_v176, main_v179, main_v182] main_v183 (fun u => concatenate S500x384 1 [⟨S500x128, u 0⟩, ⟨S500x128, u 1⟩, ⟨S500x128, u 2⟩] concatenates_S500x128_S500x128_S500x128_S500x384_d1),
    nary ![main_v57, main_v115, main_v173] main_v184 (fun u => concatenate S50000x384 1 [⟨S50000x128, u 0⟩, ⟨S50000x128, u 1⟩, ⟨S50000x128, u 2⟩] concatenates_S50000x128_S50000x128_S50000x128_S50000x384_d1) ]

/-! ## What each stretch writes -/

/-- The references layer 1's operations write. -/
abbrev c1_W : List (Ref sig .tc) := [main_c, main_v0, main_v1, main_c_0, main_v2, main_v3, main_v4, main_v5, main_v6, main_cst, main_v7, main_v8, main_v9, main_v10, main_v11, main_v12, main_v13, main_v14, main_v15, main_v16, main_v17, main_v18, main_call0_cst, main_call0_v0, main_v19, main_v20, main_v21, main_v22, main_v23, main_v24, main_v25, main_v26, main_v27, main_call1_cst, main_call1_v0, main_v28, main_cst_1, main_v29, main_cst_2, main_v30, main_v31, main_v32, main_v33, main_v34, main_v35, main_cst_3, main_v36, main_cst_4, main_v37, main_v38, main_v39, main_v40, main_v41, main_v42, main_v43, main_v44, main_v45, main_v46, main_cst_5, main_v47, main_v48, main_v49, main_v50, main_v51, main_v52, main_v53, main_v54, main_v55, main_v56, main_v57]
/-- The references layer 2's operations write. -/
abbrev c2_W : List (Ref sig .tc) := [main_c_6, main_v58, main_v59, main_c_7, main_v60, main_v61, main_v62, main_v63, main_v64, main_cst_8, main_v65, main_v66, main_v67, main_v68, main_v69, main_v70, main_v71, main_v72, main_v73, main_v74, main_v75, main_v76, main_call2_cst, main_call2_v0, main_v77, main_v78, main_v79, main_v80, main_v81, main_v82, main_v83, main_v84, main_v85, main_call3_cst, main_call3_v0, main_v86, main_cst_9, main_v87, main_cst_10, main_v88, main_v89, main_v90, main_v91, main_v92, main_v93, main_cst_11, main_v94, main_cst_12, main_v95, main_v96, main_v97, main_v98, main_v99, main_v100, main_v101, main_v102, main_v103, main_v104, main_cst_13, main_v105, main_v106, main_v107, main_v108, main_v109, main_v110, main_v111, main_v112, main_v113, main_v114, main_v115]
/-- The references layer 3's operations write. -/
abbrev c3_W : List (Ref sig .tc) := [main_c_14, main_v116, main_v117, main_c_15, main_v118, main_v119, main_v120, main_v121, main_v122, main_cst_16, main_v123, main_v124, main_v125, main_v126, main_v127, main_v128, main_v129, main_v130, main_v131, main_v132, main_v133, main_v134, main_call4_cst, main_call4_v0, main_v135, main_v136, main_v137, main_v138, main_v139, main_v140, main_v141, main_v142, main_v143, main_call5_cst, main_call5_v0, main_v144, main_cst_17, main_v145, main_cst_18, main_v146, main_v147, main_v148, main_v149, main_v150, main_v151, main_cst_19, main_v152, main_cst_20, main_v153, main_v154, main_v155, main_v156, main_v157, main_v158, main_v159, main_v160, main_v161, main_v162, main_cst_21, main_v163, main_v164, main_v165, main_v166, main_v167, main_v168, main_v169, main_v170, main_v171, main_v172, main_v173]
/-- The references the poolings write. -/
abbrev c4_W : List (Ref sig .tc) := [main_cst_22, main_v174, main_v175, main_v176, main_cst_23, main_v177, main_v178, main_v179, main_cst_24, main_v180, main_v181, main_v182]
/-- The references the concatenations write. -/
abbrev c5_W : List (Ref sig .tc) := [main_v183, main_v184]

theorem c1_writes : (c1 : List (HloOp τ sig (Elt F))).Forall fun op => op.writes ⊆ (c1_W.map (Proc.devRef (τ := τ) .tc)).toFinset := by
  simp only [List.Forall]
  repeat' apply And.intro
  all_goals (simp only [nullary_writes, unary_writes, binary_writes, ternary_writes, reshape_writes, nary_writes, Finset.singleton_subset_iff, List.mem_toFinset]; exact List.mem_map_of_mem (by decide))
/-- A buffer outside `c1_W` holds after the stretch what it held before. -/
theorem c1_keep (W : Valuation τ sig (Elt F)) (r : Ref sig .tc) (h : r ∉ c1_W) : after c1 W (Proc.devRef .tc r) = W (Proc.devRef .tc r) :=
  after_of_writes_sub c1 W c1_writes h

theorem c2_writes : (c2 : List (HloOp τ sig (Elt F))).Forall fun op => op.writes ⊆ (c2_W.map (Proc.devRef (τ := τ) .tc)).toFinset := by
  simp only [List.Forall]
  repeat' apply And.intro
  all_goals (simp only [nullary_writes, unary_writes, binary_writes, ternary_writes, reshape_writes, nary_writes, Finset.singleton_subset_iff, List.mem_toFinset]; exact List.mem_map_of_mem (by decide))
/-- A buffer outside `c2_W` holds after the stretch what it held before. -/
theorem c2_keep (W : Valuation τ sig (Elt F)) (r : Ref sig .tc) (h : r ∉ c2_W) : after c2 W (Proc.devRef .tc r) = W (Proc.devRef .tc r) :=
  after_of_writes_sub c2 W c2_writes h

theorem c3_writes : (c3 : List (HloOp τ sig (Elt F))).Forall fun op => op.writes ⊆ (c3_W.map (Proc.devRef (τ := τ) .tc)).toFinset := by
  simp only [List.Forall]
  repeat' apply And.intro
  all_goals (simp only [nullary_writes, unary_writes, binary_writes, ternary_writes, reshape_writes, nary_writes, Finset.singleton_subset_iff, List.mem_toFinset]; exact List.mem_map_of_mem (by decide))
/-- A buffer outside `c3_W` holds after the stretch what it held before. -/
theorem c3_keep (W : Valuation τ sig (Elt F)) (r : Ref sig .tc) (h : r ∉ c3_W) : after c3 W (Proc.devRef .tc r) = W (Proc.devRef .tc r) :=
  after_of_writes_sub c3 W c3_writes h

theorem c4_writes : (c4 : List (HloOp τ sig (Elt F))).Forall fun op => op.writes ⊆ (c4_W.map (Proc.devRef (τ := τ) .tc)).toFinset := by
  simp only [List.Forall]
  repeat' apply And.intro
  all_goals (simp only [nullary_writes, unary_writes, binary_writes, ternary_writes, reshape_writes, nary_writes, Finset.singleton_subset_iff, List.mem_toFinset]; exact List.mem_map_of_mem (by decide))
/-- A buffer outside `c4_W` holds after the stretch what it held before. -/
theorem c4_keep (W : Valuation τ sig (Elt F)) (r : Ref sig .tc) (h : r ∉ c4_W) : after c4 W (Proc.devRef .tc r) = W (Proc.devRef .tc r) :=
  after_of_writes_sub c4 W c4_writes h

theorem c5_writes : (c5 : List (HloOp τ sig (Elt F))).Forall fun op => op.writes ⊆ (c5_W.map (Proc.devRef (τ := τ) .tc)).toFinset := by
  simp only [List.Forall]
  repeat' apply And.intro
  all_goals (simp only [nullary_writes, unary_writes, binary_writes, ternary_writes, reshape_writes, nary_writes, Finset.singleton_subset_iff, List.mem_toFinset]; exact List.mem_map_of_mem (by decide))
/-- A buffer outside `c5_W` holds after the stretch what it held before. -/
theorem c5_keep (W : Valuation τ sig (Elt F)) (r : Ref sig .tc) (h : r ∉ c5_W) : after c5 W (Proc.devRef .tc r) = W (Proc.devRef .tc r) :=
  after_of_writes_sub c5 W c5_writes h

/-! ## What each stretch computes -/

set_option maxRecDepth 8192 in
set_option maxHeartbeats 4000000 in
/-- Layer 1's stretch leaves in `main_v57` the layer function of what `main_arg0` held, with slice 0 of the stacked parameters. -/
theorem c1_v57 (W : Valuation τ sig (Elt F)) :
    after c1 W (Proc.devRef .tc main_v57) = layer (W (Proc.devRef .tc main_arg0)) (W (Proc.devRef .tc main_arg1)) (W (Proc.devRef .tc main_arg2))
      (mat0 (W (Proc.devRef .tc main_arg4))) (row0 (W (Proc.devRef .tc main_arg5))) (mat0 (W (Proc.devRef .tc main_arg6))) (row0 (W (Proc.devRef .tc main_arg7))) (row0 (W (Proc.devRef .tc main_arg8))) (row0 (W (Proc.devRef .tc main_arg9))) := by
  after_results_simp
  rfl

set_option maxRecDepth 8192 in
set_option maxHeartbeats 4000000 in
/-- Layer 2's stretch leaves in `main_v115` the layer function of what `main_v57` held, with slice 1 of the stacked parameters. -/
theorem c2_v115 (W : Valuation τ sig (Elt F)) :
    after c2 W (Proc.devRef .tc main_v115) = layer (W (Proc.devRef .tc main_v57)) (W (Proc.devRef .tc main_arg1)) (W (Proc.devRef .tc main_arg2))
      (mat1 (W (Proc.devRef .tc main_arg4))) (row1 (W (Proc.devRef .tc main_arg5))) (mat1 (W (Proc.devRef .tc main_arg6))) (row1 (W (Proc.devRef .tc main_arg7))) (row1 (W (Proc.devRef .tc main_arg8))) (row1 (W (Proc.devRef .tc main_arg9))) := by
  after_results_simp
  rfl

set_option maxRecDepth 8192 in
set_option maxHeartbeats 4000000 in
/-- Layer 3's stretch leaves in `main_v173` the layer function of what `main_v115` held, with slice 2 of the stacked parameters. -/
theorem c3_v173 (W : Valuation τ sig (Elt F)) :
    after c3 W (Proc.devRef .tc main_v173) = layer (W (Proc.devRef .tc main_v115)) (W (Proc.devRef .tc main_arg1)) (W (Proc.devRef .tc main_arg2))
      (mat2 (W (Proc.devRef .tc main_arg4))) (row2 (W (Proc.devRef .tc main_arg5))) (mat2 (W (Proc.devRef .tc main_arg6))) (row2 (W (Proc.devRef .tc main_arg7))) (row2 (W (Proc.devRef .tc main_arg8))) (row2 (W (Proc.devRef .tc main_arg9))) := by
  after_results_simp
  rfl

/-- The pooling stretch leaves in `main_v176` the per-graph sums of what `main_v57` held. -/
theorem c4_v176 (W : Valuation τ sig (Elt F)) :
    after c4 W (Proc.devRef .tc main_v176) = pool (W (Proc.devRef .tc main_v57)) (W (Proc.devRef .tc main_arg3)) := by
  after_results_simp
  rfl

/-- The pooling stretch leaves in `main_v179` the per-graph sums of what `main_v115` held. -/
theorem c4_v179 (W : Valuation τ sig (Elt F)) :
    after c4 W (Proc.devRef .tc main_v179) = pool (W (Proc.devRef .tc main_v115)) (W (Proc.devRef .tc main_arg3)) := by
  after_results_simp
  rfl

/-- The pooling stretch leaves in `main_v182` the per-graph sums of what `main_v173` held. -/
theorem c4_v182 (W : Valuation τ sig (Elt F)) :
    after c4 W (Proc.devRef .tc main_v182) = pool (W (Proc.devRef .tc main_v173)) (W (Proc.devRef .tc main_arg3)) := by
  after_results_simp
  rfl

/-- The concatenation into `main_v183`: its three operands side by side. -/
theorem c5_v183 (W : Valuation τ sig (Elt F)) :
    after c5 W (Proc.devRef .tc main_v183) = concatenate S500x384 1 [⟨S500x128, ((W (Proc.devRef .tc main_v176)) : (⟨S500x128, .f32⟩ : BufTy).Contents (Elt F))⟩, ⟨S500x128, ((W (Proc.devRef .tc main_v179)) : (⟨S500x128, .f32⟩ : BufTy).Contents (Elt F))⟩, ⟨S500x128, ((W (Proc.devRef .tc main_v182)) : (⟨S500x128, .f32⟩ : BufTy).Contents (Elt F))⟩]
      concatenates_S500x128_S500x128_S500x128_S500x384_d1 := by
  after_results_simp
  rfl

/-- The concatenation into `main_v184`: its three operands side by side. -/
theorem c5_v184 (W : Valuation τ sig (Elt F)) :
    after c5 W (Proc.devRef .tc main_v184) = concatenate S50000x384 1 [⟨S50000x128, ((W (Proc.devRef .tc main_v57)) : (⟨S50000x128, .f32⟩ : BufTy).Contents (Elt F))⟩, ⟨S50000x128, ((W (Proc.devRef .tc main_v115)) : (⟨S50000x128, .f32⟩ : BufTy).Contents (Elt F))⟩, ⟨S50000x128, ((W (Proc.devRef .tc main_v173)) : (⟨S50000x128, .f32⟩ : BufTy).Contents (Elt F))⟩]
      concatenates_S50000x128_S50000x128_S50000x128_S50000x384_d1 := by
  after_results_simp
  rfl

end Cert.ReferenceIdeal.Sh

end
-- ==== Proof.Ref.Run.lean ====
/-
  The reference's run, read back as the named functions of Ref/Defs.lean: every weakly fair execution of @main
  terminates with the first result at `out0` and the second at `out1` of the arguments' launch contents, the
  ten arguments unchanged. The 224 operations are the five stretches of Ref/RunChunks.lean in a row, so the contents
  after the program are the stretches' folds one after the other; each layer's output is followed from the stretch
  that writes it through the stretches that leave it alone, and the two results are the concatenations of the three
  poolings and of the three layers' outputs.
-/
import proofs.«409766_j3350074491205_1_alg».proof.Proof.Ref.RunOps
import proofs.«409766_j3350074491205_1_alg».proof.Proof.Ref.RunChunks
import Idealize.ShloMosaic.Lib.Pipeline.Frame

noncomputable section

namespace Cert.ReferenceIdeal.Sh

open Cert.ReferenceIdeal Cert.ReferenceIdeal.Gen Cert.ReferenceIdeal.RunOps Idealize.ShloMosaic Idealize.ShloMosaic.TcCoe Idealize.SL.Sem Idealize.ShloMosaic.StableHlo

variable {F : FTy → Type} [FloatOps F]

/-! ## The five stretches in a row -/

set_option maxRecDepth 8192 in
set_option maxHeartbeats 4000000 in
/-- The program's operation list is the five stretches, in order. -/
theorem ops_eq : (ops : List (HloOp τ sig (Elt F))) = c1 ++ (c2 ++ (c3 ++ (c4 ++ c5))) := rfl

/-- The contents after the whole program: the stretches' folds, one after the other. -/
theorem after_ops (V : Valuation τ sig (Elt F)) : after ops V = after c5 (after c4 (after c3 (after c2 (after c1 V)))) := by
  rw [ops_eq, after_append, after_append, after_append, after_append]

section Stages

variable (V : Valuation τ sig (Elt F))

/-! ### Buffers no stretch so far has written -/

theorem k1 (r : Ref sig .tc) (h1 : r ∉ c1_W) : (after c1 V) (Proc.devRef .tc r) = V (Proc.devRef .tc r) := c1_keep V r h1
theorem k2 (r : Ref sig .tc) (h1 : r ∉ c1_W) (h2 : r ∉ c2_W) : (after c2 (after c1 V)) (Proc.devRef .tc r) = V (Proc.devRef .tc r) :=
  (c2_keep _ r h2).trans (k1 V r h1)
theorem k3 (r : Ref sig .tc) (h1 : r ∉ c1_W) (h2 : r ∉ c2_W) (h3 : r ∉ c3_W) : (after c3 (after c2 (after c1 V))) (Proc.devRef .tc r) = V (Proc.devRef .tc r) :=
  (c3_keep _ r h3).trans (k2 V r h1 h2)
theorem k4 (r : Ref sig .tc) (h1 : r ∉ c1_W) (h2 : r ∉ c2_W) (h3 : r ∉ c3_W) (h4 : r ∉ c4_W) : (after c4 (after c3 (after c2 (after c1 V)))) (Proc.devRef .tc r) = V (Proc.devRef .tc r) :=
  (c4_keep _ r h4).trans (k3 V r h1 h2 h3)
theorem k5 (r : Ref sig .tc) (h1 : r ∉ c1_W) (h2 : r ∉ c2_W) (h3 : r ∉ c3_W) (h4 : r ∉ c4_W) (h5 : r ∉ c5_W) : (after c5 (after c4 (after c3 (after c2 (after c1 V))))) (Proc.devRef .tc r) = V (Proc.devRef .tc r) :=
  (c5_keep _ r h5).trans (k4 V r h1 h2 h3 h4)

/-! ### The layers' outputs, stage by stage, as functions of the contents at the start -/

theorem s1_v57 : (after c1 V) (Proc.devRef .tc main_v57) = L1 (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) := c1_v57 V

theorem s2_v57 : (after c2 (after c1 V)) (Proc.devRef .tc main_v57) = L1 (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  (c2_keep _ main_v57 (by decide)).trans (s1_v57 V)
theorem s2_v115 : (after c2 (after c1 V)) (Proc.devRef .tc main_v115) = L2 (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  rewrite [c2_v115, s1_v57, k1 V main_arg1 (by decide), k1 V main_arg2 (by decide), k1 V main_arg4 (by decide), k1 V main_arg5 (by decide), k1 V main_arg6 (by decide), k1 V main_arg7 (by decide), k1 V main_arg8 (by decide), k1 V main_arg9 (by decide)]
  rfl

theorem s3_v57 : (after c3 (after c2 (after c1 V))) (Proc.devRef .tc main_v57) = L1 (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  (c3_keep _ main_v57 (by decide)).trans (s2_v57 V)
theorem s3_v115 : (after c3 (after c2 (after c1 V))) (Proc.devRef .tc main_v115) = L2 (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  (c3_keep _ main_v115 (by decide)).trans (s2_v115 V)
theorem s3_v173 : (after c3 (after c2 (after c1 V))) (Proc.devRef .tc main_v173) = L3 (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  rewrite [c3_v173, s2_v115, k2 V main_arg1 (by decide) (by decide), k2 V main_arg2 (by decide) (by decide), k2 V main_arg4 (by decide) (by decide), k2 V main_arg5 (by decide) (by decide), k2 V main_arg6 (by decide) (by decide), k2 V main_arg7 (by decide) (by decide), k2 V main_arg8 (by decide) (by decide), k2 V main_arg9 (by decide) (by decide)]
  rfl

theorem s4_v57 : (after c4 (after c3 (after c2 (after c1 V)))) (Proc.devRef .tc main_v57) = L1 (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  (c4_keep _ main_v57 (by decide)).trans (s3_v57 V)
theorem s4_v115 : (after c4 (after c3 (after c2 (after c1 V)))) (Proc.devRef .tc main_v115) = L2 (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  (c4_keep _ main_v115 (by decide)).trans (s3_v115 V)
theorem s4_v173 : (after c4 (after c3 (after c2 (after c1 V)))) (Proc.devRef .tc main_v173) = L3 (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) :=
  (c4_keep _ main_v173 (by decide)).trans (s3_v173 V)
theorem s4_v176 : (after c4 (after c3 (after c2 (after c1 V)))) (Proc.devRef .tc main_v176) = pool (L1 (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9))) (V (Proc.devRef .tc main_arg3)) := by
  rewrite [c4_v176, s3_v57, k3 V main_arg3 (by decide) (by decide) (by decide)]
  rfl
theorem s4_v179 : (after c4 (after c3 (after c2 (after c1 V)))) (Proc.devRef .tc main_v179) = pool (L2 (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9))) (V (Proc.devRef .tc main_arg3)) := by
  rewrite [c4_v179, s3_v115, k3 V main_arg3 (by decide) (by decide) (by decide)]
  rfl
theorem s4_v182 : (after c4 (after c3 (after c2 (after c1 V)))) (Proc.devRef .tc main_v182) = pool (L3 (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9))) (V (Proc.devRef .tc main_arg3)) := by
  rewrite [c4_v182, s3_v173, k3 V main_arg3 (by decide) (by decide) (by decide)]
  rfl

/-! ### The two results -/

theorem s5_v183 : (after c5 (after c4 (after c3 (after c2 (after c1 V))))) (Proc.devRef .tc main_v183) = out0 (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg3)) := by
  rewrite [c5_v183, s4_v176, s4_v179, s4_v182]
  rfl
theorem s5_v184 : (after c5 (after c4 (after c3 (after c2 (after c1 V))))) (Proc.devRef .tc main_v184) = out1 (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  rewrite [c5_v184, s4_v57, s4_v115, s4_v173]
  rfl

end Stages

/-! ## The run -/

/-- On every device, for any float values, from any memory with zero counters: every weakly fair execution of
    @main terminates with the first result at `out0` and the second at `out1` of the arguments' launch
    contents, and the ten arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v183) = out0 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg3))
      ∧ r.2.mem ((c.tc : Thread nD τ).loc main_v184) = out1 (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
      have e : ∀ b : Ref sig .tc, _ = after c5 (after c4 (after c3 (after c2 (after c1 (launchContents m c))))) (Proc.devRef .tc b) :=
        fun b => (h c b).trans (congrFun (after_ops (launchContents m c)) _)
      ⟨(e main_v183).trans (s5_v183 _), (e main_v184).trans (s5_v184 _),
       (e main_arg0).trans (k5 _ main_arg0 (by decide) (by decide) (by decide) (by decide) (by decide)),
       (e main_arg1).trans (k5 _ main_arg1 (by decide) (by decide) (by decide) (by decide) (by decide)),
       (e main_arg2).trans (k5 _ main_arg2 (by decide) (by decide) (by decide) (by decide) (by decide)),
       (e main_arg3).trans (k5 _ main_arg3 (by decide) (by decide) (by decide) (by decide) (by decide)),
       (e main_arg4).trans (k5 _ main_arg4 (by decide) (by decide) (by decide) (by decide) (by decide)),
       (e main_arg5).trans (k5 _ main_arg5 (by decide) (by decide) (by decide) (by decide) (by decide)),
       (e main_arg6).trans (k5 _ main_arg6 (by decide) (by decide) (by decide) (by decide) (by decide)),
       (e main_arg7).trans (k5 _ main_arg7 (by decide) (by decide) (by decide) (by decide) (by decide)),
       (e main_arg8).trans (k5 _ main_arg8 (by decide) (by decide) (by decide) (by decide) (by decide)),
       (e main_arg9).trans (k5 _ main_arg9 (by decide) (by decide) (by decide) (by decide) (by decide))⟩)
    (run_seq scopedRefs_eq scopedSems_eq defs main (fun _ => ops) main_eq (fun _ => ops_sub) m ρ)

end Cert.ReferenceIdeal.Sh

end
-- ==== Proof.lean ====
/-
  The certificate's claim: the graph-isomorphism-network kernel program (three layers of neighbour aggregation on the
  host, a perceptron kernel, batch statistics on the host, a normalisation-and-pooling kernel) against its plain
  reference, over the extended reals.
  * The three frames: each program runs to the end from any admitted memory and leaves its ten arguments as launched.
    The kernel programs run as eight host stretches around six kernel regions (the perceptron regions store one value
    per block; the normalisation regions carry a pooling accumulator across their ten grid points); the reference is a
    straight line of host operations.
  * The idealization rewrote nothing, so there is nothing to preserve.
  * Equal results: layer by layer both programs compute relu(relu((h + Σ_neighbours h)·W1 + b1)·W2 + b2), normalise it by
    its own column mean and variance, and sum the normalised rows per graph — the kernel by a product with the one-hot
    membership matrix accumulated over blocks of rows, the reference by a scatter-add over the graph ids: the same sums.
    No law used needs finiteness of the inputs.
-/
import proofs.«409766_j3350074491205_1_alg».proof.Defs
import proofs.«409766_j3350074491205_1_alg».proof.Proof.Gen.Kernel
import proofs.«409766_j3350074491205_1_alg».proof.Proof.Gen.KernelIdeal
import proofs.«409766_j3350074491205_1_alg».proof.Proof.Gen.ReferenceIdeal
import proofs.«409766_j3350074491205_1_alg».proof.Proof.Gen.Pre_finite_inputs
import proofs.«409766_j3350074491205_1_alg».proof.Proof.K.Launch
import proofs.«409766_j3350074491205_1_alg».proof.Proof.KI.Value
import proofs.«409766_j3350074491205_1_alg».proof.Proof.Ref.Run
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Rg.frame_main m ρ

theorem frame_ki : Cert.frame_KernelIdeal (hKernelIdeal := Cert.KernelIdeal.Gen.facts) (hPre_finite_inputs := Cert.Pre_finite_inputs.Gen.facts) :=
  fun m ρ _ => Cert.KernelIdeal.Rg.frame_main m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Sh.run (F := Ideal) m ρ)

/-- Both idealized programs end with the reference's two functions of the (agreeing) arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.ReferenceIdeal.Sh.out0 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg3)), fun c => Cert.ReferenceIdeal.Sh.out1 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · refine (θ_run Cert.KernelIdeal.defs _ _).mono (fun r h c => ?_) (Cert.KernelIdeal.Rg.run_all (F := Ideal) m ρ)
    exact ⟨(h c _ (Finset.mem_filter.mpr ⟨StableHlo.devRef_mem_tcRefs Cert.KernelIdeal.main_v118, by decide⟩)).trans (Cert.KernelIdeal.Rg.res0_eq m c),
      (h c _ (Finset.mem_filter.mpr ⟨StableHlo.devRef_mem_tcRefs Cert.KernelIdeal.main_v119, by decide⟩)).trans (Cert.KernelIdeal.Rg.res1_eq m c),
      (h c _ (Finset.mem_filter.mpr ⟨StableHlo.devRef_mem_tcRefs Cert.KernelIdeal.main_arg0, by decide⟩)).trans (Cert.KernelIdeal.Gen.V14_main_arg0 m _ c),
      (h c _ (Finset.mem_filter.mpr ⟨StableHlo.devRef_mem_tcRefs Cert.KernelIdeal.main_arg1, by decide⟩)).trans (Cert.KernelIdeal.Gen.V14_main_arg1 m _ c),
      (h c _ (Finset.mem_filter.mpr ⟨StableHlo.devRef_mem_tcRefs Cert.KernelIdeal.main_arg2, by decide⟩)).trans (Cert.KernelIdeal.Gen.V14_main_arg2 m _ c),
      (h c _ (Finset.mem_filter.mpr ⟨StableHlo.devRef_mem_tcRefs Cert.KernelIdeal.main_arg3, by decide⟩)).trans (Cert.KernelIdeal.Gen.V14_main_arg3 m _ c),
      (h c _ (Finset.mem_filter.mpr ⟨StableHlo.devRef_mem_tcRefs Cert.KernelIdeal.main_arg4, by decide⟩)).trans (Cert.KernelIdeal.Gen.V14_main_arg4 m _ c),
      (h c _ (Finset.mem_filter.mpr ⟨StableHlo.devRef_mem_tcRefs Cert.KernelIdeal.main_arg5, by decide⟩)).trans (Cert.KernelIdeal.Gen.V14_main_arg5 m _ c),
      (h c _ (Finset.mem_filter.mpr ⟨StableHlo.devRef_mem_tcRefs Cert.KernelIdeal.main_arg6, by decide⟩)).trans (Cert.KernelIdeal.Gen.V14_main_arg6 m _ c),
      (h c _ (Finset.mem_filter.mpr ⟨StableHlo.devRef_mem_tcRefs Cert.KernelIdeal.main_arg7, by decide⟩)).trans (Cert.KernelIdeal.Gen.V14_main_arg7 m _ c),
      (h c _ (Finset.mem_filter.mpr ⟨StableHlo.devRef_mem_tcRefs Cert.KernelIdeal.main_arg8, by decide⟩)).trans (Cert.KernelIdeal.Gen.V14_main_arg8 m _ c),
      (h c _ (Finset.mem_filter.mpr ⟨StableHlo.devRef_mem_tcRefs Cert.KernelIdeal.main_arg9, by decide⟩)).trans (Cert.KernelIdeal.Gen.V14_main_arg9 m _ c)⟩
  · refine (θ_run Cert.ReferenceIdeal.defs _ _).mono (fun r h c => ?_) (Cert.ReferenceIdeal.Sh.run (F := Ideal) m' ρ')
    obtain ⟨h0, h1, hargs⟩ := h c
    obtain ⟨e0, e1, e2, e3, e4, e5, e6, e7, e8, e9⟩ := hagree c
    refine ⟨h0.trans ?_, h1.trans ?_, hargs⟩
    · rw [e0, e1, e2, e3, e4, e5, e6, e7, e8, e9]
    · rw [e0, e1, e2, e4, e5, e6, e7, e8, e9]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
